-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![16384, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Pre_finite_inputs_ReferenceIdeal.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  main_v3
-- ==== Kernel.lean ====
abbrev S4096x1024 : Shape := ⟨2, ![4096, 1024]⟩
abbrev S1x1024 : Shape := ⟨2, ![1, 1024]⟩
abbrev S1024x1024 : Shape := ⟨2, ![1024, 1024]⟩
abbrev S8x1024 : Shape := ⟨2, ![8, 1024]⟩
abbrev S4x1024 : Shape := ⟨2, ![4, 1024]⟩
abbrev S3 : Shape := ⟨1, ![3]⟩
abbrev S128x8x1024 : Shape := ⟨3, ![128, 8, 1024]⟩
abbrev S_ : Shape := ⟨0, ![]⟩
abbrev S1024 : Shape := ⟨1, ![1024]⟩
abbrev S1 : Shape := ⟨1, ![1]⟩

abbrev nBuf : Space → Nat
  | .hbm => 2
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S8x1024, .f32⟩
  | .local _ .vmem, ⟨4, _⟩ => ⟨S4x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem0_1 : DmaSem sig := 1
abbrev cc0_sem1_0 : DmaSem sig := 2
abbrev barrier0 : Sem sig := 0

abbrev nD : Nat := 4
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v8 : BitVec 1 := Scalar.cmpi .eq arg0 c0_i32
  let v9 : BitVec 32 := Scalar.extui v8
  let c0_i32_1 : BitVec 32 := 0#32
  let v10 : BitVec 1 := Scalar.cmpi .ne v9 c0_i32_1
  v10

def k0_dev1 (d4 : Dev nD) : Nat :=
  let c0_i32_11 : BitVec 32 := 0#32
  let v4 : BitVec 32 := Dev.word d4
  let c1_i32 : BitVec 32 := 1#32
  let v5 : BitVec 32 := Scalar.divsi v4 c1_i32
  let c4_i32 : BitVec 32 := 4#32
  let v6 : BitVec 32 := Scalar.remsi v5 c4_i32
  let c1_i32_7 : BitVec 32 := 1#32
  let v20 : BitVec 32 := Scalar.addi v6 c1_i32_7
  let c4_i32_8 : BitVec 32 := 4#32
  let v21 : BitVec 32 := Scalar.remsi v20 c4_i32_8
  let c1_i32_10 : BitVec 32 := 1#32
  let v22 : BitVec 32 := Scalar.muli v21 c1_i32_10
  let v23 : BitVec 32 := Scalar.addi c0_i32_11 v22
  v23.toNat
def k0_dev2 (d4 : Dev nD) : Nat :=
  let c0_i32_15 : BitVec 32 := 0#32
  let v4 : BitVec 32 := Dev.word d4
  let c1_i32 : BitVec 32 := 1#32
  let v5 : BitVec 32 := Scalar.divsi v4 c1_i32
  let c4_i32 : BitVec 32 := 4#32
  let v6 : BitVec 32 := Scalar.remsi v5 c4_i32
  let c2_i32 : BitVec 32 := 2#32
  let v24 : BitVec 32 := Scalar.addi v6 c2_i32
  let c4_i32_12 : BitVec 32 := 4#32
  let v25 : BitVec 32 := Scalar.remsi v24 c4_i32_12
  let c1_i32_14 : BitVec 32 := 1#32
  let v26 : BitVec 32 := Scalar.muli v25 c1_i32_14
  let v27 : BitVec 32 := Scalar.addi c0_i32_15 v26
  v27.toNat
def k0_dev3 (d4 : Dev nD) : Nat :=
  let c0_i32_20 : BitVec 32 := 0#32
  let v4 : BitVec 32 := Dev.word d4
  let c1_i32 : BitVec 32 := 1#32
  let v5 : BitVec 32 := Scalar.divsi v4 c1_i32
  let c4_i32 : BitVec 32 := 4#32
  let v6 : BitVec 32 := Scalar.remsi v5 c4_i32
  let c3_i32_16 : BitVec 32 := 3#32
  let v28 : BitVec 32 := Scalar.addi v6 c3_i32_16
  let c4_i32_17 : BitVec 32 := 4#32
  let v29 : BitVec 32 := Scalar.remsi v28 c4_i32_17
  let c1_i32_19 : BitVec 32 := 1#32
  let v30 : BitVec 32 := Scalar.muli v29 c1_i32_19
  let v31 : BitVec 32 := Scalar.addi c0_i32_20 v30
  v31.toNat
def k0_cond3 (i : grid0.Coords) : BitVec 1 :=
  let arg0 : BitVec 32 := BitVec.ofNat 32 (i 0).val
  let c3_i32 : BitVec 32 := 3#32
  let v14 : BitVec 1 := Scalar.cmpi .eq arg0 c3_i32
  let v15 : BitVec 32 := Scalar.extui v14
  let c0_i32_4 : BitVec 32 := 0#32
  let v16 : BitVec 1 := Scalar.cmpi .ne v15 c0_i32_4
  v16

def k0_off1 (d4 : Dev nD) : Fin 2 → Nat :=
  let v4 : BitVec 32 := Dev.word d4
  let c1_i32 : BitVec 32 := 1#32
  let v5 : BitVec 32 := Scalar.divsi v4 c1_i32
  let c4_i32 : BitVec 32 := 4#32
  let v6 : BitVec 32 := Scalar.remsi v5 c4_i32
  let v23 : Index := Scalar.indexCast v6
  let c0_13 : Index := 0#32
  ![v23.toNat, 0]
def k0_off2 (d4 : Dev nD) : Fin 2 → Nat :=
  let v4 : BitVec 32 := Dev.word d4
  let c1_i32 : BitVec 32 := 1#32
  let v5 : BitVec 32 := Scalar.divsi v4 c1_i32
  let c4_i32 : BitVec 32 := 4#32
  let v6 : BitVec 32 := Scalar.remsi v5 c4_i32
  let c0_i32_20 : BitVec 32 := 0#32
  ![v6.toNat, 0]
def k0_dev4 (d4 : Dev nD) : Nat :=
  let c0_i32_19 : BitVec 32 := 0#32
  let v4 : BitVec 32 := Dev.word d4
  let c1_i32 : BitVec 32 := 1#32
  let v5 : BitVec 32 := Scalar.divsi v4 c1_i32
  let c4_i32 : BitVec 32 := 4#32
  let v6 : BitVec 32 := Scalar.remsi v5 c4_i32
  let c1_i32_14 : BitVec 32 := 1#32
  let v27 : BitVec 32 := Scalar.addi v6 c1_i32_14
  let c4_i32_15 : BitVec 32 := 4#32
  let v28 : BitVec 32 := Scalar.remsi v27 c4_i32_15
  let c1_i32_18 : BitVec 32 := 1#32
  let v29 : BitVec 32 := Scalar.muli v28 c1_i32_18
  let v30 : BitVec 32 := Scalar.addi c0_i32_19 v29
  v30.toNat
def k0_dev5 (d4 : Dev nD) : Nat :=
  let c0_i32_26 : BitVec 32 := 0#32
  let v4 : BitVec 32 := Dev.word d4
  let c1_i32 : BitVec 32 := 1#32
  let v5 : BitVec 32 := Scalar.divsi v4 c1_i32
  let c4_i32 : BitVec 32 := 4#32
  let v6 : BitVec 32 := Scalar.remsi v5 c4_i32
  let c2_i32 : BitVec 32 := 2#32
  let v37 : BitVec 32 := Scalar.addi v6 c2_i32
  let c4_i32_22 : BitVec 32 := 4#32
  let v38 : BitVec 32 := Scalar.remsi v37 c4_i32_22
  let c1_i32_25 : BitVec 32 := 1#32
  let v39 : BitVec 32 := Scalar.muli v38 c1_i32_25
  let v40 : BitVec 32 := Scalar.addi c0_i32_26 v39
  v40.toNat
def k0_dev6 (d4 : Dev nD) : Nat :=
  let c0_i32_34 : BitVec 32 := 0#32
  let v4 : BitVec 32 := Dev.word d4
  let c1_i32 : BitVec 32 := 1#32
  let v5 : BitVec 32 := Scalar.divsi v4 c1_i32
  let c4_i32 : BitVec 32 := 4#32
  let v6 : BitVec 32 := Scalar.remsi v5 c4_i32
  let c3_i32_29 : BitVec 32 := 3#32
  let v47 : BitVec 32 := Scalar.addi v6 c3_i32_29
  let c4_i32_30 : BitVec 32 := 4#32
  let v48 : BitVec 32 := Scalar.remsi v47 c4_i32_30
  let c1_i32_33 : BitVec 32 := 1#32
  let v49 : BitVec 32 := Scalar.muli v48 c1_i32_33
  let v50 : BitVec 32 := Scalar.addi c0_i32_34 v49
  v50.toNat
def k0_off3 (d4 : Dev nD) (c1_i32_37 : BitVec 32) : Fin 2 → Nat :=
  let v4 : BitVec 32 := Dev.word d4
  let c1_i32 : BitVec 32 := 1#32
  let v5 : BitVec 32 := Scalar.divsi v4 c1_i32
  let c4_i32 : BitVec 32 := 4#32
  let v6 : BitVec 32 := Scalar.remsi v5 c4_i32
  let v57 : BitVec 32 := Scalar.subi v6 c1_i32_37
  let c4_i32_38 : BitVec 32 := 4#32
  let v58 : BitVec 32 := Scalar.addi v57 c4_i32_38
  let c4_i32_39 : BitVec 32 := 4#32
  let v59 : BitVec 32 := Scalar.remsi v58 c4_i32_39
  let c0_i32_44 : BitVec 32 := 0#32
  ![v59.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1024x1024_S128x8x1024 : S1024x1024.ShapeCasts S128x8x1024
  reduces_S128x8x1024_S8x1024 : S128x8x1024.Reduces [0] S8x1024
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  hamt_1 : (1#32 : BitVec 32).msb = false
  reduces_S8x1024_S1024 : S8x1024.Reduces [0] S1024
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  hamt_3 : (3#32 : BitVec 32).msb = false
  shapeCasts_S1x1024_S1x1024 : S1x1024.ShapeCasts S1x1024
  inb_S3_S1_0 : ∀ a, (![0] : Fin 1 → Nat) a + S1.size a ≤ S3.size a
  squeezes_S1_S_ : S1.Squeezes S_
  inb_S3_S1_1 : ∀ a, (![1] : Fin 1 → Nat) a + S1.size a ≤ S3.size a
  inb_S3_S1_2 : ∀ a, (![2] : Fin 1 → Nat) a + S1.size a ≤ S3.size a
  inb_S4x1024_S4x1024_0_0 : ∀ a, (![0, 0] : Fin 2 → Nat) a + S4x1024.size a ≤ S4x1024.size a
  h_S4x1024 : 0 < S4x1024.numel
  reduces_S4x1024_S1024 : S4x1024.Reduces [0] S1024
  hcc0_scratch2 : 3 + S3.numel ≤ 9
  hcc0_scratch3 : 6 + S3.numel ≤ 9
  hrank0 : 0 < grid0.rank
  k0_dev1_lt : ∀ (i : grid0.Coords) (d4 : Dev nD), ∀ (k0_h1 : k0_cond1 i = 1#1), (k0_dev1 d4) < nD
  k0_dev2_lt : ∀ (i : grid0.Coords) (d4 : Dev nD), ∀ (k0_h1 : k0_cond1 i = 1#1), (k0_dev2 d4) < nD
  k0_dev3_lt : ∀ (i : grid0.Coords) (d4 : Dev nD), ∀ (k0_h1 : k0_cond1 i = 1#1), (k0_dev3 d4) < nD
  k0_off1_inb : ∀ (i : grid0.Coords) (d4 : Dev nD), ∀ (k0_h3 : k0_cond3 i = 1#1), ∀ a, (k0_off1 d4) a + S1x1024.size a ≤ S4x1024.size a
  k0_off2_inb : ∀ (i : grid0.Coords) (d4 : Dev nD), ∀ (k0_h3 : k0_cond3 i = 1#1), ∀ a, (k0_off2 d4) a + S1x1024.size a ≤ S4x1024.size a
  k0_dev4_lt : ∀ (i : grid0.Coords) (d4 : Dev nD), ∀ (k0_h3 : k0_cond3 i = 1#1), (k0_dev4 d4) < nD
  k0_dev5_lt : ∀ (i : grid0.Coords) (d4 : Dev nD), ∀ (k0_h3 : k0_cond3 i = 1#1), (k0_dev5 d4) < nD
  k0_dev6_lt : ∀ (i : grid0.Coords) (d4 : Dev nD), ∀ (k0_h3 : k0_cond3 i = 1#1), (k0_dev6 d4) < nD
  k0_off3_inb : ∀ (i : grid0.Coords) (d4 : Dev nD), ∀ (k0_h3 : k0_cond3 i = 1#1), ∀ (r : Fin 3), ∀ a, (k0_off3 d4 (BitVec.ofNat 32 (1 + r.val))) a + S1x1024.size a ≤ S4x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)

variable [Facts₀]

abbrev cc0_scratch2 : DmaSems sig S3 := SemArray.consecutive 3 S3 hcc0_scratch2
abbrev cc0_scratch3 : DmaSems sig S3 := SemArray.consecutive 6 S3 hcc0_scratch3

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond3 i == 1#1) | ⟨_ + 2, h⟩ => absurd h (Nat.not_lt.2 (Nat.le_add_left _ _))

class Facts : Prop extends Facts₀ where

variable [Facts]
-- ==== ReferenceIdeal.lean ====
abbrev S16384x1024 : Shape := ⟨2, ![16384, 1024]⟩
abbrev S_ : Shape := ⟨0, ![]⟩
abbrev S1024 : Shape := ⟨1, ![1024]⟩
abbrev S1x1024 : Shape := ⟨2, ![1, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S_, .f32⟩
  | .hbm, ⟨2, _⟩ => ⟨S1024, .f32⟩
  | .hbm, ⟨3, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S16384x1024_S1024_d0 : S16384x1024.ReducesTo [0] S1024
  h_S_ : 0 < S_.numel
  bcast_S1024_S1x1024_1 : S1024.BroadcastsInDim S1x1024 (![1] : Fin 1 → Fin S1x1024.rank)

variable [Facts₀]

class Facts : Prop extends Facts₀ where

variable [Facts]
-- ==== Proof.Spec.lean ====
/-
  What one device computes, as pure functions of its four row blocks, and what every device ends with.

  A device holds 4096 rows of the array, visited as four blocks of 1024 rows. Each block is folded, 128 groups of
  eight rows at a time, to an 8 × 1024 array of columnwise maxima (the body's first payload); the running maximum
  over the four blocks is kept in an 8 × 1024 accumulator; at the last block its eight rows are folded to one row,
  the device's own row of columnwise maxima. The four devices' rows are gathered into a 4 × 1024 array, the same on
  every device, and its four rows folded to the result row.
-/
import proofs.«900920_g7700000000000921_dist_max_ax0_shard0_i_m4096_n1024_v7x_i4_bf16_1_alg».proof.Proof.Gen.KernelIdeal.Skeleton
import Idealize.ShloMosaic.Lib.ValueIdx

noncomputable section

namespace Cert.KernelIdeal.Hand

open Idealize.ShloMosaic Idealize.ShloMosaic.ValueIdx Cert.KernelIdeal Cert.KernelIdeal.Gen

variable {F : FTy → Type} [FloatOps F]

/-- The accumulator after the block at point `t`, from what it held before: the first block resets it, a later one
    joins its eight rows of maxima with the accumulator's. -/
def accStep (t : Nat) (b : Vec F S1024x1024 .f32) (a : Vec F S8x1024 .f32) : Vec F S8x1024 .f32 :=
  if t = 0 then k0_pay2 b else k0_pay3 b a

/-- The accumulator after all four blocks. -/
def accOf (b : Fin 4 → Vec F S1024x1024 .f32) : Vec F S8x1024 .f32 :=
  k0_pay3 (b 3) (k0_pay3 (b 2) (k0_pay3 (b 1) (k0_pay2 (b 0))))

/-- A device's own row: the accumulator's eight rows folded to one. -/
def rowOf (b : Fin 4 → Vec F S1024x1024 .f32) : Vec F S1x1024 .f32 := k0_pay5 (accOf b)

/-- The gathered array: row `d` is device `d`'s own row, as that device stored it. -/
def gathOf (B : Fin 4 → Fin 4 → Vec F S1024x1024 .f32) : Vec F S4x1024 .f32 :=
  fun i => k0_pay6 (rowOf (B ⟨(i 0).val, (i 0).isLt⟩)) (ix2 (0 : Fin 1) (⟨(i 1).val, (i 1).isLt⟩ : Fin 1024))

/-- The result row, the same on every device: the gathered array's four rows folded to one. -/
def resOf (B : Fin 4 → Fin 4 → Vec F S1024x1024 .f32) : Vec F S1x1024 .f32 := k0_pay4 (gathOf B)

end Cert.KernelIdeal.Hand

end
-- ==== Proof.Cells.lean ====
/-
  The mesh's arithmetic and the semaphore cells of the all-to-all exchange of rows.

  Four devices in a ring of offsets: device `c` addresses `plus c k` (offset `k + 1` ahead of it, k = 0, 1, 2), and is
  addressed at offset `k + 1` by `minus c k`. Each device has one barrier cell (the runtime's barrier semaphore), three
  send cells and three receive cells (its two arrays of three DMA semaphores); transfer `k` of device `c` goes to
  `plus c k`, completes on that device's receive cell `k` and on `c`'s own send cell `k`.
-/
import proofs.«900920_g7700000000000921_dist_max_ax0_shard0_i_m4096_n1024_v7x_i4_bf16_1_alg».proof.Proof.Spec
import proofs.«900920_g7700000000000921_dist_max_ax0_shard0_i_m4096_n1024_v7x_i4_bf16_1_alg».proof.Proof.Gen.KernelIdeal.Launch
import proofs.«900920_g7700000000000921_dist_max_ax0_shard0_i_m4096_n1024_v7x_i4_bf16_1_alg».proof.Proof.Gen.KernelIdeal.Points
import proofs.«900920_g7700000000000921_dist_max_ax0_shard0_i_m4096_n1024_v7x_i4_bf16_1_alg».proof.Proof.Gen.KernelIdeal.Frame
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) and the exchange's (duties `Fin 3`, an offset) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Offsets on the mesh -/

/-- The device `k + 1` places ahead of `c`. -/
def plus (c : Dev nD) (k : Fin 3) : Dev nD := ⟨(c.val + k.val + 1) % 4, Nat.mod_lt _ (by decide)⟩
/-- The device `k + 1` places behind `c`: the one whose `plus · k` is `c`. -/
def minus (c : Dev nD) (k : Fin 3) : Dev nD := ⟨(c.val + 3 - k.val) % 4, Nat.mod_lt _ (by decide)⟩
/-- The complementary offset: `k + 1` ahead is `rev k + 1` behind. -/
def rev (k : Fin 3) : Fin 3 := ⟨2 - k.val, by omega⟩

theorem minus_plus (c : Dev nD) (k : Fin 3) : minus (plus c k) k = c := by revert c k; decide
theorem plus_minus (c : Dev nD) (k : Fin 3) : plus (minus c k) k = c := by revert c k; decide
theorem plus_rev (c : Dev nD) (k : Fin 3) : plus c (rev k) = minus c k := by revert c k; decide
theorem minus_rev (c : Dev nD) (k : Fin 3) : minus c (rev k) = plus c k := by revert c k; decide
theorem rev_rev (k : Fin 3) : rev (rev k) = k := by revert k; decide
theorem plus_ne (c : Dev nD) (k : Fin 3) : plus c k ≠ c := by revert c k; decide
theorem minus_ne (c : Dev nD) (k : Fin 3) : minus c k ≠ c := by revert c k; decide
theorem plus_inj (c : Dev nD) (k k' : Fin 3) (h : plus c k = plus c k') : k = k' := by revert c k k'; decide
theorem minus_inj (c : Dev nD) (k k' : Fin 3) (h : minus c k = minus c k') : k = k' := by revert c k k'; decide
theorem plus_left_inj (c c' : Dev nD) (k : Fin 3) (h : plus c k = plus c' k) : c = c' := by revert c c' k; decide
/-- Every other device is some offset ahead. -/
theorem exists_plus (c d : Dev nD) (h : d ≠ c) : ∃ k, d = plus c k := by revert c d; decide

/-- The kernel's `device_id` chains: the three signals and the three transfers name `plus c 0`, `plus c 1`, `plus c 2`. -/
theorem dev1_eq (i : grid0.Coords) (c : Dev nD) (h) : (⟨k0_dev1 c, k0_dev1_lt i c h⟩ : Dev nD) = plus c 0 := Fin.ext (k0_dev1_eq c)
theorem dev2_eq (i : grid0.Coords) (c : Dev nD) (h) : (⟨k0_dev2 c, k0_dev2_lt i c h⟩ : Dev nD) = plus c 1 := Fin.ext (k0_dev2_eq c)
theorem dev3_eq (i : grid0.Coords) (c : Dev nD) (h) : (⟨k0_dev3 c, k0_dev3_lt i c h⟩ : Dev nD) = plus c 2 := Fin.ext (k0_dev3_eq c)
theorem dev4_eq (i : grid0.Coords) (c : Dev nD) (h) : (⟨k0_dev4 c, k0_dev4_lt i c h⟩ : Dev nD) = plus c 0 := Fin.ext (k0_dev4_eq c)
theorem dev5_eq (i : grid0.Coords) (c : Dev nD) (h) : (⟨k0_dev5 c, k0_dev5_lt i c h⟩ : Dev nD) = plus c 1 := Fin.ext (k0_dev5_eq c)
theorem dev6_eq (i : grid0.Coords) (c : Dev nD) (h) : (⟨k0_dev6 c, k0_dev6_lt i c h⟩ : Dev nD) = plus c 2 := Fin.ext (k0_dev6_eq c)

/-! ## The semaphores and their cells -/

/-- The runtime's barrier semaphore of collective id 0 (unscoped). -/
abbrev barS : Sem sig := (SemArray.scalar (sig.barrier 0 rfl) : Sems sig S_).sem
/-- Send semaphore `k` and receive semaphore `k` (scoped scratch). -/
abbrev sendS (k : Fin 3) : DmaSem sig := ((cc0_scratch2.slice (Rect.unit (s := S3) ![k.val] S1.size (by revert k; decide))).squeeze S_ squeezes_S1_S_).sem
abbrev recvS (k : Fin 3) : DmaSem sig := ((cc0_scratch3.slice (Rect.unit (s := S3) ![k.val] S1.size (by revert k; decide))).squeeze S_ squeezes_S1_S_).sem

abbrev barCell (c : Dev nD) : GSem nD τ sig := ((c : Thread nD τ), .reg barS)
abbrev sendCell (c : Dev nD) (k : Fin 3) : GSem nD τ sig := ((c : Thread nD τ), .dma (sendS k))
abbrev recvCell (c : Dev nD) (k : Fin 3) : GSem nD τ sig := ((c : Thread nD τ), .dma (recvS k))

theorem sendS_val (k : Fin 3) : (sendS k).val = 3 + k.val := by revert k; decide
theorem recvS_val (k : Fin 3) : (recvS k).val = 6 + k.val := by revert k; decide

/-! ## The gathered array's buffer and its rows -/

abbrev xM0 : Memref sig .tc .vmem S1024x1024 .f32 := Memref.whole cc0_stg0_0
abbrev oM : Memref sig .tc .vmem S1x1024 .f32 := Memref.whole cc0_stg1_0
abbrev accM : Memref sig .tc .vmem S8x1024 .f32 := Memref.whole cc0_scratch0
abbrev commM : Memref sig .tc .vmem S4x1024 .f32 := Memref.whole cc0_scratch1

theorem row_inb (r : Dev nD) : ∀ a, (![r.val, 0] : Fin 2 → Nat) a + S1x1024.size a ≤ S4x1024.size a := by revert r; decide
/-- Row `r` of the gathered array, as a rectangle and as a memref. -/
abbrev rowR (r : Dev nD) : Rect S4x1024 := Rect.unit (s := S4x1024) ![r.val, 0] S1x1024.size (row_inb r)
abbrev rowM (r : Dev nD) : Memref sig .tc .vmem S1x1024 .f32 := commM.slice (rowR r) (fun _ => rfl)

/-- A slice the kernel takes at computed offsets is the row those offsets name. -/
theorem slice_of_off (off : Fin 2 → Nat) (hin : ∀ a, off a + S1x1024.size a ≤ S4x1024.size a) (r : Dev nD) (e : off = ![r.val, 0]) :
    (commM.slice (Rect.unit (s := S4x1024) off S1x1024.size hin) (fun _ => rfl) : Memref sig .tc .vmem S1x1024 .f32) = rowM r := by
  subst e; rfl

theorem slice_off2 (i : grid0.Coords) (c : Dev nD) (h) :
    (commM.slice (Rect.unit (s := S4x1024) (k0_off2 c) S1x1024.size (k0_off2_inb i c h)) (fun _ => rfl) : Memref sig .tc .vmem S1x1024 .f32) = rowM c :=
  slice_of_off _ _ c (k0_off2_eq c)

theorem off3_eq (c : Dev nD) (k : Fin 3) : k0_off3 c (BitVec.ofNat 32 (1 + k.val)) = ![(minus c k).val, 0] := by
  rw [k0_off3_eq c k]; rfl

theorem slice_off3 (i : grid0.Coords) (c : Dev nD) (h) (k : Fin 3) :
    (commM.slice (Rect.unit (s := S4x1024) (k0_off3 c (BitVec.ofNat 32 (1 + k.val))) S1x1024.size (k0_off3_inb i c h k)) (fun _ => rfl) : Memref sig .tc .vmem S1x1024 .f32) = rowM (minus c k) :=
  slice_of_off _ _ (minus c k) (off3_eq c k)

/-- The credit one row's transfer puts on a DMA semaphore. -/
abbrev N : ℕ := (oM : Memref sig .tc .vmem S1x1024 .f32).view.dmaCredit
theorem N_pos : 0 < N := View.dmaCredit_pos _ (by decide)
theorem row_amount (r : Dev nD) (sm : DmaSem sig) : (rowM r).view.amount (.dma sm) = N := rfl

variable (m : (ℓ : Loc nD τ sig) → Buf (Elt F) ℓ) (ρ : Dev nD → PrngReg)

/-! ## Contents -/

/-- Device `c`'s block at point `t`, at its literal type. -/
def blkAt (c : Dev nD) (t : Fin cfg0.N) : Vec F S1024x1024 .f32 := iblk m c 0 t

/-- Device `c`'s four blocks. -/
def blks (c : Dev nD) : Fin 4 → Vec F S1024x1024 .f32 := fun t => blkAt m c ⟨t.val, t.isLt⟩

/-- The accumulator on device `c` after point `n`. -/
def accAt (c : Dev nD) : Nat → Vec F S8x1024 .f32
  | 0 => k0_pay2 (blks m c 0)
  | 1 => k0_pay3 (blks m c 1) (k0_pay2 (blks m c 0))
  | 2 => k0_pay3 (blks m c 2) (k0_pay3 (blks m c 1) (k0_pay2 (blks m c 0)))
  | _ => accOf (blks m c)

/-- The gathered array, the same on every device. -/
def gath : Vec F S4x1024 .f32 := gathOf (fun d => blks m d)
/-- The result row, the same on every device. -/
def res : Vec F S1x1024 .f32 := resOf (fun d => blks m d)

/-! ## The schedule -/

/-- The three shares of a device's own row under its three concurrent transfers. -/
def shareOf : Fin 3 → PosShare TreeShare
  | 0 => fullShare.left
  | 1 => fullShare.right.left
  | 2 => fullShare.right.right

/-- Row `r` of device `d`'s gathered-array buffer at contents `f`, share `q`. -/
def rowPts (d r : Dev nD) (q : PosShare TreeShare) (f : Buf (Elt F) ((rowM r).view.loc (d : Thread nD τ))) : sProp 𝕄 :=
  (rowM r).view.loc (d : Thread nD τ) ↦[(rowM r).view.set]{q} f

omit [FloatOps F] in
instance rowPts_storable (d r : Dev nD) (q) (f) : BI.Storable (upEmb : UEmb _ 𝕄) (rowPts (F := F) d r q f) := by unfold rowPts; infer_instance

/-- Which transfer semaphore a cell is: `(false, k)` send semaphore `k`, `(true, k)` receive semaphore `k`. -/
def xferOf : SemLoc sig → Option (Bool × Fin 3)
  | .dma q => if h : 3 ≤ q.val ∧ q.val < 6 then some (false, ⟨q.val - 3, by omega⟩)
      else if h' : 6 ≤ q.val ∧ q.val < 9 then some (true, ⟨q.val - 6, by omega⟩) else none
  | .reg _ => none

theorem xferOf_send (k : Fin 3) : xferOf (.dma (sendS k)) = some (false, k) := by revert k; decide
theorem xferOf_recv (k : Fin 3) : xferOf (.dma (recvS k)) = some (true, k) := by revert k; decide
theorem xferOf_bar : xferOf (.reg barS) = none := rfl

/-- What the signal of `minus p j` (duty `j` of `p`'s barrier cell) hands `p`: row `p` of the signaller's gathered-array
    buffer, at whatever it holds: the row that `p`'s transfer to the signaller will fill. -/
def barPay (p : Dev nD) (j : Fin 3) : sProp 𝕄 := iprop(∃ f, rowPts (minus p j) p fullShare f)
/-- What lands on `p`'s receive cell `k`: row `minus p k` of its buffer, holding that device's own row. -/
def recvPay (p : Dev nD) (k : Fin 3) : sProp 𝕄 := rowPts p (minus p k) fullShare (gath m)
/-- What comes back on `c`'s send cell `k`: the share of its own row that transfer read. -/
def sendPay (c : Dev nD) (k : Fin 3) : sProp 𝕄 := rowPts c c (shareOf k) (gath m)

abbrev IsBar (g : GSem nD τ sig) : Prop := g.1.2 = .tc ∧ g.2 = .reg barS
abbrev IsXfer (g : GSem nD τ sig) : Prop := g.1.2 = .tc ∧ (xferOf g.2).isSome

/-- One round, round 0: a barrier cell has the three duties `j` (from `minus · j`) of one unit each; a send or receive
    cell the duty `0` of a row's credit. -/
def sched : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else match xferOf g.2 with
      | some (true, k) => recvPay m g.1.1 k
      | some (false, k) => sendPay m g.1.1 k
      | none => iprop(emp)
  amount_pos g _ _ _ := by
    by_cases h : g.2 = .reg barS
    · rw [if_pos h]; exact Nat.one_pos
    · rw [if_neg h]; exact N_pos

instance sched_payload_storable (g : GSem nD τ sig) (r : ℕ) (d : Fin 3) :
    BI.Storable (upEmb : UEmb _ 𝕄) ((sched (F := F) m).payload g r d) := by
  show BI.Storable upEmb (if g.2 = .reg barS then barPay g.1.1 d
    else match xferOf g.2 with
      | some (true, k) => recvPay m g.1.1 k
      | some (false, k) => sendPay m g.1.1 k
      | none => iprop(emp))
  unfold barPay recvPay sendPay
  (repeat' split) <;> infer_instance

section Sched
variable (c : Dev nD) (k : Fin 3)

theorem send_ne_bar : (SemLoc.dma (sendS k) : SemLoc sig) ≠ .reg barS := fun h => by cases h
theorem recv_ne_bar : (SemLoc.dma (recvS k) : SemLoc sig) ≠ .reg barS := fun h => by cases h
theorem send_ne_recv (k' : Fin 3) : (SemLoc.dma (sendS k) : SemLoc sig) ≠ .dma (recvS k') := by revert k k'; decide
theorem not_bar_send : ¬ IsBar (sendCell c k) := fun h => send_ne_bar k h.2
theorem not_bar_recv : ¬ IsBar (recvCell c k) := fun h => recv_ne_bar k h.2

theorem duties_bar : (sched (F := F) m).duties (barCell c) 0 = Finset.univ := by dsimp only [sched]; exact if_pos ⟨rfl, rfl, rfl⟩
theorem duties_send : (sched (F := F) m).duties (sendCell c k) 0 = {0} := by
  dsimp only [sched]; rw [if_neg (fun h => not_bar_send c k h.2)]; exact if_pos ⟨rfl, rfl, by rw [xferOf_send]; rfl⟩
theorem duties_recv : (sched (F := F) m).duties (recvCell c k) 0 = {0} := by
  dsimp only [sched]; rw [if_neg (fun h => not_bar_recv c k h.2)]; exact if_pos ⟨rfl, rfl, by rw [xferOf_recv]; rfl⟩
theorem duties_later (g : GSem nD τ sig) : ∀ r, 1 ≤ r → (sched (F := F) m).duties g r = ∅ :=
  fun r hr => by dsimp only [sched]; rw [if_neg fun h => by omega, if_neg fun h => by omega]

theorem amount_bar (d : Fin 3) : (sched (F := F) m).amount (barCell c) 0 d = 1 := by dsimp only [sched]; exact if_pos rfl
theorem amount_send (d : Fin 3) : (sched (F := F) m).amount (sendCell c k) 0 d = N := by dsimp only [sched]; exact if_neg (send_ne_bar k)
theorem amount_recv (d : Fin 3) : (sched (F := F) m).amount (recvCell c k) 0 d = N := by dsimp only [sched]; exact if_neg (recv_ne_bar k)

theorem expect_bar : (sched (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (sched (F := F) m).expect (sendCell c k) 0 = N := by
  unfold Schedule.expect Schedule.amountOf; rw [duties_send, Finset.sum_singleton, amount_send]
theorem expect_recv : (sched (F := F) m).expect (recvCell c k) 0 = N := by
  unfold Schedule.expect Schedule.amountOf; rw [duties_recv, Finset.sum_singleton, amount_recv]

theorem payload_bar (j : Fin 3) : (sched (F := F) m).payload (barCell c) 0 j = barPay c j := by dsimp only [sched]; rw [if_pos rfl]
theorem payload_send (d : Fin 3) : (sched (F := F) m).payload (sendCell c k) 0 d = sendPay m c k := by
  dsimp only [sched]; rw [if_neg (send_ne_bar k), xferOf_send]
theorem payload_recv (d : Fin 3) : (sched (F := F) m).payload (recvCell c k) 0 d = recvPay m c k := by
  dsimp only [sched]; rw [if_neg (recv_ne_bar k), xferOf_recv]

/-- The whole of the barrier cell's round, no duty taken: the three signallers' payloads. -/
theorem rest_bar : bigSep ((sched (F := F) m).duties (barCell c) 0 \ ∅) (fun d => (sched (F := F) m).payload (barCell c) 0 d)
    = iprop(barPay c 0 ∗ barPay c 1 ∗ barPay c 2) := by
  rw [Finset.sdiff_empty, duties_bar, bigSep_univ_eq_bigSepL [(0 : Fin 3), 1, 2] (by decide) (by decide), bigSepL_cons_cons, bigSepL_cons_cons, bigSepL_singleton,
    payload_bar, payload_bar, payload_bar]
  rfl
theorem rest_send : bigSep ((sched (F := F) m).duties (sendCell c k) 0 \ ∅) (fun d => (sched (F := F) m).payload (sendCell c k) 0 d) = sendPay m c k := by
  rw [Finset.sdiff_empty, duties_send, bigSep_singleton, payload_send]
theorem rest_recv : bigSep ((sched (F := F) m).duties (recvCell c k) 0 \ ∅) (fun d => (sched (F := F) m).payload (recvCell c k) 0 d) = recvPay m c k := by
  rw [Finset.sdiff_empty, duties_recv, bigSep_singleton, payload_recv]

end Sched

end Cert.KernelIdeal.Hand

end
-- ==== Proof.Dats.lean ====
/-
  What a device owes between grid points, the levels its waits respect, the ghost state of the exchange, and the
  pipeline's proof data: what the accumulator and the gathered-array buffer hold before each grid point.

  A device signals its three peers' barrier cells at the first point and sends them its row at the last; so it owes
  three barrier units until the first point is over and three rows' credits until the last. It waits on the
  pipeline's staging cells (level 0) throughout, on its barrier cell (level 1) while it owes the rows' credits (level
  2), and on its receive and send cells when it owes nothing.
-/
import proofs.«900920_g7700000000000921_dist_max_ax0_shard0_i_m4096_n1024_v7x_i4_bf16_1_alg».proof.Proof.Cells

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each device owes; the levels -/

/-- After the first point: the three rows' credits, summed so that transfer 0 peels the last summand. -/
def O3 (c : Dev nD) : CellTallies nD τ sig Unit :=
  tallyAt (recvCell (plus c 2) 2) () N + tallyAt (recvCell (plus c 1) 1) () N + tallyAt (recvCell (plus c 0) 0) () N
/-- At launch: those and a unit on each peer's barrier cell, signal 0 peeling the last summand. -/
def O0 (c : Dev nD) : CellTallies nD τ sig Unit :=
  O3 c + tallyAt (barCell (plus c 2)) () 1 + tallyAt (barCell (plus c 1)) () 1 + tallyAt (barCell (plus c 0)) () 1

def L (g : GSem nD τ sig) : Finset Unit := if g.1.2 = .tc then {()} else ∅
/-- Barrier cells at 1, receive cells at 2, everything else (staging, send) at 0. -/
def lv (g : GSem nD τ sig) (_ : Unit) : ℕ :=
  if g.2 = .reg barS then 1 else match xferOf g.2 with
    | some (true, _) => 2
    | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := if_pos rfl
theorem lv_recv (c : Dev nD) (k : Fin 3) : lv (recvCell c k) () = 2 := by
  unfold lv; rw [if_neg (recv_ne_bar k), xferOf_recv]
theorem lv_send (c : Dev nD) (k : Fin 3) : lv (sendCell c k) () = 0 := by
  unfold lv; rw [if_neg (send_ne_bar k), xferOf_send]

/-! ## The cells, indexed; the ghost state -/

/-- A device's seven cells: barrier, send 0–2, receive 0–2. -/
abbrev csem : Fin 7 → SemLoc sig := fun
  | 0 => .reg barS | 1 => .dma (sendS 0) | 2 => .dma (sendS 1) | 3 => .dma (sendS 2)
  | 4 => .dma (recvS 0) | 5 => .dma (recvS 1) | 6 => .dma (recvS 2)
abbrev kcell (ck : Dev nD × Fin 7) : GSem nD τ sig := ((ck.1 : Thread nD τ), csem ck.2)
def sIx (k : Fin 3) : Fin 7 := ⟨1 + k.val, by omega⟩
def rIx (k : Fin 3) : Fin 7 := ⟨4 + k.val, by omega⟩
theorem csem_sIx (k : Fin 3) : csem (sIx k) = .dma (sendS k) := by revert k; decide
theorem csem_rIx (k : Fin 3) : csem (rIx k) = .dma (recvS k) := by revert k; decide
theorem kcell_bar (c : Dev nD) : kcell (c, 0) = barCell c := rfl
theorem kcell_send (c : Dev nD) (k : Fin 3) : kcell (c, sIx k) = sendCell c k := by unfold kcell; rw [csem_sIx]
theorem kcell_recv (c : Dev nD) (k : Fin 3) : kcell (c, rIx k) = recvCell c k := by unfold kcell; rw [csem_rIx]

/-- Every cell's invariant under the names `K` the launch allocated them at, and that round 0 of every cell is
    reached: persistent, held by every device. -/
def records (K : Dev nD × Fin 7 → ℕ) : sProp 𝕄 :=
  iprop((bigSep Finset.univ fun ck : Dev nD × Fin 7 => cellInv ER (sched m) (K ck) (kcell ck))
    ∗ bigSep Finset.univ fun ck : Dev nD × Fin 7 => reached ER (kcell ck) 0)

instance records_persistent (K : Dev nD × Fin 7 → ℕ) : BI.Persistent (records m K) := by unfold records; infer_instance

/-- A device's positions at round 0 of its seven cells. -/
def ownPos (c : Dev nD) : sProp 𝕄 := bigSep Finset.univ fun j : Fin 7 => atPos ER (kcell (c, j)) 0 ∅ 0
/-- The tokens of the duties a device pays with its three signals; -/
def sigToks (c : Dev nD) : sProp 𝕄 := bigSep Finset.univ fun k : Fin 3 => dutyTok ER (barCell (plus c k)) 0 k
/-- with its three transfers: the peer's receive duty and its own send duty. -/
def xferToks (c : Dev nD) : sProp 𝕄 :=
  iprop((bigSep Finset.univ fun k : Fin 3 => dutyTok ER (recvCell (plus c k) k) 0 0)
    ∗ bigSep Finset.univ fun k : Fin 3 => dutyTok ER (sendCell c k) 0 0)
/-- The credit a device waits with: its barrier's three units, its three receive cells' rows. -/
def creds (c : Dev nD) : sProp 𝕄 :=
  iprop(cred (tallyAt (barCell c) () 3) ∗ bigSep Finset.univ fun k : Fin 3 => cred (tallyAt (recvCell c k) () N))

/-- What a device starts from; -/
def start (c : Dev nD) : sProp 𝕄 :=
  iprop((∃ K, records m K ∗ ownPos c ∗ sigToks c ∗ xferToks c) ∗ creds c ∗ levAts L lv)
/-- what it holds of that once it has signalled. -/
def mid (c : Dev nD) : sProp 𝕄 :=
  iprop((∃ K, records m K ∗ ownPos c ∗ xferToks c) ∗ creds c ∗ levAts L lv)

/-! ## The scratch buffers between points -/

def accPts (c : Dev nD) (f : Buf (Elt F) ((c : Thread nD τ).loc cc0_scratch0)) : sProp 𝕄 := ((c : Thread nD τ).loc cc0_scratch0) ↦{fullShare} f
def commPts (c : Dev nD) (f : Buf (Elt F) ((c : Thread nD τ).loc cc0_scratch1)) : sProp 𝕄 := ((c : Thread nD τ).loc cc0_scratch1) ↦{fullShare} f

/-- Before the first point: both scratch buffers at whatever they hold. -/
def Φ0 (c : Dev nD) : sProp 𝕄 := iprop(start m c ∗ (∃ f, accPts c f) ∗ ∃ f, commPts c f)
/-- After point `n` < 3: the accumulator at the running maximum, and of the gathered-array buffer the device's own
    row only (the other three went to the peers with the signals). -/
def Φmid (c : Dev nD) (n : Nat) : sProp 𝕄 := iprop(mid m c ∗ accPts c (accAt m c n) ∗ ∃ f, rowPts c c fullShare f)
/-- After the last point: the gathered array whole, and the six transfer cells closed at zero. -/
def Φ4 (c : Dev nD) : sProp 𝕄 :=
  iprop(accPts c (accAt m c 3) ∗ commPts c (gath m)
    ∗ (bigSep Finset.univ fun k : Fin 3 => semVal (sendCell c k) 0) ∗ bigSep Finset.univ fun k : Fin 3 => semVal (recvCell c k) 0)

/-! ## The pipeline's proof data -/

def dats (_ : Fin 1) (c : Dev nD) : Dat τ (Elt F) Unit ℕ UU ℕ cfg0 c where
  A w := m ((cfg0.win w).arr.view.loc (c : Thread nD τ))
  after w t := match w with
    | ⟨0, _⟩ => blkAt m c t
    | ⟨1, _⟩ => res m
  Φ t := match t with
    | ⟨0, _⟩ => Φ0 m c
    | ⟨1, _⟩ => Φmid m c 0
    | ⟨2, _⟩ => Φmid m c 1
    | ⟨3, _⟩ => Φmid m c 2
    | ⟨_ + 4, _⟩ => Φ4 m c
  q _ := fullShare
  owed t := match t with
    | ⟨0, _⟩ => O0 c
    | ⟨1, _⟩ => O3 c
    | ⟨2, _⟩ => O3 c
    | ⟨3, _⟩ => O3 c
    | ⟨_ + 4, _⟩ => 0

abbrev 𝒱₀ : Variants := Variants.none

end Cert.KernelIdeal.Hand

end
-- ==== Proof.Reads.lean ====
/-
  Reading a whole buffer through the whole-shape rectangle, and reading back one whole-shape store: the two facts every
  local step of the body rests on.
-/
import proofs.«900920_g7700000000000921_dist_max_ax0_shard0_i_m4096_n1024_v7x_i4_bf16_1_alg».proof.Proof.Dats
import Idealize.ShloMosaic.Lib.Pipeline.Value
import Idealize.ShloMosaic.Lib.Pipeline.Frame

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem hz2 : (![0, 0] : Fin 2 → Nat) = fun _ => 0 := funext fun a => by fin_cases a <;> rfl

omit [FloatOps F] in
/-- A load of a whole buffer through the whole-shape rectangle reads its contents. -/
theorem readAt_unread {sp : Space} {S : Shape} {e : EltTy} {mm : Memref sig .tc sp S e} (h : mm.IsWhole)
    {off : Fin S.rank → Nat} (hz : off = fun _ => 0) (inb : ∀ a, off a + S.size a ≤ S.size a) (X : S.Idx → Elt F e) :
    mm.view.readAt (Elt F) (Rect.unit off S.size inb).toLoadRect (h.unread X) = X := by
  rw [View.readAt_eq_ld, h.read_unread, View.ld_unit_zero hz]

/-- One store through the whole-shape rectangle leaves its payload, whatever the buffer held. -/
theorem read_writes_whole {sp : Space} {S : Shape} {e : EltTy} (v : View sig .tc sp S e) (f : v.ty.Contents (Elt F))
    {off : Fin S.rank → Nat} (hz : off = fun _ => 0) (inb : ∀ a, off a + S.size a ≤ S.size a) (w : S.Idx → Elt F e) :
    v.read (Elt F) (v.writes (Elt F) f [⟨Rect.unit off S.size inb, w⟩]) = w := by
  rw [View.read_writes_eq_canon v f _ (fun y => ⟨_, List.mem_singleton_self _, View.mem_set_unit_zero hz inb y⟩), View.canon_unit_zero hz]

end Cert.KernelIdeal.Hand

end
-- ==== Proof.Rows.lean ====
/-
  The gathered-array buffer cut into its four rows and put together again, and a device's own row cut into the
  three shares its three concurrent transfers read.
-/
import proofs.«900920_g7700000000000921_dist_max_ax0_shard0_i_m4096_n1024_v7x_i4_bf16_1_alg».proof.Proof.Dats
import Idealize.ShloMosaic.Lib.Pipeline.Value

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- Row `r`'s elements: the indices whose first coordinate is `r`. -/
theorem mem_row (r : Dev nD) (i : S4x1024.Idx) : i ∈ (rowM r).view.set ↔ (i 0).val = r.val := by
  show i ∈ ((View.whole cc0_scratch1).slice (rowR r)).set ↔ _
  rw [View.set_slice_whole, Rect.mem_set_unit]
  constructor
  · intro h; have := h 0; simp only [Matrix.cons_val_zero] at this;
    have h1 : S1x1024.size 0 = 1 := rfl
    omega
  · intro h a
    match a with
    | ⟨0, _⟩ =>
      have h1 : S1x1024.size (0 : Fin 2) = 1 := rfl
      show (![r.val, 0] : Fin 2 → Nat) 0 ≤ (i 0).val ∧ (i 0).val < (![r.val, 0] : Fin 2 → Nat) 0 + S1x1024.size 0
      simp only [Matrix.cons_val_zero]; omega
    | ⟨1, _⟩ =>
      have h2 : (i 1).val < 1024 := (i 1).isLt
      show (![r.val, 0] : Fin 2 → Nat) 1 ≤ (i 1).val ∧ (i 1).val < (![r.val, 0] : Fin 2 → Nat) 1 + S1x1024.size 1
      simp only [Matrix.cons_val_one, Matrix.cons_val_zero]
      have h3 : S1x1024.size (1 : Fin 2) = 1024 := rfl
      omega

omit [FloatOps F] in
theorem rows_disjoint (r r' : Dev nD) (h : r ≠ r') : Disjoint (rowM r).view.set (rowM r').view.set := by
  rw [Finset.disjoint_left]; intro i hi hi'; rw [mem_row] at hi hi'; exact h (Fin.ext (hi.symm.trans hi'))

omit [FloatOps F] in
theorem plus_ne_plus (c : Dev nD) (k k' : Fin 3) (h : k ≠ k') : plus c k ≠ plus c k' := fun e => h (plus_inj c k k' e)

/-- The four rows' element sets, from a device's point of view: its own and the three ahead of it. -/
abbrev rest3 (c : Dev nD) : Finset S4x1024.Idx := (rowM (plus c 0)).view.set ∪ ((rowM (plus c 1)).view.set ∪ (rowM (plus c 2)).view.set)

omit [FloatOps F] in
theorem rows_univ (c : Dev nD) : (Finset.univ : Finset S4x1024.Idx) = (rowM c).view.set ∪ rest3 c := by
  ext i
  simp only [Finset.mem_univ, Finset.mem_union, mem_row, true_iff]
  by_cases h : (⟨(i 0).val, (i 0).isLt⟩ : Dev nD) = c
  · exact Or.inl ((mem_row c i).mpr (congrArg Fin.val h))
  · obtain ⟨k, hk⟩ := exists_plus c _ h
    refine Or.inr ?_
    match k, hk with
    | ⟨0, _⟩, hk => exact Or.inl ((mem_row _ i).mpr (congrArg Fin.val hk))
    | ⟨1, _⟩, hk => exact Or.inr (Or.inl ((mem_row _ i).mpr (congrArg Fin.val hk)))
    | ⟨2, _⟩, hk => exact Or.inr (Or.inr ((mem_row _ i).mpr (congrArg Fin.val hk)))

omit [FloatOps F] in
theorem disj_own (c : Dev nD) : Disjoint (rowM c).view.set (rest3 c) :=
  Finset.disjoint_union_right.mpr ⟨rows_disjoint _ _ (plus_ne c 0).symm,
    Finset.disjoint_union_right.mpr ⟨rows_disjoint _ _ (plus_ne c 1).symm, rows_disjoint _ _ (plus_ne c 2).symm⟩⟩
omit [FloatOps F] in
theorem disj_p0 (c : Dev nD) : Disjoint (rowM (plus c 0)).view.set ((rowM (plus c 1)).view.set ∪ (rowM (plus c 2)).view.set) :=
  Finset.disjoint_union_right.mpr ⟨rows_disjoint _ _ (plus_ne_plus c 0 1 (by decide)), rows_disjoint _ _ (plus_ne_plus c 0 2 (by decide))⟩

omit [FloatOps F] in
/-- The whole buffer cut into its four rows: the device's own and the three its peers fill; -/
theorem comm_split (c : Dev nD) (q : PosShare TreeShare) (f : Buf (Elt F) ((c : Thread nD τ).loc cc0_scratch1)) :
    ((((c : Thread nD τ).loc cc0_scratch1) ↦{q} f : sProp 𝕄))
      ⊢ iprop(rowPts c c q f ∗ rowPts c (plus c 0) q f ∗ rowPts c (plus c 1) q f ∗ rowPts c (plus c 2) q f) := by
  unfold rowPts
  show ((((c : Thread nD τ).loc cc0_scratch1) ↦[(Finset.univ : Finset S4x1024.Idx)]{q} f : sProp 𝕄)) ⊢ _
  rw [rows_univ c]
  iintro H
  ihave H := ((pointsTo_union (disj_own c)).1) $$ H
  icases H with ⟨HA, H⟩
  ihave H := ((pointsTo_union (disj_p0 c)).1) $$ H
  icases H with ⟨HB, H⟩
  ihave H := ((pointsTo_union (rows_disjoint _ _ (plus_ne_plus c 1 2 (by decide)))).1) $$ H
  icases H with ⟨HC, HD⟩
  isplitl [HA]; · iexact HA
  isplitl [HB]; · iexact HB
  isplitl [HC]; · iexact HC
  iexact HD

omit [FloatOps F] in
/-- and put together again. -/
theorem comm_join (c : Dev nD) (q : PosShare TreeShare) (f : Buf (Elt F) ((c : Thread nD τ).loc cc0_scratch1)) :
    iprop(rowPts c c q f ∗ rowPts c (plus c 0) q f ∗ rowPts c (plus c 1) q f ∗ rowPts c (plus c 2) q f)
      ⊢ ((((c : Thread nD τ).loc cc0_scratch1) ↦{q} f : sProp 𝕄)) := by
  unfold rowPts
  show _ ⊢ ((((c : Thread nD τ).loc cc0_scratch1) ↦[(Finset.univ : Finset S4x1024.Idx)]{q} f : sProp 𝕄))
  rw [rows_univ c]
  iintro ⟨HA, HB, HC, HD⟩
  iapply ((pointsTo_union (disj_own c)).2)
  isplitl [HA]; · iexact HA
  iapply ((pointsTo_union (disj_p0 c)).2)
  isplitl [HB]; · iexact HB
  iapply ((pointsTo_union (rows_disjoint _ _ (plus_ne_plus c 1 2 (by decide)))).2)
  isplitl [HC]; · iexact HC
  iexact HD

omit [FloatOps F] in
/-- A row cut into the three shares its three concurrent readers take; -/
theorem row_shares (d r : Dev nD) (f : Buf (Elt F) ((rowM r).view.loc (d : Thread nD τ))) :
    rowPts d r fullShare f ⊢ iprop(rowPts d r (shareOf 0) f ∗ rowPts d r (shareOf 1) f ∗ rowPts d r (shareOf 2) f) := by
  unfold rowPts shareOf
  iintro H
  ihave H := ((pointsTo_share (PosShare.mem_left_op_right fullShare)).1) $$ H
  icases H with ⟨H0, H⟩
  ihave H := ((pointsTo_share (PosShare.mem_left_op_right fullShare.right)).1) $$ H
  icases H with ⟨H1, H2⟩
  isplitl [H0]; · iexact H0
  isplitl [H1]; · iexact H1
  iexact H2

omit [FloatOps F] in
/-- and the three shares joined. -/
theorem row_unshare (d r : Dev nD) (f : Buf (Elt F) ((rowM r).view.loc (d : Thread nD τ))) :
    iprop(rowPts d r (shareOf 0) f ∗ rowPts d r (shareOf 1) f ∗ rowPts d r (shareOf 2) f) ⊢ rowPts d r fullShare f := by
  unfold rowPts shareOf
  iintro ⟨H0, H1, H2⟩
  iapply ((pointsTo_share (PosShare.mem_left_op_right fullShare)).2)
  isplitl [H0]; · iexact H0
  iapply ((pointsTo_share (PosShare.mem_left_op_right fullShare.right)).2)
  isplitl [H1]; · iexact H1
  iexact H2

omit [FloatOps F] in
/-- Contents matter on the row only. -/
theorem rowPts_congr (d r : Dev nD) (q : PosShare TreeShare) (f g : Buf (Elt F) ((rowM r).view.loc (d : Thread nD τ)))
    (h : ∀ i : S4x1024.Idx, (i 0).val = r.val → f i = g i) : rowPts d r q f = rowPts d r q g := by
  unfold rowPts
  exact pointsTo_congr fun i hi => h i ((mem_row r i).mp hi)

end Cert.KernelIdeal.Hand

end
-- ==== Proof.Launch.lean ====
/-
  The launch: the exchange's ghost state funded and dealt, the cells' invariants allocated for all devices at once
  (the barrier semaphore is the runtime's, shared by the devices that signal it), the launch credit read off what the
  devices owe one another, and the pipeline's proof data entered and left.
-/
import proofs.«900920_g7700000000000921_dist_max_ax0_shard0_i_m4096_n1024_v7x_i4_bf16_1_alg».proof.Proof.Dats

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's OWN (scoped) semaphores, as the launch indexes them: send 0–2, receive 0–2. -/
abbrev osem : Fin 6 → SemLoc sig := fun
  | 0 => .dma (sendS 0) | 1 => .dma (sendS 1) | 2 => .dma (sendS 2)
  | 3 => .dma (recvS 0) | 4 => .dma (recvS 1) | 5 => .dma (recvS 2)

theorem ownSemFacts : Pipeline.OwnSemFacts cfg0.spec osem := by decide

theorem share_eq (c : Dev nD) (w : Fin cfg0.W) : (dats m 0 c).share w = fullShare := by unfold Dat.share; split <;> rfl

/-! ## Levels -/

omit [FloatOps F] in
/-- After the first point a device owes only its peers' receive cells: where `O3 c` is positive is `recvCell (plus c k) k` for some `k`. -/
theorem O3_pos {c : Dev nD} {g : GSem nD τ sig} {u : Unit} (h : 0 < O3 c g u) : ∃ k : Fin 3, g = recvCell (plus c k) k := by
  unfold O3 at h
  rcases Pipeline.add_pos_cases h with h | h
  · rcases Pipeline.add_pos_cases h with h | h
    · exact ⟨2, (Pipeline.tallyAt_pos h).1⟩
    · exact ⟨1, (Pipeline.tallyAt_pos h).1⟩
  · exact ⟨0, (Pipeline.tallyAt_pos h).1⟩

omit [FloatOps F] in
/-- At launch a device owes only its peers' receive cells and barrier cells. -/
theorem O0_pos {c : Dev nD} {g : GSem nD τ sig} {u : Unit} (h : 0 < O0 c g u) :
    (∃ k : Fin 3, g = recvCell (plus c k) k) ∨ ∃ k : Fin 3, g = barCell (plus c k) := by
  unfold O0 at h
  rcases Pipeline.add_pos_cases h with h | h
  · rcases Pipeline.add_pos_cases h with h | h
    · rcases Pipeline.add_pos_cases h with h | h
      · exact Or.inl (O3_pos h)
      · exact Or.inr ⟨2, (Pipeline.tallyAt_pos h).1⟩
    · exact Or.inr ⟨1, (Pipeline.tallyAt_pos h).1⟩
  · exact Or.inr ⟨0, (Pipeline.tallyAt_pos h).1⟩

omit [FloatOps F] in
theorem mem_L (c : Dev nD) (sm : SemLoc sig) (u : Unit) : u ∈ L ((c : Thread nD τ), sm) := by
  rw [L_tc]; exact Finset.mem_singleton_self _

/-- A wait on a cell at level 0 (a staging cell, a send cell) is allowed whatever of its debts a device still has. -/
theorem mayWait_low (c : Dev nD) (sm : SemLoc sig) (hsm : lv ((c : Thread nD τ), sm) () = 0) (O : CellTallies nD τ sig Unit)
    (hO : O = O0 c ∨ O = O3 c ∨ O = 0) :
    (levAts L lv : sProp 𝕄) ⊢ MayWait (c : Thread nD τ) sm () O := by
  rcases hO with rfl | rfl | rfl
  · refine Pipeline.mayWait_of_levAts (mem_L c sm ()) fun g i hg => ?_
    cases i
    rcases O0_pos hg with ⟨k, rfl⟩ | ⟨k, rfl⟩
    · exact ⟨mem_L _ _ _, by rw [hsm, lv_recv]; decide⟩
    · exact ⟨mem_L _ _ _, by rw [hsm, lv_bar]; decide⟩
  · refine Pipeline.mayWait_of_levAts (mem_L c sm ()) fun g i hg => ?_
    cases i
    obtain ⟨k, rfl⟩ := O3_pos hg
    exact ⟨mem_L _ _ _, by rw [hsm, lv_recv]; decide⟩
  · rw [MayWait_zero]; iintro -; iempintro

/-- At its barrier wait a device owes the three rows' credits only: receive cells, above its barrier cell. -/
theorem mayWait_bar (c : Dev nD) :
    (levAts L lv : sProp 𝕄) ⊢ MayWait (c : Thread nD τ) (.reg barS) () (O3 c) := by
  refine Pipeline.mayWait_of_levAts (mem_L c _ ()) fun g i hg => ?_
  cases i
  obtain ⟨k, rfl⟩ := O3_pos hg
  exact ⟨mem_L _ _ _, by rw [lv_bar, lv_recv]; decide⟩

omit [FloatOps F] in
/-- A DMA semaphore that is none of the six transfer semaphores sits at level 0. -/
theorem lv_of_xfer_none (t : Thread nD τ) (q : DmaSem sig) (h : xferOf (.dma q) = none) : lv (t, .dma q) () = 0 := by
  unfold lv; rw [if_neg (fun h' => by cases h'), h]

theorem waits (c : Dev nD) : (levAts L lv : sProp 𝕄) ⊢ Pipeline.cellsWaits cfgs (dats m) () 0 c :=
  Pipeline.cellsWaits_intro cfgs (dats m) () 0 c fun w s t =>
    mayWait_low c _ (lv_of_xfer_none _ _ (by fin_cases w <;> fin_cases s <;> decide)) _ (by
      rcases t with ⟨_ | _ | _ | _ | _, ht⟩
      · exact Or.inl rfl
      · exact Or.inr (Or.inl rfl)
      · exact Or.inr (Or.inl rfl)
      · exact Or.inr (Or.inl rfl)
      · exact Or.inr (Or.inr rfl))

/-! ## Funding and the global step -/

omit [FloatOps F] in
theorem csem_injective : Function.Injective (csem : Fin 7 → SemLoc sig) := by decide

omit [FloatOps F] in
theorem kcell_injective : Function.Injective (kcell : Dev nD × Fin 7 → GSem nD τ sig) := by
  rintro ⟨c, j⟩ ⟨c', j'⟩ h
  have h1 : c = c' := congrArg (fun g : GSem nD τ sig => g.1.1) h
  subst h1
  have h2 : j = j' := csem_injective (congrArg Prod.snd h)
  subst h2; rfl

/-- The exchange's cells and the duty tokens minted for them. -/
def ringCells : Finset (GSem nD τ sig) := Finset.univ.map ⟨kcell, kcell_injective⟩

/-- A device's own cells' duties: (device, which) — its barrier's three, its three send cells', its three receive cells'. -/
abbrev tokOf (cj : Dev nD × Fin 9) : GSem nD τ sig × ℕ × Fin 3 := match cj.2 with
  | 0 => (barCell cj.1, 0, 0) | 1 => (barCell cj.1, 0, 1) | 2 => (barCell cj.1, 0, 2)
  | 3 => (sendCell cj.1 0, 0, 0) | 4 => (sendCell cj.1 1, 0, 0) | 5 => (sendCell cj.1 2, 0, 0)
  | 6 => (recvCell cj.1 0, 0, 0) | 7 => (recvCell cj.1 1, 0, 0) | 8 => (recvCell cj.1 2, 0, 0)

/-- The semaphore and the duty of each of the nine, apart from the device. -/
abbrev tokSem : Fin 9 → SemLoc sig × Fin 3 := fun
  | 0 => (.reg barS, 0) | 1 => (.reg barS, 1) | 2 => (.reg barS, 2)
  | 3 => (.dma (sendS 0), 0) | 4 => (.dma (sendS 1), 0) | 5 => (.dma (sendS 2), 0)
  | 6 => (.dma (recvS 0), 0) | 7 => (.dma (recvS 1), 0) | 8 => (.dma (recvS 2), 0)

omit [FloatOps F] in
theorem tokSem_injective : Function.Injective (tokSem : Fin 9 → SemLoc sig × Fin 3) := by decide

omit [FloatOps F] in
theorem tokOf_eq (c : Dev nD) (j : Fin 9) : tokOf (c, j) = (((c : Thread nD τ), (tokSem j).1), 0, (tokSem j).2) := by
  fin_cases j <;> rfl

omit [FloatOps F] in
theorem tokOf_injective : Function.Injective (tokOf : Dev nD × Fin 9 → GSem nD τ sig × ℕ × Fin 3) := by
  rintro ⟨c, j⟩ ⟨c', j'⟩ h
  rw [tokOf_eq, tokOf_eq] at h
  have h1 : c = c' := congrArg (fun x : GSem nD τ sig × ℕ × Fin 3 => x.1.1.1) h
  subst h1
  have h2 : j = j' := tokSem_injective (Prod.ext (congrArg (fun x : GSem nD τ sig × ℕ × Fin 3 => x.1.2) h) (congrArg (fun x : GSem nD τ sig × ℕ × Fin 3 => x.2.2) h))
  subst h2; rfl

def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun j : Fin 3 => dutyTok ER (barCell c) 0 j)
    ∗ (bigSep Finset.univ fun k : Fin 3 => dutyTok ER (sendCell c k) 0 0)
    ∗ bigSep Finset.univ fun k : Fin 3 => dutyTok ER (recvCell c k) 0 0)

/-- What the launch element deals device `c`. -/
def G (c : Dev nD) : sProp 𝕄 :=
  iprop((bigSep Finset.univ fun j : Fin 7 => roundState ER (sched m) (kcell (c, j)) 0)
    ∗ (bigSep Finset.univ fun j : Fin 7 => iprop(atPos ER (kcell (c, j)) 0 ∅ 0 ∗ reached ER (kcell (c, j)) 0)) ∗ toks c)

/-- What the global step makes of it. -/
def G' (c : Dev nD) : sProp 𝕄 := iprop(∃ K, records m K ∗ ownPos c ∗ sigToks c ∗ xferToks c)

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ
omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

omit [FloatOps F] in
/-- The nine tokens minted for a device's cells are its barrier's three, its send cells' and its receive cells'. -/
theorem toks_intro (c : Dev nD) :
    (bigSep Finset.univ fun j : Fin 9 => (dutyTok ER (tokOf (c, j)).1 (tokOf (c, j)).2.1 (tokOf (c, j)).2.2 : sProp 𝕄)) ⊢ toks c := by
  unfold toks; rw [bigSep_fin9, bigSep_fin3, bigSep_fin3, bigSep_fin3]
  iintro ⟨H0, H1, H2, H3, H4, H5, H6, H7, H8⟩
  isplitl [H0 H1 H2]
  · isplitl [H0]; · iexact H0
    isplitl [H1]; · iexact H1
    iexact H2
  isplitl [H3 H4 H5]
  · isplitl [H3]; · iexact H3
    isplitl [H4]; · iexact H4
    iexact H5
  isplitl [H6]; · iexact H6
  isplitl [H7]; · iexact H7
  iexact H8

/-- The exchange's launch element funds every device's cells: round states, positions, the reached round, duty tokens. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun j : Fin 7 => Φ (kcell (c, j)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    exact bigSep_mono fun c _ => toks_intro c
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

theorem hu0 : (ownU (u₀ : UU) : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_ring m) $$ HX with HG
  imodintro
  isplitl [HP] <;> iassumption

omit [FloatOps F] in
/-- The kernel's own semaphores at zero are the six transfer cells' counters at zero. -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
        ∗ semVal (recvCell c 0) 0 ∗ semVal (recvCell c 1) 0 ∗ semVal (recvCell c 2) 0) := by
  rw [Pipeline.ownSems0_eq_of_list c osem [0, 1, 2, 3, 4, 5] (by decide) (by decide)]; rfl

omit [FloatOps F] in
/-- The device's one unscoped semaphore is the barrier semaphore: the unscoped semaphores at zero are the barrier cell's counter at zero. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Fin 7 => semVal (kcell (c, j)) 0 : sProp 𝕄) := by
  rw [ownSems0_eq, unscopedSems0_eq, bigSep_fin7]
  iintro ⟨⟨S0, S1, S2, R0, R1, R2⟩, HB⟩
  isplitl [HB]; · iexact HB
  isplitl [S0]; · iexact S0
  isplitl [S1]; · iexact S1
  isplitl [S2]; · iexact S2
  isplitl [R0]; · iexact R0
  isplitl [R1]; · iexact R1
  iexact R2

/-- One device's seven cells: each counter at zero and round state at zero make the cell's body, allocated as an
    invariant at some name. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j => iprop(∃ κ : ℕ, cellInv ER (sched m) κ (kcell (c, j))))
          ∗ (bigSep Finset.univ fun j => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : Fin 7 => semVal (kcell (c, j)) 0) ∗ bigSep Finset.univ fun j : Fin 7 => roundState ER (sched m) (kcell (c, j)) 0)
      ⊢ (|={Set.univ}=> bigSep Finset.univ fun j => iprop(∃ κ : ℕ, cellInv ER (sched m) κ (kcell (c, j))) : sProp 𝕄) from by
        rw [← bigSep_sep']
        exact (bigSep_mono fun j _ => (Rounds.body_intro ER (sched m) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

/-- Offset `k` as a permutation of (device, offset) pairs. -/
def shift : Dev nD × Fin 3 ≃ Dev nD × Fin 3 where
  toFun p := (plus p.1 p.2, p.2)
  invFun p := (minus p.1 p.2, p.2)
  left_inv p := by rcases p with ⟨c, k⟩; exact Prod.ext (minus_plus c k) rfl
  right_inv p := by rcases p with ⟨c, k⟩; exact Prod.ext (plus_minus c k) rfl

omit [FloatOps F] in
/-- A family over (device, offset), every device's entries taken at the device that offset ahead. -/
theorem bigSep_shift (Φ : Dev nD → Fin 3 → sProp 𝕄) :
    (bigSep Finset.univ fun c : Dev nD => bigSep Finset.univ fun k : Fin 3 => Φ c k)
      = bigSep Finset.univ fun c : Dev nD => bigSep Finset.univ fun k : Fin 3 => Φ (plus c k) k :=
  (bigSep_univ_prod (fun ck : Dev nD × Fin 3 => Φ ck.1 ck.2)).symm.trans
    ((bigSep_univ_equiv shift (fun ck : Dev nD × Fin 3 => Φ ck.1 ck.2)).trans
      (bigSep_univ_prod (fun ck : Dev nD × Fin 3 => Φ (shift ck).1 (shift ck).2)))

omit [FloatOps F] in
/-- The tokens dealt to their payers: duty `j` of a barrier cell and the duty of receive cell `k` go to the device that
    offset behind the cell's owner; a send cell's duty stays. -/
theorem toks_around : (bigSep Finset.univ fun c : Dev nD => (toks c : sProp 𝕄)) ⊢ bigSep Finset.univ fun c : Dev nD => iprop(sigToks c ∗ xferToks c) := by
  unfold toks sigToks xferToks
  rw [bigSep_sep', bigSep_sep', bigSep_sep', bigSep_sep',
    bigSep_shift (fun (c : Dev nD) (j : Fin 3) => (dutyTok ER (barCell c) 0 j : sProp 𝕄)),
    bigSep_shift (fun (c : Dev nD) (k : Fin 3) => (dutyTok ER (recvCell c k) 0 0 : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 7 → ℕ) (c : Dev nD) : iprop(records m K ∗ ownPos c ∗ sigToks c ∗ xferToks c) ⊢ G' m c := by
  unfold G'
  iintro H
  iexists K
  iexact H

/-- The names collected into one table, the invariants and the reached rounds handed to every device, the tokens dealt. -/
theorem regroup :
    (bigSep Finset.univ fun c : Dev nD => iprop((bigSep Finset.univ fun j => iprop(∃ κ : ℕ, cellInv ER (sched m) κ (kcell (c, j))))
          ∗ (bigSep Finset.univ fun j => iprop(atPos ER (kcell (c, j)) 0 ∅ 0 ∗ reached ER (kcell (c, j)) 0)) ∗ toks c) : sProp 𝕄)
      ⊢ bigSep Finset.univ (G' m) := by
  rw [bigSep_sep', bigSep_sep', ← bigSep_univ_prod (fun ck : Dev nD × Fin 7 => iprop(∃ κ : ℕ, cellInv ER (sched m) κ (kcell ck))),
    bigSep_congr (s := Finset.univ) (fun (c : Dev nD) _ => bigSep_sep' Finset.univ (fun j : Fin 7 => (atPos ER (kcell (c, j)) 0 ∅ 0 : sProp 𝕄)) (fun j => reached ER (kcell (c, j)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => (ownPos c : sProp 𝕄)) (fun c => iprop(sigToks c ∗ xferToks c))).symm)
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
/-- What the devices owe at launch, summand by summand: each summand names one semaphore on the device an offset ahead. -/
theorem O0_eq : (O0 : Dev nD → CellTallies nD τ sig Unit) = fun d =>
    tallyAt (recvCell (plus d 2) 2) () N + tallyAt (recvCell (plus d 1) 1) () N + tallyAt (recvCell (plus d 0) 0) () N
      + tallyAt (barCell (plus d 2)) () 1 + tallyAt (barCell (plus d 1)) () 1 + tallyAt (barCell (plus d 0)) () 1 := rfl

omit [FloatOps F] in
/-- Every device owing one tally on semaphore `sm` of the device offset `k` ahead, device `c` is dealt that tally's
    credit on its own `sm` (from the device offset `k` behind). -/
theorem launchCred_plus (sm : SemLoc sig) (k : Fin 3) (n : ℕ) (c : Dev nD) :
    (Pipeline.launchCred (fun d => tallyAt ((plus d k : Thread nD τ), sm) () n) c : sProp 𝕄) ⊢ cred (tallyAt ((c : Thread nD τ), sm) () n) :=
  Pipeline.launchCred_tallyAt sm (fun d => plus d k) (fun d => minus d k) (fun d => plus_minus d k) (fun d => minus_plus d k) () n c

omit [FloatOps F] in
/-- The launch credit: three units on the device's barrier cell (one from each peer), a row's credit on each of its
    receive cells. -/
theorem creds_intro (c : Dev nD) : (Pipeline.launchCred O0 c : sProp 𝕄) ⊢ creds c := by
  have h3 : (tallyAt (barCell c) () 3 : CellTallies nD τ sig Unit)
      = tallyAt (barCell c) () 1 + tallyAt (barCell c) () 1 + tallyAt (barCell c) () 1 := by
    rw [tallyAt_add, tallyAt_add]
  rw [O0_eq, Pipeline.launchCred_add, Pipeline.launchCred_add, Pipeline.launchCred_add, Pipeline.launchCred_add, Pipeline.launchCred_add]
  unfold creds
  rw [bigSep_fin3, h3]
  iintro ⟨⟨⟨⟨⟨R2, R1⟩, R0⟩, B2⟩, B1⟩, B0⟩
  ihave R2' := (launchCred_plus (F := F) (.dma (recvS 2)) 2 N c) $$ R2
  ihave R1' := (launchCred_plus (F := F) (.dma (recvS 1)) 1 N c) $$ R1
  ihave R0' := (launchCred_plus (F := F) (.dma (recvS 0)) 0 N c) $$ R0
  ihave B2' := (launchCred_plus (F := F) (.reg barS) 2 1 c) $$ B2
  ihave B1' := (launchCred_plus (F := F) (.reg barS) 1 1 c) $$ B1
  ihave B0' := (launchCred_plus (F := F) (.reg barS) 0 1 c) $$ B0
  isplitl [B2' B1' B0']
  · iapply (cred_add _ _).2
    isplitl [B2' B1']
    · iapply (cred_add _ _).2
      isplitl [B2']; · iexact B2'
      iexact B1'
    iexact B0'
  isplitl [R0']; · iexact R0'
  isplitl [R1']; · iexact R1'
  iexact R2'

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O0 c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ0 m c from rfl, scopedRest0_eq]
  unfold Φ0 accPts commPts
  iintro ⟨Hs, -, ⟨%f, Ha⟩, ⟨%g, Hc⟩⟩
  isplitl [Hs]; · iexact Hs
  isplitl [Ha]
  · iexists f; iexact Ha
  iexists g; iexact Hc

theorem phi4_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ4 m c from rfl, scopedRest0_eq, ownSems0_eq]
  unfold Φ4 accPts commPts
  rw [bigSep_fin3, bigSep_fin3]
  iintro ⟨Ha, Hc, ⟨S0, S1, S2⟩, R0, R1, R2⟩
  isplitr; · iempintro
  isplitl [S0 S1 S2 R0 R1 R2]
  · isplitl [S0]; · iexact S0
    isplitl [S1]; · iexact S1
    isplitl [S2]; · iexact S2
    isplitl [R0]; · iexact R0
    isplitl [R1]; · iexact R1
    iexact R2
  isplitl [Ha]
  · iexists (accAt m c 3); iexact Ha
  iexists (gath m); iexact Hc

/-- info: 'Cert.KernelIdeal.Hand.mayWait_low' depends on axioms: [propext, Classical.choice, Quot.sound] -/
#guard_msgs in #print axioms mayWait_low

/-- info: 'Cert.KernelIdeal.Hand.mayWait_bar' depends on axioms: [propext, Classical.choice, Quot.sound] -/
#guard_msgs in #print axioms mayWait_bar

/-- info: 'Cert.KernelIdeal.Hand.waits' depends on axioms: [propext, Classical.choice, Quot.sound] -/
#guard_msgs in #print axioms waits

/-- info: 'Cert.KernelIdeal.Hand.hu0' depends on axioms: [propext, Classical.choice, Quot.sound] -/
#guard_msgs in #print axioms hu0

/-- info: 'Cert.KernelIdeal.Hand.glob' depends on axioms: [propext, Classical.choice, Quot.sound] -/
#guard_msgs in #print axioms glob

/-- info: 'Cert.KernelIdeal.Hand.start_intro' depends on axioms: [propext, Classical.choice, Quot.sound] -/
#guard_msgs in #print axioms start_intro

/-- info: 'Cert.KernelIdeal.Hand.phi0_intro' depends on axioms: [propext, Classical.choice, Quot.sound] -/
#guard_msgs in #print axioms phi0_intro

/-- info: 'Cert.KernelIdeal.Hand.phi4_exit' depends on axioms: [propext, Classical.choice, Quot.sound] -/
#guard_msgs in #print axioms phi4_exit

end Cert.KernelIdeal.Hand

end
-- ==== Proof.BodyMid.lean ====
/-
  A middle or last grid point's update of the accumulator: its eight rows of running maxima joined with the block's.
-/
import proofs.«900920_g7700000000000921_dist_max_ax0_shard0_i_m4096_n1024_v7x_i4_bf16_1_alg».proof.Proof.Dats
import proofs.«900920_g7700000000000921_dist_max_ax0_shard0_i_m4096_n1024_v7x_i4_bf16_1_alg».proof.Proof.Reads
import proofs.«900920_g7700000000000921_dist_max_ax0_shard0_i_m4096_n1024_v7x_i4_bf16_1_alg».proof.Proof.Gen.KernelIdeal.Skeleton

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Tactic

/-- The second condition as the kernel computes it: the grid point is not the first. -/
abbrev cond2 (i : grid0.Coords) : BitVec 1 :=
  Scalar.cmpi .ne (Scalar.extui (Scalar.cmpi .ne (BitVec.ofNat 32 (i 0).val) 0#32)) 0#32

set_option maxHeartbeats 1000000 in
/-- At a point that is neither the first nor the last, the body loads the block, joins its eight rows of maxima with the
    accumulator's, and touches nothing else. -/
theorem run_mid (c : Dev nD) (i : grid0.Coords) (arg1 : Memref sig .tc .vmem S1024x1024 .f32) (harg1 : arg1.IsWhole)
    (arg2 : Memref sig .tc .vmem S1x1024 .f32) (harg2 : arg2.IsWhole)
    (hc1 : ¬ k0_cond1 i = 1#1) (hc2 : cond2 i = 1#1) (hc3 : ¬ k0_cond3 i = 1#1)
    (x0 : Vec F S1024x1024 .f32) (a : Vec F S8x1024 .f32) (E : Set ℕ) (K : PUnit → sProp 𝕄) :
    iprop(owns (c : Thread nD τ) arg1 fullShare x0 ∗ owns (c : Thread nD τ) accM fullShare a
        ∗ (iprop(owns (c : Thread nD τ) arg1 fullShare x0 ∗ owns (c : Thread nD τ) accM fullShare (k0_pay3 x0 a)) -∗ K ⟨⟩))
      ⊢ wp frame (wpE (defs₀ (F := F)) 𝒱₀ c none) E
          (cc0_body i arg1 harg1 arg2 harg2 accM (Memref.isWhole_whole _) commM (Memref.isWhole_whole _) cc0_scratch2 cc0_scratch3) K := by
  simp only [cc0_body_eq_skeleton]; unfold cc0_body_skel
  unfold owns
  iintro ⟨⟨%f0, %hf0, H0⟩, ⟨%f1, %hf1, Hacc⟩, Hk⟩
  obtain rfl := harg1.eq_unread hf0
  obtain rfl := (Memref.isWhole_whole (cc0_scratch0 : Ref sig .tc)).eq_unread hf1
  sl_exec (disch := first | exact hc1 | exact hc2 | exact hc3)
  sl_step
  iapply Hk
  isplitl [H0]
  · iexists _; isplitr; · ipureintro; exact harg1.read_unread _
    iexact H0
  iexists _; isplitr
  swap
  · iexact Hacc
  · ipureintro
    rw [read_writes_whole accM.view _ hz2, readAt_unread harg1 hz2, readAt_unread (S := S8x1024) (mm := accM) (Memref.isWhole_whole _) hz2]

end Cert.KernelIdeal.Hand

end
-- ==== Proof.BodyFirst.lean ====
/-
  The first grid point: the accumulator is set to the block's eight rows of maxima, and the device signals its three
  peers' barrier cells, handing each the row of its gathered-array buffer that peer will fill.
-/
import proofs.«900920_g7700000000000921_dist_max_ax0_shard0_i_m4096_n1024_v7x_i4_bf16_1_alg».proof.Proof.Dats
import proofs.«900920_g7700000000000921_dist_max_ax0_shard0_i_m4096_n1024_v7x_i4_bf16_1_alg».proof.Proof.Reads
import proofs.«900920_g7700000000000921_dist_max_ax0_shard0_i_m4096_n1024_v7x_i4_bf16_1_alg».proof.Proof.BodyMid
import proofs.«900920_g7700000000000921_dist_max_ax0_shard0_i_m4096_n1024_v7x_i4_bf16_1_alg».proof.Proof.Gen.KernelIdeal.Skeleton

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Tactic

/-- What signal `k` hands over, spelt at the signaller: row `plus c k` of its own buffer. -/
theorem payload_bar_plus (c : Dev nD) (k : Fin 3) :
    (sched (F := F) m).payload (barCell (plus c k)) 0 k
      = iprop(∃ f, (rowM (plus c k)).view.loc (c : Thread nD τ) ↦[(rowM (plus c k)).view.set]{fullShare} f) := by
  rw [payload_bar]; unfold barPay rowPts; rw [minus_plus]

attribute [local sl_rounds] duties_bar amount_bar payload_bar_plus
attribute [local sl_canon] dev1_eq dev2_eq dev3_eq

set_option maxHeartbeats 2000000 in
/-- The first point of the body on device `c`: from the three peers' barrier cells' invariants, the tokens of the three
    signal duties, the three rows the signals hand over and the launch's debts, it sets the accumulator and pays the three
    barrier units; the three rows' credits stay owed. -/
theorem run_first (c : Dev nD) (i : grid0.Coords) (arg1 : Memref sig .tc .vmem S1024x1024 .f32) (harg1 : arg1.IsWhole)
    (arg2 : Memref sig .tc .vmem S1x1024 .f32) (harg2 : arg2.IsWhole)
    (hc1 : k0_cond1 i = 1#1) (hc2 : ¬ cond2 i = 1#1) (hc3 : ¬ k0_cond3 i = 1#1)
    (κ0 κ1 κ2 : ℕ) (x0 : Vec F S1024x1024 .f32) (a : Vec F S8x1024 .f32)
    (f0 f1 f2 : Buf (Elt F) ((c : Thread nD τ).loc cc0_scratch1)) (W : Waits sig Unit) (K : PUnit → sProp 𝕄) :
    iprop(cellInv ER (sched m) κ0 (barCell (plus c 0)) ∗ cellInv ER (sched m) κ1 (barCell (plus c 1)) ∗ cellInv ER (sched m) κ2 (barCell (plus c 2))
        ∗ reached ER (barCell (plus c 0)) 0 ∗ reached ER (barCell (plus c 1)) 0 ∗ reached ER (barCell (plus c 2)) 0
        ∗ dutyTok ER (barCell (plus c 0)) 0 0 ∗ dutyTok ER (barCell (plus c 1)) 0 1 ∗ dutyTok ER (barCell (plus c 2)) 0 2
        ∗ rowPts c (plus c 0) fullShare f0 ∗ rowPts c (plus c 1) fullShare f1 ∗ rowPts c (plus c 2) fullShare f2
        ∗ owes (c : Thread nD τ) (O0 c) W
        ∗ owns (c : Thread nD τ) arg1 fullShare x0 ∗ owns (c : Thread nD τ) accM fullShare a
        ∗ (iprop(owns (c : Thread nD τ) arg1 fullShare x0 ∗ owns (c : Thread nD τ) accM fullShare (k0_pay2 x0) ∗ owes (c : Thread nD τ) (O3 c) W) -∗ K ⟨⟩))
      ⊢ wp frame (wpE (defs₀ (F := F)) 𝒱₀ c none) Set.univ
          (cc0_body i arg1 harg1 arg2 harg2 accM (Memref.isWhole_whole _) commM (Memref.isWhole_whole _) cc0_scratch2 cc0_scratch3) K := by
  simp only [cc0_body_eq_skeleton]; unfold cc0_body_skel
  unfold owns rowPts O0
  iintro ⟨#HI0, #HI1, #HI2, #Hr0, #Hr1, #Hr2, Ht0, Ht1, Ht2, Hrow0, Hrow1, Hrow2, HO, ⟨%g0, %hg0, H0⟩, ⟨%g1, %hg1, Hacc⟩, Hk⟩
  obtain rfl := harg1.eq_unread hg0
  obtain rfl := (Memref.isWhole_whole (cc0_scratch0 : Ref sig .tc)).eq_unread hg1
  sl_exec (disch := first | exact hc1 | exact hc2 | exact hc3)
  sl_step
  iapply Hk
  isplitl [H0]
  · iexists _; isplitr; · ipureintro; exact harg1.read_unread _
    iexact H0
  isplitl [Hacc]
  · iexists _; isplitr
    swap
    · iexact Hacc
    · ipureintro
      rw [read_writes_whole accM.view _ hz2, readAt_unread harg1 hz2]
  iexact HO

end Cert.KernelIdeal.Hand

end
-- ==== Proof.BodyLast.lean ====
/-
  The last grid point: the accumulator's eight rows are folded to the device's own row; the device waits for its three
  peers' signals, stores its row into its own row of the gathered-array buffer, sends it to the three peers, waits for
  their three rows and for its own three transfers to have been read, and folds the four rows to the result row.
-/
import proofs.«900920_g7700000000000921_dist_max_ax0_shard0_i_m4096_n1024_v7x_i4_bf16_1_alg».proof.Proof.Dats
import proofs.«900920_g7700000000000921_dist_max_ax0_shard0_i_m4096_n1024_v7x_i4_bf16_1_alg».proof.Proof.Reads
import proofs.«900920_g7700000000000921_dist_max_ax0_shard0_i_m4096_n1024_v7x_i4_bf16_1_alg».proof.Proof.Rows
import proofs.«900920_g7700000000000921_dist_max_ax0_shard0_i_m4096_n1024_v7x_i4_bf16_1_alg».proof.Proof.Launch
import proofs.«900920_g7700000000000921_dist_max_ax0_shard0_i_m4096_n1024_v7x_i4_bf16_1_alg».proof.Proof.BodyMid
import proofs.«900920_g7700000000000921_dist_max_ax0_shard0_i_m4096_n1024_v7x_i4_bf16_1_alg».proof.Proof.Gen.KernelIdeal.Skeleton

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Tactic
open Idealize.ShloMosaic.ValueIdx

/-! ## Values: what a row of the gathered-array buffer holds -/

/-- Writing a row vector through row `r`'s view puts its entry `(0, j)` at index `(r, j)`. -/
theorem row_write_apply (d r : Dev nD) (f : Buf (Elt F) ((rowM r).view.loc (d : Thread nD τ))) (w : Vec F S1x1024 .f32)
    (i : S4x1024.Idx) (hi : (i 0).val = r.val) :
    (rowM r).view.write (Elt F) f w Finset.univ i = w (ix2 (0 : Fin 1) (⟨(i 1).val, (i 1).isLt⟩ : Fin 1024)) := by
  obtain ⟨y, rfl⟩ := View.exists_emb_of_mem_set (rowM r).view ((mem_row r i).mpr hi)
  rw [View.write_emb_of_mem _ _ (Finset.mem_univ y)]
  show w y = w _
  refine congrArg w (funext fun a => ?_)
  match a with
  | ⟨0, _⟩ => exact Subsingleton.elim (α := Fin 1) _ _
  | ⟨1, _⟩ => exact Fin.ext (show (y 1).val = 0 + 1 * (y 1).val by omega)

/-- The gathered array on row `r`: device `r`'s own row, as that device stores it. -/
theorem gath_row (r : Dev nD) (i : S4x1024.Idx) (hi : (i 0).val = r.val) :
    gath m i = k0_pay6 (k0_pay5 (accAt m r 3)) (ix2 (0 : Fin 1) (⟨(i 1).val, (i 1).isLt⟩ : Fin 1024)) := by
  have hr : (⟨(i 0).val, (i 0).isLt⟩ : Fin 4) = r := Fin.ext hi
  show k0_pay6 (rowOf (blks m ⟨(i 0).val, (i 0).isLt⟩)) _ = _
  rw [hr]; rfl

/-- The device's own row, once it has stored the fold of its accumulator there, is the gathered array's row. -/
theorem own_row_written (c : Dev nD) (f : Buf (Elt F) ((rowM c).view.loc (c : Thread nD τ))) (w : Vec F S1x1024 .f32)
    (hw : w = k0_pay5 (accAt m c 3)) (i : S4x1024.Idx) (hi : (i 0).val = c.val) :
    (rowM c).view.write (Elt F) f (k0_pay6 w) Finset.univ i = gath m i := by
  rw [row_write_apply c c f _ i hi, gath_row m c i hi, hw]

/-- A row of the gathered array read through its view and written through the same view, on any device and over any
    contents, is that row. -/
theorem landed_row (d r : Dev nD) (fd : Buf (Elt F) ((rowM r).view.loc (d : Thread nD τ))) (i : S4x1024.Idx) (hi : (i 0).val = r.val) :
    (rowM r).view.write (Elt F) fd ((rowM r).view.read (Elt F) (gath m)) Finset.univ i = gath m i := by
  obtain ⟨y, rfl⟩ := View.exists_emb_of_mem_set (rowM r).view ((mem_row r i).mpr hi)
  rw [View.write_emb_of_mem _ _ (Finset.mem_univ y), View.read_apply]
  rfl

/-! ## The cells' records, cell by cell -/

theorem inv_bar (K : Dev nD × Fin 7 → ℕ) (c : Dev nD) :
    (bigSep Finset.univ fun ck : Dev nD × Fin 7 => (cellInv ER (sched m) (K ck) (kcell ck) : sProp 𝕄)) ⊢ cellInv ER (sched m) (K (c, 0)) (barCell c) :=
  bigSep_elim (Finset.mem_univ (c, 0))
theorem inv_send (K : Dev nD × Fin 7 → ℕ) (c : Dev nD) (k : Fin 3) :
    (bigSep Finset.univ fun ck : Dev nD × Fin 7 => (cellInv ER (sched m) (K ck) (kcell ck) : sProp 𝕄)) ⊢ cellInv ER (sched m) (K (c, sIx k)) (sendCell c k) := by
  rw [← kcell_send]; exact bigSep_elim (Finset.mem_univ (c, sIx k))
theorem inv_recv (K : Dev nD × Fin 7 → ℕ) (c : Dev nD) (k : Fin 3) :
    (bigSep Finset.univ fun ck : Dev nD × Fin 7 => (cellInv ER (sched m) (K ck) (kcell ck) : sProp 𝕄)) ⊢ cellInv ER (sched m) (K (c, rIx k)) (recvCell c k) := by
  rw [← kcell_recv]; exact bigSep_elim (Finset.mem_univ (c, rIx k))
omit [FloatOps F] in
theorem reached_send (c : Dev nD) (k : Fin 3) :
    (bigSep Finset.univ fun ck : Dev nD × Fin 7 => (reached ER (kcell ck) 0 : sProp 𝕄)) ⊢ reached ER (sendCell c k) 0 := by
  rw [← kcell_send]; exact bigSep_elim (Finset.mem_univ (c, sIx k))
omit [FloatOps F] in
theorem reached_recv (c : Dev nD) (k : Fin 3) :
    (bigSep Finset.univ fun ck : Dev nD × Fin 7 => (reached ER (kcell ck) 0 : sProp 𝕄)) ⊢ reached ER (recvCell c k) 0 := by
  rw [← kcell_recv]; exact bigSep_elim (Finset.mem_univ (c, rIx k))

omit [FloatOps F] in
/-- A device's seven positions, cell by cell. -/
theorem ownPos_eq (c : Dev nD) : (ownPos c : sProp 𝕄) = iprop(atPos ER (barCell c) 0 ∅ 0
    ∗ atPos ER (sendCell c 0) 0 ∅ 0 ∗ atPos ER (sendCell c 1) 0 ∅ 0 ∗ atPos ER (sendCell c 2) 0 ∅ 0
    ∗ atPos ER (recvCell c 0) 0 ∅ 0 ∗ atPos ER (recvCell c 1) 0 ∅ 0 ∗ atPos ER (recvCell c 2) 0 ∅ 0) := by
  unfold ownPos; rw [bigSep_fin7]

/-! ## The schedule's tables, as this point reads them -/

omit [FloatOps F] in
theorem minus_0 (c : Dev nD) : minus c 0 = plus c 2 := by revert c; decide
omit [FloatOps F] in
theorem minus_1 (c : Dev nD) : minus c 1 = plus c 1 := by revert c; decide
omit [FloatOps F] in
theorem minus_2 (c : Dev nD) : minus c 2 = plus c 0 := by revert c; decide

/-- Duty `j` of the device's barrier cell hands over row `c` of the buffer of the device `j + 1` behind: that is the
    device `3 - j` ahead, the peer transfer `2 - j` goes to. -/
theorem payload_bar_0 (c : Dev nD) : (sched (F := F) m).payload (barCell c) 0 0
      = iprop(∃ f, (rowM c).view.loc (plus c 2 : Thread nD τ) ↦[(rowM c).view.set]{fullShare} f) := by
  rw [payload_bar]; unfold barPay rowPts; rw [← plus_rev]; rfl
theorem payload_bar_1 (c : Dev nD) : (sched (F := F) m).payload (barCell c) 0 1
      = iprop(∃ f, (rowM c).view.loc (plus c 1 : Thread nD τ) ↦[(rowM c).view.set]{fullShare} f) := by
  rw [payload_bar]; unfold barPay rowPts; rw [← plus_rev]; rfl
theorem payload_bar_2 (c : Dev nD) : (sched (F := F) m).payload (barCell c) 0 2
      = iprop(∃ f, (rowM c).view.loc (plus c 0 : Thread nD τ) ↦[(rowM c).view.set]{fullShare} f) := by
  rw [payload_bar]; unfold barPay rowPts; rw [← plus_rev]; rfl

/-- What lands on the device's receive cell `k`, at the row it lands in: the row of the device `k + 1` behind. -/
theorem payload_recv_own0 (c : Dev nD) (d : Fin 3) : (sched (F := F) m).payload (recvCell c 0) 0 d
      = ((rowM (plus c 2)).view.loc (c : Thread nD τ) ↦[(rowM (plus c 2)).view.set]{fullShare} gath m) := by
  rw [payload_recv]; unfold recvPay rowPts; rw [minus_0]
theorem payload_recv_own1 (c : Dev nD) (d : Fin 3) : (sched (F := F) m).payload (recvCell c 1) 0 d
      = ((rowM (plus c 1)).view.loc (c : Thread nD τ) ↦[(rowM (plus c 1)).view.set]{fullShare} gath m) := by
  rw [payload_recv]; unfold recvPay rowPts; rw [minus_1]
theorem payload_recv_own2 (c : Dev nD) (d : Fin 3) : (sched (F := F) m).payload (recvCell c 2) 0 d
      = ((rowM (plus c 0)).view.loc (c : Thread nD τ) ↦[(rowM (plus c 0)).view.set]{fullShare} gath m) := by
  rw [payload_recv]; unfold recvPay rowPts; rw [minus_2]
/-- What comes back on the device's send cell `k`: the share of its own row that transfer read. -/
theorem payload_send_own (c : Dev nD) (k : Fin 3) (d : Fin 3) : (sched (F := F) m).payload (sendCell c k) 0 d
      = ((rowM c).view.loc (c : Thread nD τ) ↦[(rowM c).view.set]{shareOf k} gath m) := by
  rw [payload_send]; rfl

attribute [local sl_rounds] duties_bar amount_bar expect_bar payload_bar_0 payload_bar_1 payload_bar_2
  duties_send duties_recv amount_send amount_recv expect_send expect_recv payload_recv_own0 payload_recv_own1 payload_recv_own2 payload_send_own
attribute [local sl_canon] dev4_eq dev5_eq dev6_eq slice_off2 slice_off3

/-- What the three peers' signals hand over: row `c` of each peer's buffer, at whatever it holds. -/
theorem bar_rest (c : Dev nD) : (bigSep Finset.univ fun d : Fin 3 => (sched (F := F) m).payload (barCell c) 0 d)
    = iprop((∃ f, rowPts (plus c 2) c fullShare f) ∗ (∃ f, rowPts (plus c 1) c fullShare f) ∗ ∃ f, rowPts (plus c 0) c fullShare f) := by
  rw [bigSep_fin3, payload_bar_0, payload_bar_1, payload_bar_2]; rfl

/-! ## The device's own row through the offsets the kernel computes -/

omit [FloatOps F] in
/-- The elements an access at computed offsets touches are the row's those offsets name. -/
theorem access_set_of_off (off : Fin 2 → Nat) (hin : ∀ a, off a + S1x1024.size a ≤ S4x1024.size a) (r : Dev nD) (e : off = ![r.val, 0]) :
    (commM.access (Rect.unit (s := S4x1024) off S1x1024.size hin)).set = (rowM r).view.set := by
  subst e; rfl

/-- The device's own row, written through the access at its computed offsets with the fold of the accumulator after the
    last block, holds the gathered array's row. -/
theorem access_write_own (c : Dev nD) (off : Fin 2 → Nat) (hin : ∀ a, off a + S1x1024.size a ≤ S4x1024.size a) (e : off = ![c.val, 0])
    (f : Buf (Elt F) ((commM.access (Rect.unit (s := S4x1024) off S1x1024.size hin)).loc (c : Thread nD τ))) (w : Vec F S1x1024 .f32)
    (hw : w = k0_pay5 (accAt m c 3)) (j : S4x1024.Idx) (hj : (j 0).val = c.val) :
    (commM.access (Rect.unit (s := S4x1024) off S1x1024.size hin)).write (Elt F) f (k0_pay6 w) Finset.univ j = gath m j := by
  subst e; exact own_row_written m c f w hw j hj

/-! ## One transfer -/

/-- Transfer `k`: the device's share `k` of its own row goes to row `c` of the peer `k + 1` ahead. The send cell's duty
    is paid with the share (it comes back with that cell's credit), the peer's receive cell's duty with the row
    rewritten, which on row `c` is the gathered array; the row's credit is no longer owed. Stated over the offsets and
    the device word the kernel computes, with their closed forms as hypotheses. -/
theorem wp_send_row (c : Dev nD) (k : Fin 3) (dv : Nat) (hdv : dv < nD) (edv : (⟨dv, hdv⟩ : Dev nD) = plus c k)
    (off : Fin 2 → Nat) (hin : ∀ a, off a + S1x1024.size a ≤ S4x1024.size a) (eoff : off = ![c.val, 0])
    (κ₁ κ₂ : ℕ) (fd : Buf (Elt F) ((rowM c).view.loc (plus c k : Thread nD τ))) (O₀ O : CellTallies nD τ sig Unit)
    (hO : O₀ = O + tallyAt (recvCell (plus c k) k) () N) (W : Waits sig Unit)
    {α : Type} {hsc} {hsrc} {hdst} {hsem} {kont : PUnit → Prog (TpuEff nD τ sig (Elt F) Λ₀ .tc) α} {Q : α → sProp 𝕄} :
    iprop(cellInv ER (sched m) κ₁ (sendCell c k) ∗ cellInv ER (sched m) κ₂ (recvCell (plus c k) k)
        ∗ rowPts c c (shareOf k) (gath m) ∗ rowPts (plus c k) c fullShare fd
        ∗ owes (c : Thread nD τ) O₀ W
        ∗ dutyTok ER (sendCell c k) 0 0 ∗ reached ER (sendCell c k) 0
        ∗ dutyTok ER (recvCell (plus c k) k) 0 0 ∗ reached ER (recvCell (plus c k) k) 0)
      ⊢ iprop(((cred (tallyAt (sendCell c k) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
            (.op (.enqueueDma (commM.slice (Rect.unit (s := S4x1024) off S1x1024.size hin) (fun _ => rfl))
              (.remote (Dev.tc (⟨dv, hdv⟩ : Dev nD)) (commM.slice (Rect.unit (s := S4x1024) off S1x1024.size hin) (fun _ => rfl)) (.dma (sendS k)) hsc)
              (.dma (recvS k)) hsrc hdst hsem) kont) Q) := by
  subst eoff
  obtain rfl : dv = (plus c k).val := congrArg Fin.val edv
  exact wp_send_pointsTo 𝒱₀ ER (sched m) (c : Thread nD τ) none (c' := (plus c k : Thread nD τ)) (src := rowM c) (dst := rowM c)
    (q := shareOf k) (fs := gath m) (fd := fd) (r₁ := 0) (r₂ := 0) (d₁ := 0) (d₂ := 0)
    (by rw [duties_send]; exact Finset.mem_singleton_self _) (by rw [duties_recv]; exact Finset.mem_singleton_self _)
    () () N (row_amount c (recvS k)) (amount_send m c k 0) (amount_recv m (plus c k) k 0) O hO
    (Entails.of_eq (by rw [payload_send]; rfl))
    (Entails.of_eq (by
      rw [payload_recv]; unfold recvPay; rw [minus_plus]; unfold rowPts
      exact pointsTo_congr fun i hi => landed_row m (plus c k) c fd i ((mem_row c i).mp hi)))

/-! ## Small facts about programs and whole buffers -/

omit [FloatOps F] in
/-- A return bound into a continuation is the continuation at the returned value. -/
theorem ret_bind_eq {E : Type → Type} {α β : Type} (a : α) (k : α → Prog E β) : (Prog.ret a).bind k = k a := rfl

omit [FloatOps F] in
/-- The gathered-array buffer whole, as held through its memref's view. -/
theorem comm_whole (c : Dev nD) (f : Buf (Elt F) ((c : Thread nD τ).loc cc0_scratch1)) :
    ((((c : Thread nD τ).loc cc0_scratch1) ↦{fullShare} f : sProp 𝕄)) = (commM.view.loc (c : Thread nD τ) ↦[commM.view.set]{fullShare} f) := by
  rw [View.set_whole]

omit [FloatOps F] in
/-- A load of the whole gathered-array buffer reads its contents. -/
theorem comm_read (c : Dev nD) (f : Buf (Elt F) ((c : Thread nD τ).loc cc0_scratch1)) (inb : ∀ a, (![0, 0] : Fin 2 → Nat) a + S4x1024.size a ≤ S4x1024.size a) :
    (commM : Memref sig .tc .vmem S4x1024 .f32).view.readAt (Elt F) (Rect.unit (s := S4x1024) ![0, 0] S4x1024.size inb).toLoadRect f = f := by
  rw [View.readAt_eq_ld, View.ld_unit_zero hz2]; rfl

/-- The last store through the whole-shape rectangle leaves its payload, whatever was stored before. -/
theorem read_writes_last_whole {sp : Space} {S : Shape} {e : EltTy} (v : View sig .tc sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon v f _ (fun y => ⟨_, List.mem_cons_self, View.mem_set_unit_zero hz inb y⟩), View.canon_cons_unit_zero hz]

/-! ## The last point -/

set_option maxHeartbeats 4000000 in
/-- The last point of the body on device `c`, from what the points before left: the cells' invariants and the device's
    positions, transfer tokens and credit; the three rows' credits still owed; the block, the result's staging buffer at
    anything, the accumulator at the running maximum `a` of the earlier blocks, and the device's own row of the
    gathered-array buffer. It ends with the result row staged, the gathered array whole, the six transfer cells closed at
    zero and nothing owed. -/
theorem run_last (c : Dev nD) (i : grid0.Coords) (arg1 : Memref sig .tc .vmem S1024x1024 .f32) (harg1 : arg1.IsWhole)
    (arg2 : Memref sig .tc .vmem S1x1024 .f32) (harg2 : arg2.IsWhole)
    (hc1 : ¬ k0_cond1 i = 1#1) (hc2 : cond2 i = 1#1) (hc3 : k0_cond3 i = 1#1)
    (K : Dev nD × Fin 7 → ℕ) (x0 : Vec F S1024x1024 .f32) (a : Vec F S8x1024 .f32) (ha : k0_pay3 x0 a = accAt m c 3)
    (f : Buf (Elt F) ((rowM c).view.loc (c : Thread nD τ))) (W : Waits sig Unit) (Kt : PUnit → sProp 𝕄) :
    iprop(records m K ∗ ownPos c ∗ xferToks c ∗ creds c ∗ levAts L lv
        ∗ owes (c : Thread nD τ) (O3 c) W
        ∗ owns (c : Thread nD τ) arg1 fullShare x0 ∗ (∃ d, owns (c : Thread nD τ) arg2 fullShare d)
        ∗ owns (c : Thread nD τ) accM fullShare a ∗ rowPts c c fullShare f
        ∗ (iprop(owns (c : Thread nD τ) arg1 fullShare x0 ∗ owns (c : Thread nD τ) arg2 fullShare (res m)
              ∗ owns (c : Thread nD τ) accM fullShare (accAt m c 3) ∗ commPts c (gath m)
              ∗ (bigSep Finset.univ fun k : Fin 3 => semVal (sendCell c k) 0) ∗ (bigSep Finset.univ fun k : Fin 3 => semVal (recvCell c k) 0)
              ∗ ∃ W', owes (c : Thread nD τ) 0 W') -∗ Kt ⟨⟩))
      ⊢ wp frame (wpE (defs₀ (F := F)) 𝒱₀ c none) Set.univ
          (cc0_body i arg1 harg1 arg2 harg2 accM (Memref.isWhole_whole _) commM (Memref.isWhole_whole _) cc0_scratch2 cc0_scratch3) Kt := by
  simp only [cc0_body_eq_skeleton]; unfold cc0_body_skel
  unfold owns rowPts O3 records xferToks creds
  rw [ownPos_eq, bigSep_fin3, bigSep_fin3, bigSep_fin3]
  iintro ⟨⟨#HI, #HR⟩, ⟨HaB, HaS0, HaS1, HaS2, HaR0, HaR1, HaR2⟩, ⟨⟨HtR0, HtR1, HtR2⟩, HtS0, HtS1, HtS2⟩, ⟨HcB, HcR0, HcR1, HcR2⟩, #Hlev, HO, ⟨%g0, %hg0, H0⟩, ⟨%d, %g2, %hg2, H2⟩, ⟨%g1, %hg1, Hacc⟩, Hrow, Hk⟩
  obtain rfl := harg1.eq_unread hg0
  obtain rfl := harg2.eq_unread hg2
  obtain rfl := (Memref.isWhole_whole (cc0_scratch0 : Ref sig .tc)).eq_unread hg1
  ihave HIB := (inv_bar m K c) $$ HI
  icases HIB with #HIB
  -- the barrier wait's level evidence: the device owes the three rows' credits, on receive cells, above its barrier cell
  have hmw := mayWait_bar (F := F) c
  unfold O3 at hmw
  -- the access to the device's own row of the gathered-array buffer touches that row's elements only
  have hS : (commM.access (Rect.unit (s := S4x1024) (k0_off1 c) S1x1024.size (k0_off1_inb i c hc3))).set = (rowM c).view.set :=
    access_set_of_off _ _ c (k0_off1_eq c)
  have hSub := hS.subset
  have hSubU : (commM.access (Rect.unit (s := S4x1024) (k0_off1 c) S1x1024.size (k0_off1_inb i c hc3))).setOn Finset.univ ⊆ (rowM c).view.set := hSub
  -- the block is joined into the accumulator, its eight rows folded into the staged row; the device waits for its
  -- three peers' signals and comes back with row `c` of each peer's buffer; it loads its own row (a dead value) and
  -- stores the staged row there, holding that row only
  sl_exec (disch := first | exact hc1 | exact hc2 | exact hc3)
  -- what was stored is the fold of the accumulator after the last block: on row `c` the buffer holds the gathered array
  have hv21 : run_last.sl.v21 c arg1 harg1 arg2 x0 a = k0_pay5 (accAt m c 3) := by
    unfold run_last.sl.v21 run_last.sl.H2_1
    rw [View.readCov_unit_zero arg2.view hz2]
    unfold run_last.sl.v17 run_last.sl.Hacc_1
    rw [View.readCov_unit_zero accM.view hz2, readAt_unread harg1 hz2, readAt_unread (S := S8x1024) (mm := accM) (Memref.isWhole_whole _) hz2, ha]
  have hrow : ((rowM c).view.loc (c : Thread nD τ) ↦[(rowM c).view.set]{fullShare} run_last.sl.Hrow_w1 c i arg1 harg1 arg2 hc3 x0 a f : sProp 𝕄)
      = rowPts c c fullShare (gath m) := by
    unfold rowPts
    refine pointsTo_congr fun j hj => ?_
    unfold run_last.sl.Hrow_w1
    exact access_write_own m c _ _ (k0_off1_eq c) _ _ hv21 j ((mem_row c j).mp hj)
  ihave Hrow := (Entails.of_eq hrow) $$ Hrow
  -- the row is read by three concurrent transfers: a share each
  ihave Hs := (row_shares c c (gath m)) $$ Hrow
  icases Hs with ⟨Hs0, Hs1, Hs2⟩
  -- the three rows the peers' signals handed over
  ihave HB := (Entails.of_eq (bar_rest m c)) $$ HaB_pay1
  icases HB with ⟨⟨%fd2, Hd2⟩, ⟨%fd1, Hd1⟩, ⟨%fd0, Hd0⟩⟩
  -- transfer 0, to the device one ahead
  ihave HIS0 := (inv_send m K c 0) $$ HI
  icases HIS0 with #HIS0
  ihave HIR0 := (inv_recv m K (plus c 0) 0) $$ HI
  icases HIR0 with #HIR0
  ihave HrS0 := (reached_send (F := F) c 0) $$ HR
  icases HrS0 with #HrS0
  ihave HrR0 := (reached_recv (F := F) (plus c 0) 0) $$ HR
  icases HrR0 with #HrR0
  iapply (wp_send_row m c 0 _ _ (dev4_eq i c hc3) ![c.val, 0] (row_inb c) rfl _ _ fd0 _ _ rfl _) $$ [Hs0 Hd0 HO HtS0 HtR0]
  · isplitr; · iexact HIS0
    isplitr; · iexact HIR0
    isplitl [Hs0]; · iexact Hs0
    isplitl [Hd0]; · iexact Hd0
    isplitl [HO]; · iexact HO
    isplitl [HtS0]; · iexact HtS0
    isplitr; · iexact HrS0
    isplitl [HtR0]; · iexact HtR0
    iexact HrR0
  iintro ⟨HcS0, HO⟩
  simp only [ret_bind_eq, Prog.pure_eq_ret]
  rw [wp_ret]; imodintro
  sl_exec (disch := first | exact hc1 | exact hc2 | exact hc3)
  -- transfer 1, to the device two ahead
  ihave HIS1 := (inv_send m K c 1) $$ HI
  icases HIS1 with #HIS1
  ihave HIR1 := (inv_recv m K (plus c 1) 1) $$ HI
  icases HIR1 with #HIR1
  ihave HrS1 := (reached_send (F := F) c 1) $$ HR
  icases HrS1 with #HrS1
  ihave HrR1 := (reached_recv (F := F) (plus c 1) 1) $$ HR
  icases HrR1 with #HrR1
  iapply (wp_send_row m c 1 _ _ (dev5_eq i c hc3) ![c.val, 0] (row_inb c) rfl _ _ fd1 _ _ rfl _) $$ [Hs1 Hd1 HO HtS1 HtR1]
  · isplitr; · iexact HIS1
    isplitr; · iexact HIR1
    isplitl [Hs1]; · iexact Hs1
    isplitl [Hd1]; · iexact Hd1
    isplitl [HO]; · iexact HO
    isplitl [HtS1]; · iexact HtS1
    isplitr; · iexact HrS1
    isplitl [HtR1]; · iexact HtR1
    iexact HrR1
  iintro ⟨HcS1, HO⟩
  -- transfer 2, to the device three ahead: the last credit owed
  ihave HIS2 := (inv_send m K c 2) $$ HI
  icases HIS2 with #HIS2
  ihave HIR2 := (inv_recv m K (plus c 2) 2) $$ HI
  icases HIR2 with #HIR2
  ihave HrS2 := (reached_send (F := F) c 2) $$ HR
  icases HrS2 with #HrS2
  ihave HrR2 := (reached_recv (F := F) (plus c 2) 2) $$ HR
  icases HrR2 with #HrR2
  iapply (wp_send_row m c 2 _ _ (dev6_eq i c hc3) _ _ (k0_off2_eq c) _ _ fd2 _ 0 (zero_add _).symm _) $$ [Hs2 Hd2 HO HtS2 HtR2]
  · isplitr; · iexact HIS2
    isplitr; · iexact HIR2
    isplitl [Hs2]; · iexact Hs2
    isplitl [Hd2]; · iexact Hd2
    isplitl [HO]; · iexact HO
    isplitl [HtS2]; · iexact HtS2
    isplitr; · iexact HrS2
    isplitl [HtR2]; · iexact HtR2
    iexact HrR2
  iintro ⟨HcS2, HO⟩
  -- the six waits, owing nothing: the three peers' rows land, the three shares of the own row come back
  ihave HIW0 := (inv_recv m K c 0) $$ HI
  icases HIW0 with #HIW0
  ihave HIW1 := (inv_recv m K c 1) $$ HI
  icases HIW1 with #HIW1
  ihave HIW2 := (inv_recv m K c 2) $$ HI
  icases HIW2 with #HIW2
  simp only [ret_bind_eq]
  sl_exec (disch := first | exact hc1 | exact hc2 | exact hc3)
  -- the own row whole again, and with the three landed rows the whole buffer, at the gathered array
  ihave Hown := (row_unshare c c (gath m)) $$ [HaS0_pay1 HaS1_pay1 HaS2_pay1]
  · unfold rowPts
    isplitl [HaS0_pay1]; · iexact HaS0_pay1
    isplitl [HaS1_pay1]; · iexact HaS1_pay1
    iexact HaS2_pay1
  ihave Hcomm := (comm_join c fullShare (gath m)) $$ [Hown HaR2_pay1 HaR1_pay1 HaR0_pay1]
  · unfold rowPts
    isplitl [Hown]; · iexact Hown
    isplitl [HaR2_pay1]; · iexact HaR2_pay1
    isplitl [HaR1_pay1]; · iexact HaR1_pay1
    iexact HaR0_pay1
  ihave Hcomm := (Entails.of_eq (comm_whole c (gath m))) $$ Hcomm
  -- the six transfer cells have no later round: closed, their counters at zero
  imod (cell_close ER (sched m) (Set.mem_univ _) (fun h => h) (duties_later m _)) $$ [HaS0] with HzS0
  · isplitr; · iexact HIS0
    iexact HaS0
  imod (cell_close ER (sched m) (Set.mem_univ _) (fun h => h) (duties_later m _)) $$ [HaS1] with HzS1
  · isplitr; · iexact HIS1
    iexact HaS1
  imod (cell_close ER (sched m) (Set.mem_univ _) (fun h => h) (duties_later m _)) $$ [HaS2] with HzS2
  · isplitr; · iexact HIS2
    iexact HaS2
  imod (cell_close ER (sched m) (Set.mem_univ _) (fun h => h) (duties_later m _)) $$ [HaR0] with HzR0
  · isplitr; · iexact HIW0
    iexact HaR0
  imod (cell_close ER (sched m) (Set.mem_univ _) (fun h => h) (duties_later m _)) $$ [HaR1] with HzR1
  · isplitr; · iexact HIW1
    iexact HaR1
  imod (cell_close ER (sched m) (Set.mem_univ _) (fun h => h) (duties_later m _)) $$ [HaR2] with HzR2
  · isplitr; · iexact HIW2
    iexact HaR2
  -- the gathered array's four rows folded into the staged result row
  sl_exec (disch := first | exact hc1 | exact hc2 | exact hc3)
  sl_step
  iapply Hk
  isplitl [H0]
  · iexists _; isplitr; · ipureintro; exact harg1.read_unread _
    iexact H0
  isplitl [H2]
  · iexists _; isplitr
    swap
    · iexact H2
    · ipureintro
      rw [read_writes_last_whole arg2.view _ hz2, comm_read c]; rfl
  isplitl [Hacc]
  · iexists _; isplitr
    swap
    · iexact Hacc
    · ipureintro
      unfold run_last.sl.Hacc_1
      rw [read_writes_whole accM.view _ hz2, readAt_unread harg1 hz2, readAt_unread (S := S8x1024) (mm := accM) (Memref.isWhole_whole _) hz2]
      exact ha
  isplitl [Hcomm]
  · unfold commPts; iapply (Entails.of_eq (comm_whole c (gath m)).symm); iexact Hcomm
  isplitl [HzS0 HzS1 HzS2]
  · rw [bigSep_fin3]
    isplitl [HzS0]; · iexact HzS0
    isplitl [HzS1]; · iexact HzS1
    iexact HzS2
  isplitl [HzR0 HzR1 HzR2]
  · rw [bigSep_fin3]
    isplitl [HzR0]; · iexact HzR0
    isplitl [HzR1]; · iexact HzR1
    iexact HzR2
  iexists _; iexact HO

/-- info: 'Cert.KernelIdeal.Hand.run_last' depends on axioms: [propext, Classical.choice, Quot.sound] -/
#guard_msgs in #print axioms run_last

end Cert.KernelIdeal.Hand

end
-- ==== Proof.Body.lean ====
/-
  The body obligation: one grid point of the kernel on one device, from the state the previous point left. The four
  points are three kinds — the first (reset and signal), the two in the middle (accumulate), the last (exchange and
  reduce) — and each is the corresponding run with the pipeline's proof data unfolded at that point.
-/
import proofs.«900920_g7700000000000921_dist_max_ax0_shard0_i_m4096_n1024_v7x_i4_bf16_1_alg».proof.Proof.Dats
import proofs.«900920_g7700000000000921_dist_max_ax0_shard0_i_m4096_n1024_v7x_i4_bf16_1_alg».proof.Proof.Reads
import proofs.«900920_g7700000000000921_dist_max_ax0_shard0_i_m4096_n1024_v7x_i4_bf16_1_alg».proof.Proof.Rows
import proofs.«900920_g7700000000000921_dist_max_ax0_shard0_i_m4096_n1024_v7x_i4_bf16_1_alg».proof.Proof.Launch
import proofs.«900920_g7700000000000921_dist_max_ax0_shard0_i_m4096_n1024_v7x_i4_bf16_1_alg».proof.Proof.BodyMid
import proofs.«900920_g7700000000000921_dist_max_ax0_shard0_i_m4096_n1024_v7x_i4_bf16_1_alg».proof.Proof.BodyFirst
import proofs.«900920_g7700000000000921_dist_max_ax0_shard0_i_m4096_n1024_v7x_i4_bf16_1_alg».proof.Proof.BodyLast

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Tactic

/-! ## The proof data at a point -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem acc_owns (c : Dev nD) (X : Vec F S8x1024 .f32) : accPts c X ⊢ (owns (c : Thread nD τ) accM fullShare X : sProp 𝕄) := by
  rw [owns_whole_eq]; unfold accPts
  iintro H; iexists X; isplitr; · ipureintro; rfl
  iexact H
omit [FloatOps F] in
theorem owns_acc (c : Dev nD) (X : Vec F S8x1024 .f32) : (owns (c : Thread nD τ) accM fullShare X : sProp 𝕄) ⊢ accPts c X := by
  rw [owns_whole_eq]; unfold accPts
  iintro ⟨%f, %hf, H⟩; subst hf; iexact H

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]; rfl
theorem after0_1 (c : Dev nD) (t : Fin cfg0.N) : (dats m 0 c).after 1 t = res m := by dsimp only [dats]
/-- The input's current staging buffer holds the block at every point. -/
theorem before0_0 (c : Dev nD) (t : Fin cfg0.N) (d) : (dats m 0 c).before 0 t d = blkAt m c t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf blkAt iblk; rw [A_eq]; try rfl)

theorem inv_at (K : Dev nD × Fin 7 → ℕ) (ck : Dev nD × Fin 7) :
    (bigSep Finset.univ fun ck : Dev nD × Fin 7 => (cellInv ER (sched m) (K ck) (kcell ck) : sProp 𝕄)) ⊢ cellInv ER (sched m) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-! ## The conditions, decided at the four points -/

theorem c1_t0 : k0_cond1 (grid0.coords t0_0) = 1#1 := by decide
theorem c2_t0 : ¬ cond2 (grid0.coords t0_0) = 1#1 := by decide
theorem c3_t0 : ¬ k0_cond3 (grid0.coords t0_0) = 1#1 := by decide
theorem c1_t1 : ¬ k0_cond1 (grid0.coords t0_1) = 1#1 := by decide
theorem c2_t1 : cond2 (grid0.coords t0_1) = 1#1 := by decide
theorem c3_t1 : ¬ k0_cond3 (grid0.coords t0_1) = 1#1 := by decide
theorem c1_t2 : ¬ k0_cond1 (grid0.coords t0_2) = 1#1 := by decide
theorem c2_t2 : cond2 (grid0.coords t0_2) = 1#1 := by decide
theorem c3_t2 : ¬ k0_cond3 (grid0.coords t0_2) = 1#1 := by decide
theorem c1_t3 : ¬ k0_cond1 (grid0.coords t0_3) = 1#1 := by decide
theorem c2_t3 : cond2 (grid0.coords t0_3) = 1#1 := by decide
theorem c3_t3 : k0_cond3 (grid0.coords t0_3) = 1#1 := by decide

/-- The result's window is idle at every point but the last, and written back at the last only. -/
theorem idle1_of (t : Fin cfg0.N) (h : ¬ k0_cond3 (grid0.coords t) = 1#1) : cfg0.idle 1 (cfg0.grid.coords t) = true := by
  show (!(k0_cond3 (grid0.coords t) == 1#1)) = true
  rw [Bool.not_eq_true', beq_eq_false_iff_ne]; exact h
theorem live1_of (t : Fin cfg0.N) (h : k0_cond3 (grid0.coords t) = 1#1) : cfg0.idle 1 (cfg0.grid.coords t) = false := by
  show (!(k0_cond3 (grid0.coords t) == 1#1)) = false
  rw [h]; rfl
theorem noflush_of (t : Fin cfg0.N) (h : t.val % 4 ≠ 3) : (cfg0.win 1).flush t = false := by
  cases hf : (cfg0.win 1).flush t
  · rfl
  · exact absurd ((flush0_1 t).mp hf) h

/-! ## The obligation, point by point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

theorem leaves0 (c : Dev nD) (t : Fin cfg0.N) :
    (dats m 0 c).leavesExact 0 t = owns (c : Thread nD τ) (st0_0 t) fullShare (blkAt m c t) := by
  unfold Dat.leavesExact
  rw [show cfg0.idle 0 (cfg0.grid.coords t) = false from rfl, after0_0]
  rfl

set_option maxHeartbeats 1000000 in
/-- The first point. -/
theorem ob_first (c : Dev nD) :
    bodyPre m c t0_0 ⊢ wp frame (wpE (defs₀ (F := F)) 𝒱₀ c none) Set.univ (bodyAt0 t0_0) (fun _ => bodyPost m c t0_0) := by
  unfold bodyPre bodyPost bodyAt0
  simp only [before0_0]
  rw [leaves0, Dat.leavesExact_idle (dats m 0 c) 1 t0_0 (idle1_of t0_0 c3_t0) (noflush_of t0_0 (by decide))]
  rw [show (dats m 0 c).Φ (t0_0 : Fin cfg0.N).castSucc = Φ0 m c from rfl, show (dats m 0 c).Φ (t0_0 : Fin cfg0.N).succ = Φmid m c 0 from rfl]
  unfold Dat.owesAt Pipeline.owesWithin
  rw [show (dats m 0 c).owed (t0_0 : Fin cfg0.N).castSucc = O0 c from rfl, show (dats m 0 c).owed (t0_0 : Fin cfg0.N).succ = O3 c from rfl]
  unfold Φ0 Φmid start mid records sigToks commPts
  rw [bigSep_fin3]
  iintro ⟨⟨⟨⟨%K, ⟨#HI, #HR⟩, Hpos, ⟨Ht0, Ht1, Ht2⟩, Hx⟩, Hcr, #Hlev⟩, ⟨%fa, Hacc⟩, ⟨%fc, Hcomm⟩⟩, ⟨%W, %hW, HO⟩, ⟨%d0, H0⟩, ⟨%d1, H1⟩⟩
  ihave Hrows := (comm_split c fullShare fc) $$ Hcomm
  icases Hrows with ⟨Hown, Hr0, Hr1, Hr2⟩
  ihave Hacc := (acc_owns c fa) $$ Hacc
  iapply (run_first m c (grid0.coords t0_0) _ _ _ _ c1_t0 c2_t0 c3_t0 (K (plus c 0, 0)) (K (plus c 1, 0)) (K (plus c 2, 0))
    (blkAt m c t0_0) fa fc fc fc W _)
  isplitr; · iapply (inv_at m K (plus c 0, 0)); iexact HI
  isplitr; · iapply (inv_at m K (plus c 1, 0)); iexact HI
  isplitr; · iapply (inv_at m K (plus c 2, 0)); iexact HI
  isplitr; · iapply (reached_at (F := F) (plus c 0, 0)); iexact HR
  isplitr; · iapply (reached_at (F := F) (plus c 1, 0)); iexact HR
  isplitr; · iapply (reached_at (F := F) (plus c 2, 0)); iexact HR
  isplitl [Ht0]; · iexact Ht0
  isplitl [Ht1]; · iexact Ht1
  isplitl [Ht2]; · iexact Ht2
  isplitl [Hr0]; · iexact Hr0
  isplitl [Hr1]; · iexact Hr1
  isplitl [Hr2]; · iexact Hr2
  isplitl [HO]; · iexact HO
  isplitl [H0]; · iexact H0
  isplitl [Hacc]; · iexact Hacc
  iintro ⟨H0, Hacc, HO⟩
  ihave Hacc := (owns_acc c _) $$ Hacc
  isplitl [Hpos Hx Hcr Hacc Hown]
  · isplitl [Hpos Hx Hcr]
    · isplitl [Hpos Hx]
      · iexists K
        isplitr
        · isplitr; · iexact HI
          iexact HR
        isplitl [Hpos]; · iexact Hpos
        iexact Hx
      isplitl [Hcr]; · iexact Hcr
      iexact Hlev
    isplitl [Hacc]; · iexact Hacc
    iexists fc; iexact Hown
  isplitl [HO]
  · iexists W; isplitr; · ipureintro; exact fun _ _ => Or.inl trivial
    iexact HO
  isplitl [H0]; · iexact H0
  iexists d1; iexact H1

set_option maxHeartbeats 1000000 in
/-- A middle point: `n` is the number of the point before it. -/
theorem ob_mid (c : Dev nD) (t : Fin cfg0.N) (n : Nat)
    (hΦ : (dats m 0 c).Φ t.castSucc = Φmid m c n) (hΦ' : (dats m 0 c).Φ t.succ = Φmid m c (n + 1))
    (ho : (dats m 0 c).owed t.castSucc = O3 c) (ho' : (dats m 0 c).owed t.succ = O3 c)
    (hc1 : ¬ k0_cond1 (grid0.coords t) = 1#1) (hc2 : cond2 (grid0.coords t) = 1#1) (hc3 : ¬ k0_cond3 (grid0.coords t) = 1#1)
    (hnf : t.val % 4 ≠ 3) (hacc : k0_pay3 (blkAt m c t) (accAt m c n) = accAt m c (n + 1)) :
    bodyPre m c t ⊢ wp frame (wpE (defs₀ (F := F)) 𝒱₀ c none) Set.univ (bodyAt0 t) (fun _ => bodyPost m c t) := by
  unfold bodyPre bodyPost bodyAt0
  simp only [before0_0]
  rw [leaves0, Dat.leavesExact_idle (dats m 0 c) 1 t (idle1_of t hc3) (noflush_of t hnf), hΦ, hΦ']
  unfold Dat.owesAt Pipeline.owesWithin
  rw [ho, ho']
  unfold Φmid
  iintro ⟨⟨Hmid, Hacc, Hown⟩, HO, ⟨%d0, H0⟩, ⟨%d1, H1⟩⟩
  ihave Hacc := (acc_owns c _) $$ Hacc
  iapply (run_mid c (grid0.coords t) _ _ _ _ hc1 hc2 hc3 (blkAt m c t) (accAt m c n) Set.univ _)
  isplitl [H0]; · iexact H0
  isplitl [Hacc]; · iexact Hacc
  iintro ⟨H0, Hacc⟩
  rw [hacc]
  ihave Hacc := (owns_acc c _) $$ Hacc
  isplitl [Hmid Hacc Hown]
  · isplitl [Hmid]; · iexact Hmid
    isplitl [Hacc]; · iexact Hacc
    iexact Hown
  isplitl [HO]; · iexact HO
  isplitl [H0]; · iexact H0
  iexists d1; iexact H1

set_option maxHeartbeats 1000000 in
/-- The last point. -/
theorem ob_last (c : Dev nD) :
    bodyPre m c t0_3 ⊢ wp frame (wpE (defs₀ (F := F)) 𝒱₀ c none) Set.univ (bodyAt0 t0_3) (fun _ => bodyPost m c t0_3) := by
  unfold bodyPre bodyPost bodyAt0
  simp only [before0_0]
  rw [leaves0, show (dats m 0 c).leavesExact 1 t0_3 = owns (c : Thread nD τ) (st0_1 t0_3) fullShare (res m) from by
    unfold Dat.leavesExact; rw [live1_of t0_3 c3_t3, after0_1]]
  rw [show (dats m 0 c).Φ (t0_3 : Fin cfg0.N).castSucc = Φmid m c 2 from rfl, show (dats m 0 c).Φ (t0_3 : Fin cfg0.N).succ = Φ4 m c from rfl]
  unfold Dat.owesAt Pipeline.owesWithin
  rw [show (dats m 0 c).owed (t0_3 : Fin cfg0.N).castSucc = O3 c from rfl, show (dats m 0 c).owed (t0_3 : Fin cfg0.N).succ = 0 from rfl]
  unfold Φmid Φ4 mid
  iintro ⟨⟨⟨⟨%K, Hrec, Hpos, Hx⟩, Hcr, Hlev⟩, Hacc, ⟨%fo, Hown⟩⟩, ⟨%W, %hW, HO⟩, ⟨%d0, H0⟩, ⟨%d1, H1⟩⟩
  ihave Hacc := (acc_owns c _) $$ Hacc
  iapply (run_last m c (grid0.coords t0_3) _ _ _ _ c1_t3 c2_t3 c3_t3 K (blkAt m c t0_3) (accAt m c 2) rfl fo W _)
  isplitl [Hrec]; · iexact Hrec
  isplitl [Hpos]; · iexact Hpos
  isplitl [Hx]; · iexact Hx
  isplitl [Hcr]; · iexact Hcr
  isplitl [Hlev]; · iexact Hlev
  isplitl [HO]; · iexact HO
  isplitl [H0]; · iexact H0
  isplitl [H1]; · iexists _; iexact H1
  isplitl [Hacc]; · iexact Hacc
  isplitl [Hown]; · iexact Hown
  iintro ⟨H0, H1, Hacc, Hcomm, Hs, Hr, ⟨%W', HO⟩⟩
  ihave Hacc := (owns_acc c _) $$ Hacc
  isplitl [Hacc Hcomm Hs Hr]
  · isplitl [Hacc]; · iexact Hacc
    isplitl [Hcomm]; · iexact Hcomm
    isplitl [Hs]; · iexact Hs
    iexact Hr
  isplitl [HO]
  · iexists W'; isplitr; · ipureintro; exact fun _ _ => Or.inl trivial
    iexact HO
  isplitl [H0]; · iexact H0
  iexact H1

/-- The body at any point. -/
theorem sound_body (c : Dev nD) (t : Fin cfg0.N) :
    bodyPre m c t ⊢ wp frame (wpE (defs₀ (F := F)) 𝒱₀ c none) Set.univ (bodyAt0 t) (fun _ => bodyPost m c t) := by
  rcases fin_N0 t with rfl | rfl | rfl | rfl
  · exact ob_first m c
  · exact ob_mid m c t0_1 0 rfl rfl rfl rfl c1_t1 c2_t1 c3_t1 (by decide) rfl
  · exact ob_mid m c t0_2 1 rfl rfl rfl rfl c1_t2 c2_t2 c3_t2 (by decide) rfl
  · exact ob_last m c

/-- The library's body obligation on device `c`. -/
theorem body_obligation (c : Dev nD) : BodyObligation (dats (F := F) m 0 c) (defs₀ (F := F)) 𝒱₀ () Set.univ := fun t => by
  rw [bigSep_W0, bigSep_W0]
  exact sound_body m c t

end Cert.KernelIdeal.Hand

end
-- ==== Proof.Final.lean ====
/-
  What the run leaves in the result array, and a device's blocks as rows of the whole array.
-/
import proofs.«900920_g7700000000000921_dist_max_ax0_shard0_i_m4096_n1024_v7x_i4_bf16_1_alg».proof.Proof.Dats
import Idealize.ShloMosaic.Lib.Pipeline.Value
import Idealize.ShloMosaic.Lib.Layout

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.ValueIdx

/-- The result array after the run: the one block the last point writes back, the result row. -/
theorem arrAt_out (c : Dev nD) : (dats m 0 c).arrAt (1 : Fin 2) cfg0.N = res m := by
  -- the last point is the only one that writes the result back, and what it writes covers the whole array
  have h := (dats (F := F) m 0 c).arrAt_succ (1 : Fin 2) (⟨3, by decide⟩ : Fin cfg0.N)
  rw [if_pos ((flush0_1 _).2 rfl)] at h
  refine h.trans ?_
  -- what it writes back is the result row
  have hfl : (dats (F := F) m 0 c).flushed (1 : Fin 2) (⟨3, by decide⟩ : Fin cfg0.N) = res m := by
    have hafter : (dats (F := F) m 0 c).after (1 : Fin 2) (⟨3, by decide⟩ : Fin cfg0.N) = res m := by
      dsimp only [dats]
    show (cfg0.win 1).cut (cfg0.grid.coords ⟨3, by decide⟩) ((dats (F := F) m 0 c).after (1 : Fin 2) ⟨3, by decide⟩) = res m
    rw [hafter]
    rfl
  rw [hfl]
  -- the window's one block sits at offset zero on both axes
  have hoff : (fun a : Fin 2 => win0_1.index (⟨3, by decide⟩ : Fin grid0.N) a * S1x1024.size a) = fun _ => 0 := by
    funext a
    have hi : ∀ t : Fin grid0.N, win0_1.index t (0 : Fin 2) = 0 ∧ win0_1.index t (1 : Fin 2) = 0 := by decide +kernel
    match a with
    | ⟨0, _⟩ => exact (congrArg (· * S1x1024.size 0) (hi _).1).trans (Nat.zero_mul _)
    | ⟨1, _⟩ => exact (congrArg (· * S1x1024.size 1) (hi _).2).trans (Nat.zero_mul _)
  exact Memref.write_access_unit_zero_univ (Elt F) main_v1 hoff _ _ _

/-- The argument array after the run is as launched. -/
theorem arrAt_in (c : Dev nD) : (dats m 0 c).arrAt (0 : Fin 2) cfg0.N = m ((c : Thread nD τ).loc main_arg0) :=
  (dats (F := F) m 0 c).arrAt_in (0 : Fin 2) rfl _

/-- When a device's argument buffer is its block of the whole array `X` (4096 rows from row `4096 c`), its block at
    point `t` is the 1024 rows from row `4096 c + 1024 t`. -/
theorem blks_of_block (X : (⟨2, ![16384, 1024]⟩ : Shape).Idx → Elt F .f32) (c : Dev nD)
    (hX : m ((c : Thread nD τ).loc main_arg0) = Layout.block ⟨2, ![4096, 1024]⟩ ⟨2, ![16384, 1024]⟩ 0 4 c X)
    (t : Fin 4) (p q : Fin 1024) :
    blks m c t (ix2 p q) = X (ix2 (⟨4096 * c.val + 1024 * t.val + p.val, by have h : c.val < 4 := c.isLt; omega⟩ : Fin 16384) q) := by
  -- the block at point `t` is block `(t, 0)` of the device's 4096 × 1024 buffer
  have hidx : ∀ t : Fin grid0.N, win0_0.index t (0 : Fin 2) = t.val ∧ win0_0.index t (1 : Fin 2) = 0 := by decide +kernel
  show ((cfg0.win 0).blk (⟨t.val, t.isLt⟩ : Fin cfg0.N)).view.read (Elt F) (V m c (Pipeline.arrRef spec0 0)) (ix2 p q) = _
  rw [View.read_apply, show V m c (Pipeline.arrRef spec0 0) = _ from hX]
  show X _ = X _
  refine congrArg X (funext fun a => Fin.ext ?_)
  match a with
  | ⟨0, _⟩ =>
    -- row: 4096 c for the device, 1024 t for the block, p inside the block
    show c.val * 4096 + (win0_0.index (⟨t.val, t.isLt⟩ : Fin grid0.N) (0 : Fin 2) * 1024 + 1 * p.val) = 4096 * c.val + 1024 * t.val + p.val
    rw [(hidx _).1]
    show c.val * 4096 + (t.val * 1024 + 1 * p.val) = _
    omega
  | ⟨1, _⟩ =>
    -- column: unchanged
    show win0_0.index (⟨t.val, t.isLt⟩ : Fin grid0.N) (1 : Fin 2) * 1024 + 1 * q.val = q.val
    rw [(hidx _).2]
    omega

end Cert.KernelIdeal.Hand

end
-- ==== Proof.Run.lean ====
/-
  The run of the whole program on the mesh: every device's result array ends at the result row, the same on every
  device, and its argument array unchanged.
-/
import proofs.«900920_g7700000000000921_dist_max_ax0_shard0_i_m4096_n1024_v7x_i4_bf16_1_alg».proof.Proof.Body
import proofs.«900920_g7700000000000921_dist_max_ax0_shard0_i_m4096_n1024_v7x_i4_bf16_1_alg».proof.Proof.Launch
import proofs.«900920_g7700000000000921_dist_max_ax0_shard0_i_m4096_n1024_v7x_i4_bf16_1_alg».proof.Proof.Final

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Every device's result array holds the result row and its argument array what it held. -/
def QC : PUnit × MemSt nD τ sig (Elt F) → Prop := fun r =>
  ∀ c : Dev nD, r.2.mem ((c.tc : Thread nD τ).loc main_v1) = res m
    ∧ r.2.mem ((c.tc : Thread nD τ).loc main_arg0) = m ((c.tc : Thread nD τ).loc main_arg0)

/-- At the compiled mesh of four devices, for any float values, from any memory with zero counters: every weakly fair
    execution of @main terminates, and every final state has each device's result array at the result row and its
    argument array unchanged. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O0) (howed₀ := fun _ => rfl) (howedN := fun _ => rfl)
    (L := L) (lv := lv) (hL := L_of_ne) (hwaits := waits m)
    (G := G m) (G' := G' m) (u₀ := u₀)
    (hu₀ := hu0 m)
    (hglob := glob m)
    (hA := fun _ _ => rfl) (hpf := fun _ k => k.elim0)
    (X := start m) (Y := fun _ => iprop(emp)) (Z := fun _ => iprop(emp))
    (hX := start_intro m ρ) (hin := phi0_intro m) (hout := phi4_exit m)
    (QY := fun _ _ => True)
    (hY := fun c s' => by
      iintro ⟨-, -, HSI⟩
      imodintro
      isplitr; · ipureintro; trivial
      iexact HSI)
    (hQ := fun s h c => ⟨((h c).1 (1 : Fin 2)).trans (arrAt_out m c), ((h c).1 (0 : Fin 2)).trans (arrAt_in m c)⟩)

end Cert.KernelIdeal.Hand

end
-- ==== Proof.Bits.Spec.lean ====
/-
  What one device computes, as pure functions of its four row blocks, and what every device ends with.

  A device holds 4096 rows of the array, visited as four blocks of 1024 rows. Each block is folded, 128 groups of
  eight rows at a time, to an 8 × 1024 array of columnwise maxima (the body's first payload); the running maximum
  over the four blocks is kept in an 8 × 1024 accumulator; at the last block its eight rows are folded to one row,
  the device's own row of columnwise maxima. The four devices' rows are gathered into a 4 × 1024 array, the same on
  every device, and its four rows folded to the result row.
-/
import proofs.«900920_g7700000000000921_dist_max_ax0_shard0_i_m4096_n1024_v7x_i4_bf16_1_alg».proof.Proof.Gen.Kernel.Skeleton
import Idealize.ShloMosaic.Lib.ValueIdx

noncomputable section

namespace Cert.Kernel.Hand

open Idealize.ShloMosaic Idealize.ShloMosaic.ValueIdx Cert.Kernel Cert.Kernel.Gen

variable {F : FTy → Type} [FloatOps F]

/-- The accumulator after the block at point `t`, from what it held before: the first block resets it, a later one
    joins its eight rows of maxima with the accumulator's. -/
def accStep (t : Nat) (b : Vec F S1024x1024 .f32) (a : Vec F S8x1024 .f32) : Vec F S8x1024 .f32 :=
  if t = 0 then k0_pay2 b else k0_pay3 b a

/-- The accumulator after all four blocks. -/
def accOf (b : Fin 4 → Vec F S1024x1024 .f32) : Vec F S8x1024 .f32 :=
  k0_pay3 (b 3) (k0_pay3 (b 2) (k0_pay3 (b 1) (k0_pay2 (b 0))))

/-- A device's own row: the accumulator's eight rows folded to one. -/
def rowOf (b : Fin 4 → Vec F S1024x1024 .f32) : Vec F S1x1024 .f32 := k0_pay5 (accOf b)

/-- The gathered array: row `d` is device `d`'s own row, as that device stored it. -/
def gathOf (B : Fin 4 → Fin 4 → Vec F S1024x1024 .f32) : Vec F S4x1024 .f32 :=
  fun i => k0_pay6 (rowOf (B ⟨(i 0).val, (i 0).isLt⟩)) (ix2 (0 : Fin 1) (⟨(i 1).val, (i 1).isLt⟩ : Fin 1024))

/-- The result row, the same on every device: the gathered array's four rows folded to one. -/
def resOf (B : Fin 4 → Fin 4 → Vec F S1024x1024 .f32) : Vec F S1x1024 .f32 := k0_pay4 (gathOf B)

end Cert.Kernel.Hand

end
-- ==== Proof.Bits.Cells.lean ====
/-
  The mesh's arithmetic and the semaphore cells of the all-to-all exchange of rows.

  Four devices in a ring of offsets: device `c` addresses `plus c k` (offset `k + 1` ahead of it, k = 0, 1, 2), and is
  addressed at offset `k + 1` by `minus c k`. Each device has one barrier cell (the runtime's barrier semaphore), three
  send cells and three receive cells (its two arrays of three DMA semaphores); transfer `k` of device `c` goes to
  `plus c k`, completes on that device's receive cell `k` and on `c`'s own send cell `k`.
-/
import proofs.«900920_g7700000000000921_dist_max_ax0_shard0_i_m4096_n1024_v7x_i4_bf16_1_alg».proof.Proof.Bits.Spec
import proofs.«900920_g7700000000000921_dist_max_ax0_shard0_i_m4096_n1024_v7x_i4_bf16_1_alg».proof.Proof.Gen.Kernel.Launch
import proofs.«900920_g7700000000000921_dist_max_ax0_shard0_i_m4096_n1024_v7x_i4_bf16_1_alg».proof.Proof.Gen.Kernel.Points
import proofs.«900920_g7700000000000921_dist_max_ax0_shard0_i_m4096_n1024_v7x_i4_bf16_1_alg».proof.Proof.Gen.Kernel.Frame
import Idealize.ShloMosaic.Lib.Pipeline.Launch
import Idealize.ShloMosaic.Lib.Pipeline.Kit
import Idealize.ShloMosaic.Lib.Tactic

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) and the exchange's (duties `Fin 3`, an offset) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Offsets on the mesh -/

/-- The device `k + 1` places ahead of `c`. -/
def plus (c : Dev nD) (k : Fin 3) : Dev nD := ⟨(c.val + k.val + 1) % 4, Nat.mod_lt _ (by decide)⟩
/-- The device `k + 1` places behind `c`: the one whose `plus · k` is `c`. -/
def minus (c : Dev nD) (k : Fin 3) : Dev nD := ⟨(c.val + 3 - k.val) % 4, Nat.mod_lt _ (by decide)⟩
/-- The complementary offset: `k + 1` ahead is `rev k + 1` behind. -/
def rev (k : Fin 3) : Fin 3 := ⟨2 - k.val, by omega⟩

theorem minus_plus (c : Dev nD) (k : Fin 3) : minus (plus c k) k = c := by revert c k; decide
theorem plus_minus (c : Dev nD) (k : Fin 3) : plus (minus c k) k = c := by revert c k; decide
theorem plus_rev (c : Dev nD) (k : Fin 3) : plus c (rev k) = minus c k := by revert c k; decide
theorem minus_rev (c : Dev nD) (k : Fin 3) : minus c (rev k) = plus c k := by revert c k; decide
theorem rev_rev (k : Fin 3) : rev (rev k) = k := by revert k; decide
theorem plus_ne (c : Dev nD) (k : Fin 3) : plus c k ≠ c := by revert c k; decide
theorem minus_ne (c : Dev nD) (k : Fin 3) : minus c k ≠ c := by revert c k; decide
theorem plus_inj (c : Dev nD) (k k' : Fin 3) (h : plus c k = plus c k') : k = k' := by revert c k k'; decide
theorem minus_inj (c : Dev nD) (k k' : Fin 3) (h : minus c k = minus c k') : k = k' := by revert c k k'; decide
theorem plus_left_inj (c c' : Dev nD) (k : Fin 3) (h : plus c k = plus c' k) : c = c' := by revert c c' k; decide
/-- Every other device is some offset ahead. -/
theorem exists_plus (c d : Dev nD) (h : d ≠ c) : ∃ k, d = plus c k := by revert c d; decide

/-- The kernel's `device_id` chains: the three signals and the three transfers name `plus c 0`, `plus c 1`, `plus c 2`. -/
theorem dev1_eq (i : grid0.Coords) (c : Dev nD) (h) : (⟨k0_dev1 c, k0_dev1_lt i c h⟩ : Dev nD) = plus c 0 := Fin.ext (k0_dev1_eq c)
theorem dev2_eq (i : grid0.Coords) (c : Dev nD) (h) : (⟨k0_dev2 c, k0_dev2_lt i c h⟩ : Dev nD) = plus c 1 := Fin.ext (k0_dev2_eq c)
theorem dev3_eq (i : grid0.Coords) (c : Dev nD) (h) : (⟨k0_dev3 c, k0_dev3_lt i c h⟩ : Dev nD) = plus c 2 := Fin.ext (k0_dev3_eq c)
theorem dev4_eq (i : grid0.Coords) (c : Dev nD) (h) : (⟨k0_dev4 c, k0_dev4_lt i c h⟩ : Dev nD) = plus c 0 := Fin.ext (k0_dev4_eq c)
theorem dev5_eq (i : grid0.Coords) (c : Dev nD) (h) : (⟨k0_dev5 c, k0_dev5_lt i c h⟩ : Dev nD) = plus c 1 := Fin.ext (k0_dev5_eq c)
theorem dev6_eq (i : grid0.Coords) (c : Dev nD) (h) : (⟨k0_dev6 c, k0_dev6_lt i c h⟩ : Dev nD) = plus c 2 := Fin.ext (k0_dev6_eq c)

/-! ## The semaphores and their cells -/

/-- The runtime's barrier semaphore of collective id 0 (unscoped). -/
abbrev barS : Sem sig := (SemArray.scalar (sig.barrier 0 rfl) : Sems sig S_).sem
/-- Send semaphore `k` and receive semaphore `k` (scoped scratch). -/
abbrev sendS (k : Fin 3) : DmaSem sig := ((cc0_scratch2.slice (Rect.unit (s := S3) ![k.val] S1.size (by revert k; decide))).squeeze S_ squeezes_S1_S_).sem
abbrev recvS (k : Fin 3) : DmaSem sig := ((cc0_scratch3.slice (Rect.unit (s := S3) ![k.val] S1.size (by revert k; decide))).squeeze S_ squeezes_S1_S_).sem

abbrev barCell (c : Dev nD) : GSem nD τ sig := ((c : Thread nD τ), .reg barS)
abbrev sendCell (c : Dev nD) (k : Fin 3) : GSem nD τ sig := ((c : Thread nD τ), .dma (sendS k))
abbrev recvCell (c : Dev nD) (k : Fin 3) : GSem nD τ sig := ((c : Thread nD τ), .dma (recvS k))

theorem sendS_val (k : Fin 3) : (sendS k).val = 3 + k.val := by revert k; decide
theorem recvS_val (k : Fin 3) : (recvS k).val = 6 + k.val := by revert k; decide

/-! ## The gathered array's buffer and its rows -/

abbrev xM0 : Memref sig .tc .vmem S1024x1024 .f32 := Memref.whole cc0_stg0_0
abbrev oM : Memref sig .tc .vmem S1x1024 .f32 := Memref.whole cc0_stg1_0
abbrev accM : Memref sig .tc .vmem S8x1024 .f32 := Memref.whole cc0_scratch0
abbrev commM : Memref sig .tc .vmem S4x1024 .f32 := Memref.whole cc0_scratch1

theorem row_inb (r : Dev nD) : ∀ a, (![r.val, 0] : Fin 2 → Nat) a + S1x1024.size a ≤ S4x1024.size a := by revert r; decide
/-- Row `r` of the gathered array, as a rectangle and as a memref. -/
abbrev rowR (r : Dev nD) : Rect S4x1024 := Rect.unit (s := S4x1024) ![r.val, 0] S1x1024.size (row_inb r)
abbrev rowM (r : Dev nD) : Memref sig .tc .vmem S1x1024 .f32 := commM.slice (rowR r) (fun _ => rfl)

/-- A slice the kernel takes at computed offsets is the row those offsets name. -/
theorem slice_of_off (off : Fin 2 → Nat) (hin : ∀ a, off a + S1x1024.size a ≤ S4x1024.size a) (r : Dev nD) (e : off = ![r.val, 0]) :
    (commM.slice (Rect.unit (s := S4x1024) off S1x1024.size hin) (fun _ => rfl) : Memref sig .tc .vmem S1x1024 .f32) = rowM r := by
  subst e; rfl

theorem slice_off2 (i : grid0.Coords) (c : Dev nD) (h) :
    (commM.slice (Rect.unit (s := S4x1024) (k0_off2 c) S1x1024.size (k0_off2_inb i c h)) (fun _ => rfl) : Memref sig .tc .vmem S1x1024 .f32) = rowM c :=
  slice_of_off _ _ c (k0_off2_eq c)

theorem off3_eq (c : Dev nD) (k : Fin 3) : k0_off3 c (BitVec.ofNat 32 (1 + k.val)) = ![(minus c k).val, 0] := by
  rw [k0_off3_eq c k]; rfl

theorem slice_off3 (i : grid0.Coords) (c : Dev nD) (h) (k : Fin 3) :
    (commM.slice (Rect.unit (s := S4x1024) (k0_off3 c (BitVec.ofNat 32 (1 + k.val))) S1x1024.size (k0_off3_inb i c h k)) (fun _ => rfl) : Memref sig .tc .vmem S1x1024 .f32) = rowM (minus c k) :=
  slice_of_off _ _ (minus c k) (off3_eq c k)

/-- The credit one row's transfer puts on a DMA semaphore. -/
abbrev N : ℕ := (oM : Memref sig .tc .vmem S1x1024 .f32).view.dmaCredit
theorem N_pos : 0 < N := View.dmaCredit_pos _ (by decide)
theorem row_amount (r : Dev nD) (sm : DmaSem sig) : (rowM r).view.amount (.dma sm) = N := rfl

variable (m : (ℓ : Loc nD τ sig) → Buf (Elt F) ℓ) (ρ : Dev nD → PrngReg)

/-! ## Contents -/

/-- Device `c`'s block at point `t`, at its literal type. -/
def blkAt (c : Dev nD) (t : Fin cfg0.N) : Vec F S1024x1024 .f32 := iblk m c 0 t

/-- Device `c`'s four blocks. -/
def blks (c : Dev nD) : Fin 4 → Vec F S1024x1024 .f32 := fun t => blkAt m c ⟨t.val, t.isLt⟩

/-- The accumulator on device `c` after point `n`. -/
def accAt (c : Dev nD) : Nat → Vec F S8x1024 .f32
  | 0 => k0_pay2 (blks m c 0)
  | 1 => k0_pay3 (blks m c 1) (k0_pay2 (blks m c 0))
  | 2 => k0_pay3 (blks m c 2) (k0_pay3 (blks m c 1) (k0_pay2 (blks m c 0)))
  | _ => accOf (blks m c)

/-- The gathered array, the same on every device. -/
def gath : Vec F S4x1024 .f32 := gathOf (fun d => blks m d)
/-- The result row, the same on every device. -/
def res : Vec F S1x1024 .f32 := resOf (fun d => blks m d)

/-! ## The schedule -/

/-- The three shares of a device's own row under its three concurrent transfers. -/
def shareOf : Fin 3 → PosShare TreeShare
  | 0 => fullShare.left
  | 1 => fullShare.right.left
  | 2 => fullShare.right.right

/-- Row `r` of device `d`'s gathered-array buffer at contents `f`, share `q`. -/
def rowPts (d r : Dev nD) (q : PosShare TreeShare) (f : Buf (Elt F) ((rowM r).view.loc (d : Thread nD τ))) : sProp 𝕄 :=
  (rowM r).view.loc (d : Thread nD τ) ↦[(rowM r).view.set]{q} f

omit [FloatOps F] in
instance rowPts_storable (d r : Dev nD) (q) (f) : BI.Storable (upEmb : UEmb _ 𝕄) (rowPts (F := F) d r q f) := by unfold rowPts; infer_instance

/-- Which transfer semaphore a cell is: `(false, k)` send semaphore `k`, `(true, k)` receive semaphore `k`. -/
def xferOf : SemLoc sig → Option (Bool × Fin 3)
  | .dma q => if h : 3 ≤ q.val ∧ q.val < 6 then some (false, ⟨q.val - 3, by omega⟩)
      else if h' : 6 ≤ q.val ∧ q.val < 9 then some (true, ⟨q.val - 6, by omega⟩) else none
  | .reg _ => none

theorem xferOf_send (k : Fin 3) : xferOf (.dma (sendS k)) = some (false, k) := by revert k; decide
theorem xferOf_recv (k : Fin 3) : xferOf (.dma (recvS k)) = some (true, k) := by revert k; decide
theorem xferOf_bar : xferOf (.reg barS) = none := rfl

/-- What the signal of `minus p j` (duty `j` of `p`'s barrier cell) hands `p`: row `p` of the signaller's gathered-array
    buffer, at whatever it holds: the row that `p`'s transfer to the signaller will fill. -/
def barPay (p : Dev nD) (j : Fin 3) : sProp 𝕄 := iprop(∃ f, rowPts (minus p j) p fullShare f)
/-- What lands on `p`'s receive cell `k`: row `minus p k` of its buffer, holding that device's own row. -/
def recvPay (p : Dev nD) (k : Fin 3) : sProp 𝕄 := rowPts p (minus p k) fullShare (gath m)
/-- What comes back on `c`'s send cell `k`: the share of its own row that transfer read. -/
def sendPay (c : Dev nD) (k : Fin 3) : sProp 𝕄 := rowPts c c (shareOf k) (gath m)

abbrev IsBar (g : GSem nD τ sig) : Prop := g.1.2 = .tc ∧ g.2 = .reg barS
abbrev IsXfer (g : GSem nD τ sig) : Prop := g.1.2 = .tc ∧ (xferOf g.2).isSome

/-- One round, round 0: a barrier cell has the three duties `j` (from `minus · j`) of one unit each; a send or receive
    cell the duty `0` of a row's credit. -/
def sched : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else match xferOf g.2 with
      | some (true, k) => recvPay m g.1.1 k
      | some (false, k) => sendPay m g.1.1 k
      | none => iprop(emp)
  amount_pos g _ _ _ := by
    by_cases h : g.2 = .reg barS
    · rw [if_pos h]; exact Nat.one_pos
    · rw [if_neg h]; exact N_pos

instance sched_payload_storable (g : GSem nD τ sig) (r : ℕ) (d : Fin 3) :
    BI.Storable (upEmb : UEmb _ 𝕄) ((sched (F := F) m).payload g r d) := by
  show BI.Storable upEmb (if g.2 = .reg barS then barPay g.1.1 d
    else match xferOf g.2 with
      | some (true, k) => recvPay m g.1.1 k
      | some (false, k) => sendPay m g.1.1 k
      | none => iprop(emp))
  unfold barPay recvPay sendPay
  (repeat' split) <;> infer_instance

section Sched
variable (c : Dev nD) (k : Fin 3)

theorem send_ne_bar : (SemLoc.dma (sendS k) : SemLoc sig) ≠ .reg barS := fun h => by cases h
theorem recv_ne_bar : (SemLoc.dma (recvS k) : SemLoc sig) ≠ .reg barS := fun h => by cases h
theorem send_ne_recv (k' : Fin 3) : (SemLoc.dma (sendS k) : SemLoc sig) ≠ .dma (recvS k') := by revert k k'; decide
theorem not_bar_send : ¬ IsBar (sendCell c k) := fun h => send_ne_bar k h.2
theorem not_bar_recv : ¬ IsBar (recvCell c k) := fun h => recv_ne_bar k h.2

theorem duties_bar : (sched (F := F) m).duties (barCell c) 0 = Finset.univ := by dsimp only [sched]; exact if_pos ⟨rfl, rfl, rfl⟩
theorem duties_send : (sched (F := F) m).duties (sendCell c k) 0 = {0} := by
  dsimp only [sched]; rw [if_neg (fun h => not_bar_send c k h.2)]; exact if_pos ⟨rfl, rfl, by rw [xferOf_send]; rfl⟩
theorem duties_recv : (sched (F := F) m).duties (recvCell c k) 0 = {0} := by
  dsimp only [sched]; rw [if_neg (fun h => not_bar_recv c k h.2)]; exact if_pos ⟨rfl, rfl, by rw [xferOf_recv]; rfl⟩
theorem duties_later (g : GSem nD τ sig) : ∀ r, 1 ≤ r → (sched (F := F) m).duties g r = ∅ :=
  fun r hr => by dsimp only [sched]; rw [if_neg fun h => by omega, if_neg fun h => by omega]

theorem amount_bar (d : Fin 3) : (sched (F := F) m).amount (barCell c) 0 d = 1 := by dsimp only [sched]; exact if_pos rfl
theorem amount_send (d : Fin 3) : (sched (F := F) m).amount (sendCell c k) 0 d = N := by dsimp only [sched]; exact if_neg (send_ne_bar k)
theorem amount_recv (d : Fin 3) : (sched (F := F) m).amount (recvCell c k) 0 d = N := by dsimp only [sched]; exact if_neg (recv_ne_bar k)

theorem expect_bar : (sched (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (sched (F := F) m).expect (sendCell c k) 0 = N := by
  unfold Schedule.expect Schedule.amountOf; rw [duties_send, Finset.sum_singleton, amount_send]
theorem expect_recv : (sched (F := F) m).expect (recvCell c k) 0 = N := by
  unfold Schedule.expect Schedule.amountOf; rw [duties_recv, Finset.sum_singleton, amount_recv]

theorem payload_bar (j : Fin 3) : (sched (F := F) m).payload (barCell c) 0 j = barPay c j := by dsimp only [sched]; rw [if_pos rfl]
theorem payload_send (d : Fin 3) : (sched (F := F) m).payload (sendCell c k) 0 d = sendPay m c k := by
  dsimp only [sched]; rw [if_neg (send_ne_bar k), xferOf_send]
theorem payload_recv (d : Fin 3) : (sched (F := F) m).payload (recvCell c k) 0 d = recvPay m c k := by
  dsimp only [sched]; rw [if_neg (recv_ne_bar k), xferOf_recv]

/-- The whole of the barrier cell's round, no duty taken: the three signallers' payloads. -/
theorem rest_bar : bigSep ((sched (F := F) m).duties (barCell c) 0 \ ∅) (fun d => (sched (F := F) m).payload (barCell c) 0 d)
    = iprop(barPay c 0 ∗ barPay c 1 ∗ barPay c 2) := by
  rw [Finset.sdiff_empty, duties_bar, bigSep_univ_eq_bigSepL [(0 : Fin 3), 1, 2] (by decide) (by decide), bigSepL_cons_cons, bigSepL_cons_cons, bigSepL_singleton,
    payload_bar, payload_bar, payload_bar]
  rfl
theorem rest_send : bigSep ((sched (F := F) m).duties (sendCell c k) 0 \ ∅) (fun d => (sched (F := F) m).payload (sendCell c k) 0 d) = sendPay m c k := by
  rw [Finset.sdiff_empty, duties_send, bigSep_singleton, payload_send]
theorem rest_recv : bigSep ((sched (F := F) m).duties (recvCell c k) 0 \ ∅) (fun d => (sched (F := F) m).payload (recvCell c k) 0 d) = recvPay m c k := by
  rw [Finset.sdiff_empty, duties_recv, bigSep_singleton, payload_recv]

end Sched

end Cert.Kernel.Hand

end
-- ==== Proof.Bits.Dats.lean ====
/-
  What a device owes between grid points, the levels its waits respect, the ghost state of the exchange, and the
  pipeline's proof data: what the accumulator and the gathered-array buffer hold before each grid point.

  A device signals its three peers' barrier cells at the first point and sends them its row at the last; so it owes
  three barrier units until the first point is over and three rows' credits until the last. It waits on the
  pipeline's staging cells (level 0) throughout, on its barrier cell (level 1) while it owes the rows' credits (level
  2), and on its receive and send cells when it owes nothing.
-/
import proofs.«900920_g7700000000000921_dist_max_ax0_shard0_i_m4096_n1024_v7x_i4_bf16_1_alg».proof.Proof.Bits.Cells

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each device owes; the levels -/

/-- After the first point: the three rows' credits, summed so that transfer 0 peels the last summand. -/
def O3 (c : Dev nD) : CellTallies nD τ sig Unit :=
  tallyAt (recvCell (plus c 2) 2) () N + tallyAt (recvCell (plus c 1) 1) () N + tallyAt (recvCell (plus c 0) 0) () N
/-- At launch: those and a unit on each peer's barrier cell, signal 0 peeling the last summand. -/
def O0 (c : Dev nD) : CellTallies nD τ sig Unit :=
  O3 c + tallyAt (barCell (plus c 2)) () 1 + tallyAt (barCell (plus c 1)) () 1 + tallyAt (barCell (plus c 0)) () 1

def L (g : GSem nD τ sig) : Finset Unit := if g.1.2 = .tc then {()} else ∅
/-- Barrier cells at 1, receive cells at 2, everything else (staging, send) at 0. -/
def lv (g : GSem nD τ sig) (_ : Unit) : ℕ :=
  if g.2 = .reg barS then 1 else match xferOf g.2 with
    | some (true, _) => 2
    | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := if_pos rfl
theorem lv_recv (c : Dev nD) (k : Fin 3) : lv (recvCell c k) () = 2 := by
  unfold lv; rw [if_neg (recv_ne_bar k), xferOf_recv]
theorem lv_send (c : Dev nD) (k : Fin 3) : lv (sendCell c k) () = 0 := by
  unfold lv; rw [if_neg (send_ne_bar k), xferOf_send]

/-! ## The cells, indexed; the ghost state -/

/-- A device's seven cells: barrier, send 0–2, receive 0–2. -/
abbrev csem : Fin 7 → SemLoc sig := fun
  | 0 => .reg barS | 1 => .dma (sendS 0) | 2 => .dma (sendS 1) | 3 => .dma (sendS 2)
  | 4 => .dma (recvS 0) | 5 => .dma (recvS 1) | 6 => .dma (recvS 2)
abbrev kcell (ck : Dev nD × Fin 7) : GSem nD τ sig := ((ck.1 : Thread nD τ), csem ck.2)
def sIx (k : Fin 3) : Fin 7 := ⟨1 + k.val, by omega⟩
def rIx (k : Fin 3) : Fin 7 := ⟨4 + k.val, by omega⟩
theorem csem_sIx (k : Fin 3) : csem (sIx k) = .dma (sendS k) := by revert k; decide
theorem csem_rIx (k : Fin 3) : csem (rIx k) = .dma (recvS k) := by revert k; decide
theorem kcell_bar (c : Dev nD) : kcell (c, 0) = barCell c := rfl
theorem kcell_send (c : Dev nD) (k : Fin 3) : kcell (c, sIx k) = sendCell c k := by unfold kcell; rw [csem_sIx]
theorem kcell_recv (c : Dev nD) (k : Fin 3) : kcell (c, rIx k) = recvCell c k := by unfold kcell; rw [csem_rIx]

/-- Every cell's invariant under the names `K` the launch allocated them at, and that round 0 of every cell is
    reached: persistent, held by every device. -/
def records (K : Dev nD × Fin 7 → ℕ) : sProp 𝕄 :=
  iprop((bigSep Finset.univ fun ck : Dev nD × Fin 7 => cellInv ER (sched m) (K ck) (kcell ck))
    ∗ bigSep Finset.univ fun ck : Dev nD × Fin 7 => reached ER (kcell ck) 0)

instance records_persistent (K : Dev nD × Fin 7 → ℕ) : BI.Persistent (records m K) := by unfold records; infer_instance

/-- A device's positions at round 0 of its seven cells. -/
def ownPos (c : Dev nD) : sProp 𝕄 := bigSep Finset.univ fun j : Fin 7 => atPos ER (kcell (c, j)) 0 ∅ 0
/-- The tokens of the duties a device pays with its three signals; -/
def sigToks (c : Dev nD) : sProp 𝕄 := bigSep Finset.univ fun k : Fin 3 => dutyTok ER (barCell (plus c k)) 0 k
/-- with its three transfers: the peer's receive duty and its own send duty. -/
def xferToks (c : Dev nD) : sProp 𝕄 :=
  iprop((bigSep Finset.univ fun k : Fin 3 => dutyTok ER (recvCell (plus c k) k) 0 0)
    ∗ bigSep Finset.univ fun k : Fin 3 => dutyTok ER (sendCell c k) 0 0)
/-- The credit a device waits with: its barrier's three units, its three receive cells' rows. -/
def creds (c : Dev nD) : sProp 𝕄 :=
  iprop(cred (tallyAt (barCell c) () 3) ∗ bigSep Finset.univ fun k : Fin 3 => cred (tallyAt (recvCell c k) () N))

/-- What a device starts from; -/
def start (c : Dev nD) : sProp 𝕄 :=
  iprop((∃ K, records m K ∗ ownPos c ∗ sigToks c ∗ xferToks c) ∗ creds c ∗ levAts L lv)
/-- what it holds of that once it has signalled. -/
def mid (c : Dev nD) : sProp 𝕄 :=
  iprop((∃ K, records m K ∗ ownPos c ∗ xferToks c) ∗ creds c ∗ levAts L lv)

/-! ## The scratch buffers between points -/

def accPts (c : Dev nD) (f : Buf (Elt F) ((c : Thread nD τ).loc cc0_scratch0)) : sProp 𝕄 := ((c : Thread nD τ).loc cc0_scratch0) ↦{fullShare} f
def commPts (c : Dev nD) (f : Buf (Elt F) ((c : Thread nD τ).loc cc0_scratch1)) : sProp 𝕄 := ((c : Thread nD τ).loc cc0_scratch1) ↦{fullShare} f

/-- Before the first point: both scratch buffers at whatever they hold. -/
def Φ0 (c : Dev nD) : sProp 𝕄 := iprop(start m c ∗ (∃ f, accPts c f) ∗ ∃ f, commPts c f)
/-- After point `n` < 3: the accumulator at the running maximum, and of the gathered-array buffer the device's own
    row only (the other three went to the peers with the signals). -/
def Φmid (c : Dev nD) (n : Nat) : sProp 𝕄 := iprop(mid m c ∗ accPts c (accAt m c n) ∗ ∃ f, rowPts c c fullShare f)
/-- After the last point: the gathered array whole, and the six transfer cells closed at zero. -/
def Φ4 (c : Dev nD) : sProp 𝕄 :=
  iprop(accPts c (accAt m c 3) ∗ commPts c (gath m)
    ∗ (bigSep Finset.univ fun k : Fin 3 => semVal (sendCell c k) 0) ∗ bigSep Finset.univ fun k : Fin 3 => semVal (recvCell c k) 0)

/-! ## The pipeline's proof data -/

def dats (_ : Fin 1) (c : Dev nD) : Dat τ (Elt F) Unit ℕ UU ℕ cfg0 c where
  A w := m ((cfg0.win w).arr.view.loc (c : Thread nD τ))
  after w t := match w with
    | ⟨0, _⟩ => blkAt m c t
    | ⟨1, _⟩ => res m
  Φ t := match t with
    | ⟨0, _⟩ => Φ0 m c
    | ⟨1, _⟩ => Φmid m c 0
    | ⟨2, _⟩ => Φmid m c 1
    | ⟨3, _⟩ => Φmid m c 2
    | ⟨_ + 4, _⟩ => Φ4 m c
  q _ := fullShare
  owed t := match t with
    | ⟨0, _⟩ => O0 c
    | ⟨1, _⟩ => O3 c
    | ⟨2, _⟩ => O3 c
    | ⟨3, _⟩ => O3 c
    | ⟨_ + 4, _⟩ => 0

abbrev 𝒱₀ : Variants := Variants.none

end Cert.Kernel.Hand

end
-- ==== Proof.Bits.Reads.lean ====
/-
  Reading a whole buffer through the whole-shape rectangle, and reading back one whole-shape store: the two facts every
  local step of the body rests on.
-/
import proofs.«900920_g7700000000000921_dist_max_ax0_shard0_i_m4096_n1024_v7x_i4_bf16_1_alg».proof.Proof.Bits.Dats
import Idealize.ShloMosaic.Lib.Pipeline.Value
import Idealize.ShloMosaic.Lib.Pipeline.Frame

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem hz2 : (![0, 0] : Fin 2 → Nat) = fun _ => 0 := funext fun a => by fin_cases a <;> rfl

omit [FloatOps F] in
/-- A load of a whole buffer through the whole-shape rectangle reads its contents. -/
theorem readAt_unread {sp : Space} {S : Shape} {e : EltTy} {mm : Memref sig .tc sp S e} (h : mm.IsWhole)
    {off : Fin S.rank → Nat} (hz : off = fun _ => 0) (inb : ∀ a, off a + S.size a ≤ S.size a) (X : S.Idx → Elt F e) :
    mm.view.readAt (Elt F) (Rect.unit off S.size inb).toLoadRect (h.unread X) = X := by
  rw [View.readAt_eq_ld, h.read_unread, View.ld_unit_zero hz]

/-- One store through the whole-shape rectangle leaves its payload, whatever the buffer held. -/
theorem read_writes_whole {sp : Space} {S : Shape} {e : EltTy} (v : View sig .tc sp S e) (f : v.ty.Contents (Elt F))
    {off : Fin S.rank → Nat} (hz : off = fun _ => 0) (inb : ∀ a, off a + S.size a ≤ S.size a) (w : S.Idx → Elt F e) :
    v.read (Elt F) (v.writes (Elt F) f [⟨Rect.unit off S.size inb, w⟩]) = w := by
  rw [View.read_writes_eq_canon v f _ (fun y => ⟨_, List.mem_singleton_self _, View.mem_set_unit_zero hz inb y⟩), View.canon_unit_zero hz]

end Cert.Kernel.Hand

end
-- ==== Proof.Bits.Rows.lean ====
/-
  The gathered-array buffer cut into its four rows and put together again, and a device's own row cut into the
  three shares its three concurrent transfers read.
-/
import proofs.«900920_g7700000000000921_dist_max_ax0_shard0_i_m4096_n1024_v7x_i4_bf16_1_alg».proof.Proof.Bits.Dats
import Idealize.ShloMosaic.Lib.Pipeline.Value

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- Row `r`'s elements: the indices whose first coordinate is `r`. -/
theorem mem_row (r : Dev nD) (i : S4x1024.Idx) : i ∈ (rowM r).view.set ↔ (i 0).val = r.val := by
  show i ∈ ((View.whole cc0_scratch1).slice (rowR r)).set ↔ _
  rw [View.set_slice_whole, Rect.mem_set_unit]
  constructor
  · intro h; have := h 0; simp only [Matrix.cons_val_zero] at this;
    have h1 : S1x1024.size 0 = 1 := rfl
    omega
  · intro h a
    match a with
    | ⟨0, _⟩ =>
      have h1 : S1x1024.size (0 : Fin 2) = 1 := rfl
      show (![r.val, 0] : Fin 2 → Nat) 0 ≤ (i 0).val ∧ (i 0).val < (![r.val, 0] : Fin 2 → Nat) 0 + S1x1024.size 0
      simp only [Matrix.cons_val_zero]; omega
    | ⟨1, _⟩ =>
      have h2 : (i 1).val < 1024 := (i 1).isLt
      show (![r.val, 0] : Fin 2 → Nat) 1 ≤ (i 1).val ∧ (i 1).val < (![r.val, 0] : Fin 2 → Nat) 1 + S1x1024.size 1
      simp only [Matrix.cons_val_one, Matrix.cons_val_zero]
      have h3 : S1x1024.size (1 : Fin 2) = 1024 := rfl
      omega

omit [FloatOps F] in
theorem rows_disjoint (r r' : Dev nD) (h : r ≠ r') : Disjoint (rowM r).view.set (rowM r').view.set := by
  rw [Finset.disjoint_left]; intro i hi hi'; rw [mem_row] at hi hi'; exact h (Fin.ext (hi.symm.trans hi'))

omit [FloatOps F] in
theorem plus_ne_plus (c : Dev nD) (k k' : Fin 3) (h : k ≠ k') : plus c k ≠ plus c k' := fun e => h (plus_inj c k k' e)

/-- The four rows' element sets, from a device's point of view: its own and the three ahead of it. -/
abbrev rest3 (c : Dev nD) : Finset S4x1024.Idx := (rowM (plus c 0)).view.set ∪ ((rowM (plus c 1)).view.set ∪ (rowM (plus c 2)).view.set)

omit [FloatOps F] in
theorem rows_univ (c : Dev nD) : (Finset.univ : Finset S4x1024.Idx) = (rowM c).view.set ∪ rest3 c := by
  ext i
  simp only [Finset.mem_univ, Finset.mem_union, mem_row, true_iff]
  by_cases h : (⟨(i 0).val, (i 0).isLt⟩ : Dev nD) = c
  · exact Or.inl ((mem_row c i).mpr (congrArg Fin.val h))
  · obtain ⟨k, hk⟩ := exists_plus c _ h
    refine Or.inr ?_
    match k, hk with
    | ⟨0, _⟩, hk => exact Or.inl ((mem_row _ i).mpr (congrArg Fin.val hk))
    | ⟨1, _⟩, hk => exact Or.inr (Or.inl ((mem_row _ i).mpr (congrArg Fin.val hk)))
    | ⟨2, _⟩, hk => exact Or.inr (Or.inr ((mem_row _ i).mpr (congrArg Fin.val hk)))

omit [FloatOps F] in
theorem disj_own (c : Dev nD) : Disjoint (rowM c).view.set (rest3 c) :=
  Finset.disjoint_union_right.mpr ⟨rows_disjoint _ _ (plus_ne c 0).symm,
    Finset.disjoint_union_right.mpr ⟨rows_disjoint _ _ (plus_ne c 1).symm, rows_disjoint _ _ (plus_ne c 2).symm⟩⟩
omit [FloatOps F] in
theorem disj_p0 (c : Dev nD) : Disjoint (rowM (plus c 0)).view.set ((rowM (plus c 1)).view.set ∪ (rowM (plus c 2)).view.set) :=
  Finset.disjoint_union_right.mpr ⟨rows_disjoint _ _ (plus_ne_plus c 0 1 (by decide)), rows_disjoint _ _ (plus_ne_plus c 0 2 (by decide))⟩

omit [FloatOps F] in
/-- The whole buffer cut into its four rows: the device's own and the three its peers fill; -/
theorem comm_split (c : Dev nD) (q : PosShare TreeShare) (f : Buf (Elt F) ((c : Thread nD τ).loc cc0_scratch1)) :
    ((((c : Thread nD τ).loc cc0_scratch1) ↦{q} f : sProp 𝕄))
      ⊢ iprop(rowPts c c q f ∗ rowPts c (plus c 0) q f ∗ rowPts c (plus c 1) q f ∗ rowPts c (plus c 2) q f) := by
  unfold rowPts
  show ((((c : Thread nD τ).loc cc0_scratch1) ↦[(Finset.univ : Finset S4x1024.Idx)]{q} f : sProp 𝕄)) ⊢ _
  rw [rows_univ c]
  iintro H
  ihave H := ((pointsTo_union (disj_own c)).1) $$ H
  icases H with ⟨HA, H⟩
  ihave H := ((pointsTo_union (disj_p0 c)).1) $$ H
  icases H with ⟨HB, H⟩
  ihave H := ((pointsTo_union (rows_disjoint _ _ (plus_ne_plus c 1 2 (by decide)))).1) $$ H
  icases H with ⟨HC, HD⟩
  isplitl [HA]; · iexact HA
  isplitl [HB]; · iexact HB
  isplitl [HC]; · iexact HC
  iexact HD

omit [FloatOps F] in
/-- and put together again. -/
theorem comm_join (c : Dev nD) (q : PosShare TreeShare) (f : Buf (Elt F) ((c : Thread nD τ).loc cc0_scratch1)) :
    iprop(rowPts c c q f ∗ rowPts c (plus c 0) q f ∗ rowPts c (plus c 1) q f ∗ rowPts c (plus c 2) q f)
      ⊢ ((((c : Thread nD τ).loc cc0_scratch1) ↦{q} f : sProp 𝕄)) := by
  unfold rowPts
  show _ ⊢ ((((c : Thread nD τ).loc cc0_scratch1) ↦[(Finset.univ : Finset S4x1024.Idx)]{q} f : sProp 𝕄))
  rw [rows_univ c]
  iintro ⟨HA, HB, HC, HD⟩
  iapply ((pointsTo_union (disj_own c)).2)
  isplitl [HA]; · iexact HA
  iapply ((pointsTo_union (disj_p0 c)).2)
  isplitl [HB]; · iexact HB
  iapply ((pointsTo_union (rows_disjoint _ _ (plus_ne_plus c 1 2 (by decide)))).2)
  isplitl [HC]; · iexact HC
  iexact HD

omit [FloatOps F] in
/-- A row cut into the three shares its three concurrent readers take; -/
theorem row_shares (d r : Dev nD) (f : Buf (Elt F) ((rowM r).view.loc (d : Thread nD τ))) :
    rowPts d r fullShare f ⊢ iprop(rowPts d r (shareOf 0) f ∗ rowPts d r (shareOf 1) f ∗ rowPts d r (shareOf 2) f) := by
  unfold rowPts shareOf
  iintro H
  ihave H := ((pointsTo_share (PosShare.mem_left_op_right fullShare)).1) $$ H
  icases H with ⟨H0, H⟩
  ihave H := ((pointsTo_share (PosShare.mem_left_op_right fullShare.right)).1) $$ H
  icases H with ⟨H1, H2⟩
  isplitl [H0]; · iexact H0
  isplitl [H1]; · iexact H1
  iexact H2

omit [FloatOps F] in
/-- and the three shares joined. -/
theorem row_unshare (d r : Dev nD) (f : Buf (Elt F) ((rowM r).view.loc (d : Thread nD τ))) :
    iprop(rowPts d r (shareOf 0) f ∗ rowPts d r (shareOf 1) f ∗ rowPts d r (shareOf 2) f) ⊢ rowPts d r fullShare f := by
  unfold rowPts shareOf
  iintro ⟨H0, H1, H2⟩
  iapply ((pointsTo_share (PosShare.mem_left_op_right fullShare)).2)
  isplitl [H0]; · iexact H0
  iapply ((pointsTo_share (PosShare.mem_left_op_right fullShare.right)).2)
  isplitl [H1]; · iexact H1
  iexact H2

omit [FloatOps F] in
/-- Contents matter on the row only. -/
theorem rowPts_congr (d r : Dev nD) (q : PosShare TreeShare) (f g : Buf (Elt F) ((rowM r).view.loc (d : Thread nD τ)))
    (h : ∀ i : S4x1024.Idx, (i 0).val = r.val → f i = g i) : rowPts d r q f = rowPts d r q g := by
  unfold rowPts
  exact pointsTo_congr fun i hi => h i ((mem_row r i).mp hi)

end Cert.Kernel.Hand

end
-- ==== Proof.Bits.Launch.lean ====
/-
  The launch: the exchange's ghost state funded and dealt, the cells' invariants allocated for all devices at once
  (the barrier semaphore is the runtime's, shared by the devices that signal it), the launch credit read off what the
  devices owe one another, and the pipeline's proof data entered and left.
-/
import proofs.«900920_g7700000000000921_dist_max_ax0_shard0_i_m4096_n1024_v7x_i4_bf16_1_alg».proof.Proof.Bits.Dats

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's OWN (scoped) semaphores, as the launch indexes them: send 0–2, receive 0–2. -/
abbrev osem : Fin 6 → SemLoc sig := fun
  | 0 => .dma (sendS 0) | 1 => .dma (sendS 1) | 2 => .dma (sendS 2)
  | 3 => .dma (recvS 0) | 4 => .dma (recvS 1) | 5 => .dma (recvS 2)

theorem ownSemFacts : Pipeline.OwnSemFacts cfg0.spec osem := by decide

theorem share_eq (c : Dev nD) (w : Fin cfg0.W) : (dats m 0 c).share w = fullShare := by unfold Dat.share; split <;> rfl

/-! ## Levels -/

omit [FloatOps F] in
/-- After the first point a device owes only its peers' receive cells: where `O3 c` is positive is `recvCell (plus c k) k` for some `k`. -/
theorem O3_pos {c : Dev nD} {g : GSem nD τ sig} {u : Unit} (h : 0 < O3 c g u) : ∃ k : Fin 3, g = recvCell (plus c k) k := by
  unfold O3 at h
  rcases Pipeline.add_pos_cases h with h | h
  · rcases Pipeline.add_pos_cases h with h | h
    · exact ⟨2, (Pipeline.tallyAt_pos h).1⟩
    · exact ⟨1, (Pipeline.tallyAt_pos h).1⟩
  · exact ⟨0, (Pipeline.tallyAt_pos h).1⟩

omit [FloatOps F] in
/-- At launch a device owes only its peers' receive cells and barrier cells. -/
theorem O0_pos {c : Dev nD} {g : GSem nD τ sig} {u : Unit} (h : 0 < O0 c g u) :
    (∃ k : Fin 3, g = recvCell (plus c k) k) ∨ ∃ k : Fin 3, g = barCell (plus c k) := by
  unfold O0 at h
  rcases Pipeline.add_pos_cases h with h | h
  · rcases Pipeline.add_pos_cases h with h | h
    · rcases Pipeline.add_pos_cases h with h | h
      · exact Or.inl (O3_pos h)
      · exact Or.inr ⟨2, (Pipeline.tallyAt_pos h).1⟩
    · exact Or.inr ⟨1, (Pipeline.tallyAt_pos h).1⟩
  · exact Or.inr ⟨0, (Pipeline.tallyAt_pos h).1⟩

omit [FloatOps F] in
theorem mem_L (c : Dev nD) (sm : SemLoc sig) (u : Unit) : u ∈ L ((c : Thread nD τ), sm) := by
  rw [L_tc]; exact Finset.mem_singleton_self _

/-- A wait on a cell at level 0 (a staging cell, a send cell) is allowed whatever of its debts a device still has. -/
theorem mayWait_low (c : Dev nD) (sm : SemLoc sig) (hsm : lv ((c : Thread nD τ), sm) () = 0) (O : CellTallies nD τ sig Unit)
    (hO : O = O0 c ∨ O = O3 c ∨ O = 0) :
    (levAts L lv : sProp 𝕄) ⊢ MayWait (c : Thread nD τ) sm () O := by
  rcases hO with rfl | rfl | rfl
  · refine Pipeline.mayWait_of_levAts (mem_L c sm ()) fun g i hg => ?_
    cases i
    rcases O0_pos hg with ⟨k, rfl⟩ | ⟨k, rfl⟩
    · exact ⟨mem_L _ _ _, by rw [hsm, lv_recv]; decide⟩
    · exact ⟨mem_L _ _ _, by rw [hsm, lv_bar]; decide⟩
  · refine Pipeline.mayWait_of_levAts (mem_L c sm ()) fun g i hg => ?_
    cases i
    obtain ⟨k, rfl⟩ := O3_pos hg
    exact ⟨mem_L _ _ _, by rw [hsm, lv_recv]; decide⟩
  · rw [MayWait_zero]; iintro -; iempintro

/-- At its barrier wait a device owes the three rows' credits only: receive cells, above its barrier cell. -/
theorem mayWait_bar (c : Dev nD) :
    (levAts L lv : sProp 𝕄) ⊢ MayWait (c : Thread nD τ) (.reg barS) () (O3 c) := by
  refine Pipeline.mayWait_of_levAts (mem_L c _ ()) fun g i hg => ?_
  cases i
  obtain ⟨k, rfl⟩ := O3_pos hg
  exact ⟨mem_L _ _ _, by rw [lv_bar, lv_recv]; decide⟩

omit [FloatOps F] in
/-- A DMA semaphore that is none of the six transfer semaphores sits at level 0. -/
theorem lv_of_xfer_none (t : Thread nD τ) (q : DmaSem sig) (h : xferOf (.dma q) = none) : lv (t, .dma q) () = 0 := by
  unfold lv; rw [if_neg (fun h' => by cases h'), h]

theorem waits (c : Dev nD) : (levAts L lv : sProp 𝕄) ⊢ Pipeline.cellsWaits cfgs (dats m) () 0 c :=
  Pipeline.cellsWaits_intro cfgs (dats m) () 0 c fun w s t =>
    mayWait_low c _ (lv_of_xfer_none _ _ (by fin_cases w <;> fin_cases s <;> decide)) _ (by
      rcases t with ⟨_ | _ | _ | _ | _, ht⟩
      · exact Or.inl rfl
      · exact Or.inr (Or.inl rfl)
      · exact Or.inr (Or.inl rfl)
      · exact Or.inr (Or.inl rfl)
      · exact Or.inr (Or.inr rfl))

/-! ## Funding and the global step -/

omit [FloatOps F] in
theorem csem_injective : Function.Injective (csem : Fin 7 → SemLoc sig) := by decide

omit [FloatOps F] in
theorem kcell_injective : Function.Injective (kcell : Dev nD × Fin 7 → GSem nD τ sig) := by
  rintro ⟨c, j⟩ ⟨c', j'⟩ h
  have h1 : c = c' := congrArg (fun g : GSem nD τ sig => g.1.1) h
  subst h1
  have h2 : j = j' := csem_injective (congrArg Prod.snd h)
  subst h2; rfl

/-- The exchange's cells and the duty tokens minted for them. -/
def ringCells : Finset (GSem nD τ sig) := Finset.univ.map ⟨kcell, kcell_injective⟩

/-- A device's own cells' duties: (device, which) — its barrier's three, its three send cells', its three receive cells'. -/
abbrev tokOf (cj : Dev nD × Fin 9) : GSem nD τ sig × ℕ × Fin 3 := match cj.2 with
  | 0 => (barCell cj.1, 0, 0) | 1 => (barCell cj.1, 0, 1) | 2 => (barCell cj.1, 0, 2)
  | 3 => (sendCell cj.1 0, 0, 0) | 4 => (sendCell cj.1 1, 0, 0) | 5 => (sendCell cj.1 2, 0, 0)
  | 6 => (recvCell cj.1 0, 0, 0) | 7 => (recvCell cj.1 1, 0, 0) | 8 => (recvCell cj.1 2, 0, 0)

/-- The semaphore and the duty of each of the nine, apart from the device. -/
abbrev tokSem : Fin 9 → SemLoc sig × Fin 3 := fun
  | 0 => (.reg barS, 0) | 1 => (.reg barS, 1) | 2 => (.reg barS, 2)
  | 3 => (.dma (sendS 0), 0) | 4 => (.dma (sendS 1), 0) | 5 => (.dma (sendS 2), 0)
  | 6 => (.dma (recvS 0), 0) | 7 => (.dma (recvS 1), 0) | 8 => (.dma (recvS 2), 0)

omit [FloatOps F] in
theorem tokSem_injective : Function.Injective (tokSem : Fin 9 → SemLoc sig × Fin 3) := by decide

omit [FloatOps F] in
theorem tokOf_eq (c : Dev nD) (j : Fin 9) : tokOf (c, j) = (((c : Thread nD τ), (tokSem j).1), 0, (tokSem j).2) := by
  fin_cases j <;> rfl

omit [FloatOps F] in
theorem tokOf_injective : Function.Injective (tokOf : Dev nD × Fin 9 → GSem nD τ sig × ℕ × Fin 3) := by
  rintro ⟨c, j⟩ ⟨c', j'⟩ h
  rw [tokOf_eq, tokOf_eq] at h
  have h1 : c = c' := congrArg (fun x : GSem nD τ sig × ℕ × Fin 3 => x.1.1.1) h
  subst h1
  have h2 : j = j' := tokSem_injective (Prod.ext (congrArg (fun x : GSem nD τ sig × ℕ × Fin 3 => x.1.2) h) (congrArg (fun x : GSem nD τ sig × ℕ × Fin 3 => x.2.2) h))
  subst h2; rfl

def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun j : Fin 3 => dutyTok ER (barCell c) 0 j)
    ∗ (bigSep Finset.univ fun k : Fin 3 => dutyTok ER (sendCell c k) 0 0)
    ∗ bigSep Finset.univ fun k : Fin 3 => dutyTok ER (recvCell c k) 0 0)

/-- What the launch element deals device `c`. -/
def G (c : Dev nD) : sProp 𝕄 :=
  iprop((bigSep Finset.univ fun j : Fin 7 => roundState ER (sched m) (kcell (c, j)) 0)
    ∗ (bigSep Finset.univ fun j : Fin 7 => iprop(atPos ER (kcell (c, j)) 0 ∅ 0 ∗ reached ER (kcell (c, j)) 0)) ∗ toks c)

/-- What the global step makes of it. -/
def G' (c : Dev nD) : sProp 𝕄 := iprop(∃ K, records m K ∗ ownPos c ∗ sigToks c ∗ xferToks c)

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ
omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

omit [FloatOps F] in
/-- The nine tokens minted for a device's cells are its barrier's three, its send cells' and its receive cells'. -/
theorem toks_intro (c : Dev nD) :
    (bigSep Finset.univ fun j : Fin 9 => (dutyTok ER (tokOf (c, j)).1 (tokOf (c, j)).2.1 (tokOf (c, j)).2.2 : sProp 𝕄)) ⊢ toks c := by
  unfold toks; rw [bigSep_fin9, bigSep_fin3, bigSep_fin3, bigSep_fin3]
  iintro ⟨H0, H1, H2, H3, H4, H5, H6, H7, H8⟩
  isplitl [H0 H1 H2]
  · isplitl [H0]; · iexact H0
    isplitl [H1]; · iexact H1
    iexact H2
  isplitl [H3 H4 H5]
  · isplitl [H3]; · iexact H3
    isplitl [H4]; · iexact H4
    iexact H5
  isplitl [H6]; · iexact H6
  isplitl [H7]; · iexact H7
  iexact H8

/-- The exchange's launch element funds every device's cells: round states, positions, the reached round, duty tokens. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun j : Fin 7 => Φ (kcell (c, j)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    exact bigSep_mono fun c _ => toks_intro c
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

theorem hu0 : (ownU (u₀ : UU) : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_ring m) $$ HX with HG
  imodintro
  isplitl [HP] <;> iassumption

omit [FloatOps F] in
/-- The kernel's own semaphores at zero are the six transfer cells' counters at zero. -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
        ∗ semVal (recvCell c 0) 0 ∗ semVal (recvCell c 1) 0 ∗ semVal (recvCell c 2) 0) := by
  rw [Pipeline.ownSems0_eq_of_list c osem [0, 1, 2, 3, 4, 5] (by decide) (by decide)]; rfl

omit [FloatOps F] in
/-- The device's one unscoped semaphore is the barrier semaphore: the unscoped semaphores at zero are the barrier cell's counter at zero. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Fin 7 => semVal (kcell (c, j)) 0 : sProp 𝕄) := by
  rw [ownSems0_eq, unscopedSems0_eq, bigSep_fin7]
  iintro ⟨⟨S0, S1, S2, R0, R1, R2⟩, HB⟩
  isplitl [HB]; · iexact HB
  isplitl [S0]; · iexact S0
  isplitl [S1]; · iexact S1
  isplitl [S2]; · iexact S2
  isplitl [R0]; · iexact R0
  isplitl [R1]; · iexact R1
  iexact R2

/-- One device's seven cells: each counter at zero and round state at zero make the cell's body, allocated as an
    invariant at some name. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j => iprop(∃ κ : ℕ, cellInv ER (sched m) κ (kcell (c, j))))
          ∗ (bigSep Finset.univ fun j => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : Fin 7 => semVal (kcell (c, j)) 0) ∗ bigSep Finset.univ fun j : Fin 7 => roundState ER (sched m) (kcell (c, j)) 0)
      ⊢ (|={Set.univ}=> bigSep Finset.univ fun j => iprop(∃ κ : ℕ, cellInv ER (sched m) κ (kcell (c, j))) : sProp 𝕄) from by
        rw [← bigSep_sep']
        exact (bigSep_mono fun j _ => (Rounds.body_intro ER (sched m) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

/-- Offset `k` as a permutation of (device, offset) pairs. -/
def shift : Dev nD × Fin 3 ≃ Dev nD × Fin 3 where
  toFun p := (plus p.1 p.2, p.2)
  invFun p := (minus p.1 p.2, p.2)
  left_inv p := by rcases p with ⟨c, k⟩; exact Prod.ext (minus_plus c k) rfl
  right_inv p := by rcases p with ⟨c, k⟩; exact Prod.ext (plus_minus c k) rfl

omit [FloatOps F] in
/-- A family over (device, offset), every device's entries taken at the device that offset ahead. -/
theorem bigSep_shift (Φ : Dev nD → Fin 3 → sProp 𝕄) :
    (bigSep Finset.univ fun c : Dev nD => bigSep Finset.univ fun k : Fin 3 => Φ c k)
      = bigSep Finset.univ fun c : Dev nD => bigSep Finset.univ fun k : Fin 3 => Φ (plus c k) k :=
  (bigSep_univ_prod (fun ck : Dev nD × Fin 3 => Φ ck.1 ck.2)).symm.trans
    ((bigSep_univ_equiv shift (fun ck : Dev nD × Fin 3 => Φ ck.1 ck.2)).trans
      (bigSep_univ_prod (fun ck : Dev nD × Fin 3 => Φ (shift ck).1 (shift ck).2)))

omit [FloatOps F] in
/-- The tokens dealt to their payers: duty `j` of a barrier cell and the duty of receive cell `k` go to the device that
    offset behind the cell's owner; a send cell's duty stays. -/
theorem toks_around : (bigSep Finset.univ fun c : Dev nD => (toks c : sProp 𝕄)) ⊢ bigSep Finset.univ fun c : Dev nD => iprop(sigToks c ∗ xferToks c) := by
  unfold toks sigToks xferToks
  rw [bigSep_sep', bigSep_sep', bigSep_sep', bigSep_sep',
    bigSep_shift (fun (c : Dev nD) (j : Fin 3) => (dutyTok ER (barCell c) 0 j : sProp 𝕄)),
    bigSep_shift (fun (c : Dev nD) (k : Fin 3) => (dutyTok ER (recvCell c k) 0 0 : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 7 → ℕ) (c : Dev nD) : iprop(records m K ∗ ownPos c ∗ sigToks c ∗ xferToks c) ⊢ G' m c := by
  unfold G'
  iintro H
  iexists K
  iexact H

/-- The names collected into one table, the invariants and the reached rounds handed to every device, the tokens dealt. -/
theorem regroup :
    (bigSep Finset.univ fun c : Dev nD => iprop((bigSep Finset.univ fun j => iprop(∃ κ : ℕ, cellInv ER (sched m) κ (kcell (c, j))))
          ∗ (bigSep Finset.univ fun j => iprop(atPos ER (kcell (c, j)) 0 ∅ 0 ∗ reached ER (kcell (c, j)) 0)) ∗ toks c) : sProp 𝕄)
      ⊢ bigSep Finset.univ (G' m) := by
  rw [bigSep_sep', bigSep_sep', ← bigSep_univ_prod (fun ck : Dev nD × Fin 7 => iprop(∃ κ : ℕ, cellInv ER (sched m) κ (kcell ck))),
    bigSep_congr (s := Finset.univ) (fun (c : Dev nD) _ => bigSep_sep' Finset.univ (fun j : Fin 7 => (atPos ER (kcell (c, j)) 0 ∅ 0 : sProp 𝕄)) (fun j => reached ER (kcell (c, j)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => (ownPos c : sProp 𝕄)) (fun c => iprop(sigToks c ∗ xferToks c))).symm)
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
/-- What the devices owe at launch, summand by summand: each summand names one semaphore on the device an offset ahead. -/
theorem O0_eq : (O0 : Dev nD → CellTallies nD τ sig Unit) = fun d =>
    tallyAt (recvCell (plus d 2) 2) () N + tallyAt (recvCell (plus d 1) 1) () N + tallyAt (recvCell (plus d 0) 0) () N
      + tallyAt (barCell (plus d 2)) () 1 + tallyAt (barCell (plus d 1)) () 1 + tallyAt (barCell (plus d 0)) () 1 := rfl

omit [FloatOps F] in
/-- Every device owing one tally on semaphore `sm` of the device offset `k` ahead, device `c` is dealt that tally's
    credit on its own `sm` (from the device offset `k` behind). -/
theorem launchCred_plus (sm : SemLoc sig) (k : Fin 3) (n : ℕ) (c : Dev nD) :
    (Pipeline.launchCred (fun d => tallyAt ((plus d k : Thread nD τ), sm) () n) c : sProp 𝕄) ⊢ cred (tallyAt ((c : Thread nD τ), sm) () n) :=
  Pipeline.launchCred_tallyAt sm (fun d => plus d k) (fun d => minus d k) (fun d => plus_minus d k) (fun d => minus_plus d k) () n c

omit [FloatOps F] in
/-- The launch credit: three units on the device's barrier cell (one from each peer), a row's credit on each of its
    receive cells. -/
theorem creds_intro (c : Dev nD) : (Pipeline.launchCred O0 c : sProp 𝕄) ⊢ creds c := by
  have h3 : (tallyAt (barCell c) () 3 : CellTallies nD τ sig Unit)
      = tallyAt (barCell c) () 1 + tallyAt (barCell c) () 1 + tallyAt (barCell c) () 1 := by
    rw [tallyAt_add, tallyAt_add]
  rw [O0_eq, Pipeline.launchCred_add, Pipeline.launchCred_add, Pipeline.launchCred_add, Pipeline.launchCred_add, Pipeline.launchCred_add]
  unfold creds
  rw [bigSep_fin3, h3]
  iintro ⟨⟨⟨⟨⟨R2, R1⟩, R0⟩, B2⟩, B1⟩, B0⟩
  ihave R2' := (launchCred_plus (F := F) (.dma (recvS 2)) 2 N c) $$ R2
  ihave R1' := (launchCred_plus (F := F) (.dma (recvS 1)) 1 N c) $$ R1
  ihave R0' := (launchCred_plus (F := F) (.dma (recvS 0)) 0 N c) $$ R0
  ihave B2' := (launchCred_plus (F := F) (.reg barS) 2 1 c) $$ B2
  ihave B1' := (launchCred_plus (F := F) (.reg barS) 1 1 c) $$ B1
  ihave B0' := (launchCred_plus (F := F) (.reg barS) 0 1 c) $$ B0
  isplitl [B2' B1' B0']
  · iapply (cred_add _ _).2
    isplitl [B2' B1']
    · iapply (cred_add _ _).2
      isplitl [B2']; · iexact B2'
      iexact B1'
    iexact B0'
  isplitl [R0']; · iexact R0'
  isplitl [R1']; · iexact R1'
  iexact R2'

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O0 c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ0 m c from rfl, scopedRest0_eq]
  unfold Φ0 accPts commPts
  iintro ⟨Hs, -, ⟨%f, Ha⟩, ⟨%g, Hc⟩⟩
  isplitl [Hs]; · iexact Hs
  isplitl [Ha]
  · iexists f; iexact Ha
  iexists g; iexact Hc

theorem phi4_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ4 m c from rfl, scopedRest0_eq, ownSems0_eq]
  unfold Φ4 accPts commPts
  rw [bigSep_fin3, bigSep_fin3]
  iintro ⟨Ha, Hc, ⟨S0, S1, S2⟩, R0, R1, R2⟩
  isplitr; · iempintro
  isplitl [S0 S1 S2 R0 R1 R2]
  · isplitl [S0]; · iexact S0
    isplitl [S1]; · iexact S1
    isplitl [S2]; · iexact S2
    isplitl [R0]; · iexact R0
    isplitl [R1]; · iexact R1
    iexact R2
  isplitl [Ha]
  · iexists (accAt m c 3); iexact Ha
  iexists (gath m); iexact Hc

/-- info: 'Cert.Kernel.Hand.mayWait_low' depends on axioms: [propext, Classical.choice, Quot.sound] -/
#guard_msgs in #print axioms mayWait_low

/-- info: 'Cert.Kernel.Hand.mayWait_bar' depends on axioms: [propext, Classical.choice, Quot.sound] -/
#guard_msgs in #print axioms mayWait_bar

/-- info: 'Cert.Kernel.Hand.waits' depends on axioms: [propext, Classical.choice, Quot.sound] -/
#guard_msgs in #print axioms waits

/-- info: 'Cert.Kernel.Hand.hu0' depends on axioms: [propext, Classical.choice, Quot.sound] -/
#guard_msgs in #print axioms hu0

/-- info: 'Cert.Kernel.Hand.glob' depends on axioms: [propext, Classical.choice, Quot.sound] -/
#guard_msgs in #print axioms glob

/-- info: 'Cert.Kernel.Hand.start_intro' depends on axioms: [propext, Classical.choice, Quot.sound] -/
#guard_msgs in #print axioms start_intro

/-- info: 'Cert.Kernel.Hand.phi0_intro' depends on axioms: [propext, Classical.choice, Quot.sound] -/
#guard_msgs in #print axioms phi0_intro

/-- info: 'Cert.Kernel.Hand.phi4_exit' depends on axioms: [propext, Classical.choice, Quot.sound] -/
#guard_msgs in #print axioms phi4_exit

end Cert.Kernel.Hand

end
-- ==== Proof.Bits.BodyMid.lean ====
/-
  A middle or last grid point's update of the accumulator: its eight rows of running maxima joined with the block's.
-/
import proofs.«900920_g7700000000000921_dist_max_ax0_shard0_i_m4096_n1024_v7x_i4_bf16_1_alg».proof.Proof.Bits.Dats
import proofs.«900920_g7700000000000921_dist_max_ax0_shard0_i_m4096_n1024_v7x_i4_bf16_1_alg».proof.Proof.Bits.Reads
import proofs.«900920_g7700000000000921_dist_max_ax0_shard0_i_m4096_n1024_v7x_i4_bf16_1_alg».proof.Proof.Gen.Kernel.Skeleton

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Tactic

/-- The second condition as the kernel computes it: the grid point is not the first. -/
abbrev cond2 (i : grid0.Coords) : BitVec 1 :=
  Scalar.cmpi .ne (Scalar.extui (Scalar.cmpi .ne (BitVec.ofNat 32 (i 0).val) 0#32)) 0#32

set_option maxHeartbeats 1000000 in
/-- At a point that is neither the first nor the last, the body loads the block, joins its eight rows of maxima with the
    accumulator's, and touches nothing else. -/
theorem run_mid (c : Dev nD) (i : grid0.Coords) (arg1 : Memref sig .tc .vmem S1024x1024 .f32) (harg1 : arg1.IsWhole)
    (arg2 : Memref sig .tc .vmem S1x1024 .f32) (harg2 : arg2.IsWhole)
    (hc1 : ¬ k0_cond1 i = 1#1) (hc2 : cond2 i = 1#1) (hc3 : ¬ k0_cond3 i = 1#1)
    (x0 : Vec F S1024x1024 .f32) (a : Vec F S8x1024 .f32) (E : Set ℕ) (K : PUnit → sProp 𝕄) :
    iprop(owns (c : Thread nD τ) arg1 fullShare x0 ∗ owns (c : Thread nD τ) accM fullShare a
        ∗ (iprop(owns (c : Thread nD τ) arg1 fullShare x0 ∗ owns (c : Thread nD τ) accM fullShare (k0_pay3 x0 a)) -∗ K ⟨⟩))
      ⊢ wp frame (wpE (defs₀ (F := F)) 𝒱₀ c none) E
          (cc0_body i arg1 harg1 arg2 harg2 accM (Memref.isWhole_whole _) commM (Memref.isWhole_whole _) cc0_scratch2 cc0_scratch3) K := by
  simp only [cc0_body_eq_skeleton]; unfold cc0_body_skel
  unfold owns
  iintro ⟨⟨%f0, %hf0, H0⟩, ⟨%f1, %hf1, Hacc⟩, Hk⟩
  obtain rfl := harg1.eq_unread hf0
  obtain rfl := (Memref.isWhole_whole (cc0_scratch0 : Ref sig .tc)).eq_unread hf1
  sl_exec (disch := first | exact hc1 | exact hc2 | exact hc3)
  sl_step
  iapply Hk
  isplitl [H0]
  · iexists _; isplitr; · ipureintro; exact harg1.read_unread _
    iexact H0
  iexists _; isplitr
  swap
  · iexact Hacc
  · ipureintro
    rw [read_writes_whole accM.view _ hz2, readAt_unread harg1 hz2, readAt_unread (S := S8x1024) (mm := accM) (Memref.isWhole_whole _) hz2]

end Cert.Kernel.Hand

end
-- ==== Proof.Bits.BodyFirst.lean ====
/-
  The first grid point: the accumulator is set to the block's eight rows of maxima, and the device signals its three
  peers' barrier cells, handing each the row of its gathered-array buffer that peer will fill.
-/
import proofs.«900920_g7700000000000921_dist_max_ax0_shard0_i_m4096_n1024_v7x_i4_bf16_1_alg».proof.Proof.Bits.Dats
import proofs.«900920_g7700000000000921_dist_max_ax0_shard0_i_m4096_n1024_v7x_i4_bf16_1_alg».proof.Proof.Bits.Reads
import proofs.«900920_g7700000000000921_dist_max_ax0_shard0_i_m4096_n1024_v7x_i4_bf16_1_alg».proof.Proof.Bits.BodyMid
import proofs.«900920_g7700000000000921_dist_max_ax0_shard0_i_m4096_n1024_v7x_i4_bf16_1_alg».proof.Proof.Gen.Kernel.Skeleton

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Tactic

/-- What signal `k` hands over, spelt at the signaller: row `plus c k` of its own buffer. -/
theorem payload_bar_plus (c : Dev nD) (k : Fin 3) :
    (sched (F := F) m).payload (barCell (plus c k)) 0 k
      = iprop(∃ f, (rowM (plus c k)).view.loc (c : Thread nD τ) ↦[(rowM (plus c k)).view.set]{fullShare} f) := by
  rw [payload_bar]; unfold barPay rowPts; rw [minus_plus]

attribute [local sl_rounds] duties_bar amount_bar payload_bar_plus
attribute [local sl_canon] dev1_eq dev2_eq dev3_eq

set_option maxHeartbeats 2000000 in
/-- The first point of the body on device `c`: from the three peers' barrier cells' invariants, the tokens of the three
    signal duties, the three rows the signals hand over and the launch's debts, it sets the accumulator and pays the three
    barrier units; the three rows' credits stay owed. -/
theorem run_first (c : Dev nD) (i : grid0.Coords) (arg1 : Memref sig .tc .vmem S1024x1024 .f32) (harg1 : arg1.IsWhole)
    (arg2 : Memref sig .tc .vmem S1x1024 .f32) (harg2 : arg2.IsWhole)
    (hc1 : k0_cond1 i = 1#1) (hc2 : ¬ cond2 i = 1#1) (hc3 : ¬ k0_cond3 i = 1#1)
    (κ0 κ1 κ2 : ℕ) (x0 : Vec F S1024x1024 .f32) (a : Vec F S8x1024 .f32)
    (f0 f1 f2 : Buf (Elt F) ((c : Thread nD τ).loc cc0_scratch1)) (W : Waits sig Unit) (K : PUnit → sProp 𝕄) :
    iprop(cellInv ER (sched m) κ0 (barCell (plus c 0)) ∗ cellInv ER (sched m) κ1 (barCell (plus c 1)) ∗ cellInv ER (sched m) κ2 (barCell (plus c 2))
        ∗ reached ER (barCell (plus c 0)) 0 ∗ reached ER (barCell (plus c 1)) 0 ∗ reached ER (barCell (plus c 2)) 0
        ∗ dutyTok ER (barCell (plus c 0)) 0 0 ∗ dutyTok ER (barCell (plus c 1)) 0 1 ∗ dutyTok ER (barCell (plus c 2)) 0 2
        ∗ rowPts c (plus c 0) fullShare f0 ∗ rowPts c (plus c 1) fullShare f1 ∗ rowPts c (plus c 2) fullShare f2
        ∗ owes (c : Thread nD τ) (O0 c) W
        ∗ owns (c : Thread nD τ) arg1 fullShare x0 ∗ owns (c : Thread nD τ) accM fullShare a
        ∗ (iprop(owns (c : Thread nD τ) arg1 fullShare x0 ∗ owns (c : Thread nD τ) accM fullShare (k0_pay2 x0) ∗ owes (c : Thread nD τ) (O3 c) W) -∗ K ⟨⟩))
      ⊢ wp frame (wpE (defs₀ (F := F)) 𝒱₀ c none) Set.univ
          (cc0_body i arg1 harg1 arg2 harg2 accM (Memref.isWhole_whole _) commM (Memref.isWhole_whole _) cc0_scratch2 cc0_scratch3) K := by
  simp only [cc0_body_eq_skeleton]; unfold cc0_body_skel
  unfold owns rowPts O0
  iintro ⟨#HI0, #HI1, #HI2, #Hr0, #Hr1, #Hr2, Ht0, Ht1, Ht2, Hrow0, Hrow1, Hrow2, HO, ⟨%g0, %hg0, H0⟩, ⟨%g1, %hg1, Hacc⟩, Hk⟩
  obtain rfl := harg1.eq_unread hg0
  obtain rfl := (Memref.isWhole_whole (cc0_scratch0 : Ref sig .tc)).eq_unread hg1
  sl_exec (disch := first | exact hc1 | exact hc2 | exact hc3)
  sl_step
  iapply Hk
  isplitl [H0]
  · iexists _; isplitr; · ipureintro; exact harg1.read_unread _
    iexact H0
  isplitl [Hacc]
  · iexists _; isplitr
    swap
    · iexact Hacc
    · ipureintro
      rw [read_writes_whole accM.view _ hz2, readAt_unread harg1 hz2]
  iexact HO

end Cert.Kernel.Hand

end
-- ==== Proof.Bits.BodyLast.lean ====
/-
  The last grid point: the accumulator's eight rows are folded to the device's own row; the device waits for its three
  peers' signals, stores its row into its own row of the gathered-array buffer, sends it to the three peers, waits for
  their three rows and for its own three transfers to have been read, and folds the four rows to the result row.
-/
import proofs.«900920_g7700000000000921_dist_max_ax0_shard0_i_m4096_n1024_v7x_i4_bf16_1_alg».proof.Proof.Bits.Dats
import proofs.«900920_g7700000000000921_dist_max_ax0_shard0_i_m4096_n1024_v7x_i4_bf16_1_alg».proof.Proof.Bits.Reads
import proofs.«900920_g7700000000000921_dist_max_ax0_shard0_i_m4096_n1024_v7x_i4_bf16_1_alg».proof.Proof.Bits.Rows
import proofs.«900920_g7700000000000921_dist_max_ax0_shard0_i_m4096_n1024_v7x_i4_bf16_1_alg».proof.Proof.Bits.Launch
import proofs.«900920_g7700000000000921_dist_max_ax0_shard0_i_m4096_n1024_v7x_i4_bf16_1_alg».proof.Proof.Bits.BodyMid
import proofs.«900920_g7700000000000921_dist_max_ax0_shard0_i_m4096_n1024_v7x_i4_bf16_1_alg».proof.Proof.Gen.Kernel.Skeleton

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Tactic
open Idealize.ShloMosaic.ValueIdx

/-! ## Values: what a row of the gathered-array buffer holds -/

/-- Writing a row vector through row `r`'s view puts its entry `(0, j)` at index `(r, j)`. -/
theorem row_write_apply (d r : Dev nD) (f : Buf (Elt F) ((rowM r).view.loc (d : Thread nD τ))) (w : Vec F S1x1024 .f32)
    (i : S4x1024.Idx) (hi : (i 0).val = r.val) :
    (rowM r).view.write (Elt F) f w Finset.univ i = w (ix2 (0 : Fin 1) (⟨(i 1).val, (i 1).isLt⟩ : Fin 1024)) := by
  obtain ⟨y, rfl⟩ := View.exists_emb_of_mem_set (rowM r).view ((mem_row r i).mpr hi)
  rw [View.write_emb_of_mem _ _ (Finset.mem_univ y)]
  show w y = w _
  refine congrArg w (funext fun a => ?_)
  match a with
  | ⟨0, _⟩ => exact Subsingleton.elim (α := Fin 1) _ _
  | ⟨1, _⟩ => exact Fin.ext (show (y 1).val = 0 + 1 * (y 1).val by omega)

/-- The gathered array on row `r`: device `r`'s own row, as that device stores it. -/
theorem gath_row (r : Dev nD) (i : S4x1024.Idx) (hi : (i 0).val = r.val) :
    gath m i = k0_pay6 (k0_pay5 (accAt m r 3)) (ix2 (0 : Fin 1) (⟨(i 1).val, (i 1).isLt⟩ : Fin 1024)) := by
  have hr : (⟨(i 0).val, (i 0).isLt⟩ : Fin 4) = r := Fin.ext hi
  show k0_pay6 (rowOf (blks m ⟨(i 0).val, (i 0).isLt⟩)) _ = _
  rw [hr]; rfl

/-- The device's own row, once it has stored the fold of its accumulator there, is the gathered array's row. -/
theorem own_row_written (c : Dev nD) (f : Buf (Elt F) ((rowM c).view.loc (c : Thread nD τ))) (w : Vec F S1x1024 .f32)
    (hw : w = k0_pay5 (accAt m c 3)) (i : S4x1024.Idx) (hi : (i 0).val = c.val) :
    (rowM c).view.write (Elt F) f (k0_pay6 w) Finset.univ i = gath m i := by
  rw [row_write_apply c c f _ i hi, gath_row m c i hi, hw]

/-- A row of the gathered array read through its view and written through the same view, on any device and over any
    contents, is that row. -/
theorem landed_row (d r : Dev nD) (fd : Buf (Elt F) ((rowM r).view.loc (d : Thread nD τ))) (i : S4x1024.Idx) (hi : (i 0).val = r.val) :
    (rowM r).view.write (Elt F) fd ((rowM r).view.read (Elt F) (gath m)) Finset.univ i = gath m i := by
  obtain ⟨y, rfl⟩ := View.exists_emb_of_mem_set (rowM r).view ((mem_row r i).mpr hi)
  rw [View.write_emb_of_mem _ _ (Finset.mem_univ y), View.read_apply]
  rfl

/-! ## The cells' records, cell by cell -/

theorem inv_bar (K : Dev nD × Fin 7 → ℕ) (c : Dev nD) :
    (bigSep Finset.univ fun ck : Dev nD × Fin 7 => (cellInv ER (sched m) (K ck) (kcell ck) : sProp 𝕄)) ⊢ cellInv ER (sched m) (K (c, 0)) (barCell c) :=
  bigSep_elim (Finset.mem_univ (c, 0))
theorem inv_send (K : Dev nD × Fin 7 → ℕ) (c : Dev nD) (k : Fin 3) :
    (bigSep Finset.univ fun ck : Dev nD × Fin 7 => (cellInv ER (sched m) (K ck) (kcell ck) : sProp 𝕄)) ⊢ cellInv ER (sched m) (K (c, sIx k)) (sendCell c k) := by
  rw [← kcell_send]; exact bigSep_elim (Finset.mem_univ (c, sIx k))
theorem inv_recv (K : Dev nD × Fin 7 → ℕ) (c : Dev nD) (k : Fin 3) :
    (bigSep Finset.univ fun ck : Dev nD × Fin 7 => (cellInv ER (sched m) (K ck) (kcell ck) : sProp 𝕄)) ⊢ cellInv ER (sched m) (K (c, rIx k)) (recvCell c k) := by
  rw [← kcell_recv]; exact bigSep_elim (Finset.mem_univ (c, rIx k))
omit [FloatOps F] in
theorem reached_send (c : Dev nD) (k : Fin 3) :
    (bigSep Finset.univ fun ck : Dev nD × Fin 7 => (reached ER (kcell ck) 0 : sProp 𝕄)) ⊢ reached ER (sendCell c k) 0 := by
  rw [← kcell_send]; exact bigSep_elim (Finset.mem_univ (c, sIx k))
omit [FloatOps F] in
theorem reached_recv (c : Dev nD) (k : Fin 3) :
    (bigSep Finset.univ fun ck : Dev nD × Fin 7 => (reached ER (kcell ck) 0 : sProp 𝕄)) ⊢ reached ER (recvCell c k) 0 := by
  rw [← kcell_recv]; exact bigSep_elim (Finset.mem_univ (c, rIx k))

omit [FloatOps F] in
/-- A device's seven positions, cell by cell. -/
theorem ownPos_eq (c : Dev nD) : (ownPos c : sProp 𝕄) = iprop(atPos ER (barCell c) 0 ∅ 0
    ∗ atPos ER (sendCell c 0) 0 ∅ 0 ∗ atPos ER (sendCell c 1) 0 ∅ 0 ∗ atPos ER (sendCell c 2) 0 ∅ 0
    ∗ atPos ER (recvCell c 0) 0 ∅ 0 ∗ atPos ER (recvCell c 1) 0 ∅ 0 ∗ atPos ER (recvCell c 2) 0 ∅ 0) := by
  unfold ownPos; rw [bigSep_fin7]

/-! ## The schedule's tables, as this point reads them -/

omit [FloatOps F] in
theorem minus_0 (c : Dev nD) : minus c 0 = plus c 2 := by revert c; decide
omit [FloatOps F] in
theorem minus_1 (c : Dev nD) : minus c 1 = plus c 1 := by revert c; decide
omit [FloatOps F] in
theorem minus_2 (c : Dev nD) : minus c 2 = plus c 0 := by revert c; decide

/-- Duty `j` of the device's barrier cell hands over row `c` of the buffer of the device `j + 1` behind: that is the
    device `3 - j` ahead, the peer transfer `2 - j` goes to. -/
theorem payload_bar_0 (c : Dev nD) : (sched (F := F) m).payload (barCell c) 0 0
      = iprop(∃ f, (rowM c).view.loc (plus c 2 : Thread nD τ) ↦[(rowM c).view.set]{fullShare} f) := by
  rw [payload_bar]; unfold barPay rowPts; rw [← plus_rev]; rfl
theorem payload_bar_1 (c : Dev nD) : (sched (F := F) m).payload (barCell c) 0 1
      = iprop(∃ f, (rowM c).view.loc (plus c 1 : Thread nD τ) ↦[(rowM c).view.set]{fullShare} f) := by
  rw [payload_bar]; unfold barPay rowPts; rw [← plus_rev]; rfl
theorem payload_bar_2 (c : Dev nD) : (sched (F := F) m).payload (barCell c) 0 2
      = iprop(∃ f, (rowM c).view.loc (plus c 0 : Thread nD τ) ↦[(rowM c).view.set]{fullShare} f) := by
  rw [payload_bar]; unfold barPay rowPts; rw [← plus_rev]; rfl

/-- What lands on the device's receive cell `k`, at the row it lands in: the row of the device `k + 1` behind. -/
theorem payload_recv_own0 (c : Dev nD) (d : Fin 3) : (sched (F := F) m).payload (recvCell c 0) 0 d
      = ((rowM (plus c 2)).view.loc (c : Thread nD τ) ↦[(rowM (plus c 2)).view.set]{fullShare} gath m) := by
  rw [payload_recv]; unfold recvPay rowPts; rw [minus_0]
theorem payload_recv_own1 (c : Dev nD) (d : Fin 3) : (sched (F := F) m).payload (recvCell c 1) 0 d
      = ((rowM (plus c 1)).view.loc (c : Thread nD τ) ↦[(rowM (plus c 1)).view.set]{fullShare} gath m) := by
  rw [payload_recv]; unfold recvPay rowPts; rw [minus_1]
theorem payload_recv_own2 (c : Dev nD) (d : Fin 3) : (sched (F := F) m).payload (recvCell c 2) 0 d
      = ((rowM (plus c 0)).view.loc (c : Thread nD τ) ↦[(rowM (plus c 0)).view.set]{fullShare} gath m) := by
  rw [payload_recv]; unfold recvPay rowPts; rw [minus_2]
/-- What comes back on the device's send cell `k`: the share of its own row that transfer read. -/
theorem payload_send_own (c : Dev nD) (k : Fin 3) (d : Fin 3) : (sched (F := F) m).payload (sendCell c k) 0 d
      = ((rowM c).view.loc (c : Thread nD τ) ↦[(rowM c).view.set]{shareOf k} gath m) := by
  rw [payload_send]; rfl

attribute [local sl_rounds] duties_bar amount_bar expect_bar payload_bar_0 payload_bar_1 payload_bar_2
  duties_send duties_recv amount_send amount_recv expect_send expect_recv payload_recv_own0 payload_recv_own1 payload_recv_own2 payload_send_own
attribute [local sl_canon] dev4_eq dev5_eq dev6_eq slice_off2 slice_off3

/-- What the three peers' signals hand over: row `c` of each peer's buffer, at whatever it holds. -/
theorem bar_rest (c : Dev nD) : (bigSep Finset.univ fun d : Fin 3 => (sched (F := F) m).payload (barCell c) 0 d)
    = iprop((∃ f, rowPts (plus c 2) c fullShare f) ∗ (∃ f, rowPts (plus c 1) c fullShare f) ∗ ∃ f, rowPts (plus c 0) c fullShare f) := by
  rw [bigSep_fin3, payload_bar_0, payload_bar_1, payload_bar_2]; rfl

/-! ## The device's own row through the offsets the kernel computes -/

omit [FloatOps F] in
/-- The elements an access at computed offsets touches are the row's those offsets name. -/
theorem access_set_of_off (off : Fin 2 → Nat) (hin : ∀ a, off a + S1x1024.size a ≤ S4x1024.size a) (r : Dev nD) (e : off = ![r.val, 0]) :
    (commM.access (Rect.unit (s := S4x1024) off S1x1024.size hin)).set = (rowM r).view.set := by
  subst e; rfl

/-- The device's own row, written through the access at its computed offsets with the fold of the accumulator after the
    last block, holds the gathered array's row. -/
theorem access_write_own (c : Dev nD) (off : Fin 2 → Nat) (hin : ∀ a, off a + S1x1024.size a ≤ S4x1024.size a) (e : off = ![c.val, 0])
    (f : Buf (Elt F) ((commM.access (Rect.unit (s := S4x1024) off S1x1024.size hin)).loc (c : Thread nD τ))) (w : Vec F S1x1024 .f32)
    (hw : w = k0_pay5 (accAt m c 3)) (j : S4x1024.Idx) (hj : (j 0).val = c.val) :
    (commM.access (Rect.unit (s := S4x1024) off S1x1024.size hin)).write (Elt F) f (k0_pay6 w) Finset.univ j = gath m j := by
  subst e; exact own_row_written m c f w hw j hj

/-! ## One transfer -/

/-- Transfer `k`: the device's share `k` of its own row goes to row `c` of the peer `k + 1` ahead. The send cell's duty
    is paid with the share (it comes back with that cell's credit), the peer's receive cell's duty with the row
    rewritten, which on row `c` is the gathered array; the row's credit is no longer owed. Stated over the offsets and
    the device word the kernel computes, with their closed forms as hypotheses. -/
theorem wp_send_row (c : Dev nD) (k : Fin 3) (dv : Nat) (hdv : dv < nD) (edv : (⟨dv, hdv⟩ : Dev nD) = plus c k)
    (off : Fin 2 → Nat) (hin : ∀ a, off a + S1x1024.size a ≤ S4x1024.size a) (eoff : off = ![c.val, 0])
    (κ₁ κ₂ : ℕ) (fd : Buf (Elt F) ((rowM c).view.loc (plus c k : Thread nD τ))) (O₀ O : CellTallies nD τ sig Unit)
    (hO : O₀ = O + tallyAt (recvCell (plus c k) k) () N) (W : Waits sig Unit)
    {α : Type} {hsc} {hsrc} {hdst} {hsem} {kont : PUnit → Prog (TpuEff nD τ sig (Elt F) Λ₀ .tc) α} {Q : α → sProp 𝕄} :
    iprop(cellInv ER (sched m) κ₁ (sendCell c k) ∗ cellInv ER (sched m) κ₂ (recvCell (plus c k) k)
        ∗ rowPts c c (shareOf k) (gath m) ∗ rowPts (plus c k) c fullShare fd
        ∗ owes (c : Thread nD τ) O₀ W
        ∗ dutyTok ER (sendCell c k) 0 0 ∗ reached ER (sendCell c k) 0
        ∗ dutyTok ER (recvCell (plus c k) k) 0 0 ∗ reached ER (recvCell (plus c k) k) 0)
      ⊢ iprop(((cred (tallyAt (sendCell c k) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
            (.op (.enqueueDma (commM.slice (Rect.unit (s := S4x1024) off S1x1024.size hin) (fun _ => rfl))
              (.remote (Dev.tc (⟨dv, hdv⟩ : Dev nD)) (commM.slice (Rect.unit (s := S4x1024) off S1x1024.size hin) (fun _ => rfl)) (.dma (sendS k)) hsc)
              (.dma (recvS k)) hsrc hdst hsem) kont) Q) := by
  subst eoff
  obtain rfl : dv = (plus c k).val := congrArg Fin.val edv
  exact wp_send_pointsTo 𝒱₀ ER (sched m) (c : Thread nD τ) none (c' := (plus c k : Thread nD τ)) (src := rowM c) (dst := rowM c)
    (q := shareOf k) (fs := gath m) (fd := fd) (r₁ := 0) (r₂ := 0) (d₁ := 0) (d₂ := 0)
    (by rw [duties_send]; exact Finset.mem_singleton_self _) (by rw [duties_recv]; exact Finset.mem_singleton_self _)
    () () N (row_amount c (recvS k)) (amount_send m c k 0) (amount_recv m (plus c k) k 0) O hO
    (Entails.of_eq (by rw [payload_send]; rfl))
    (Entails.of_eq (by
      rw [payload_recv]; unfold recvPay; rw [minus_plus]; unfold rowPts
      exact pointsTo_congr fun i hi => landed_row m (plus c k) c fd i ((mem_row c i).mp hi)))

/-! ## Small facts about programs and whole buffers -/

omit [FloatOps F] in
/-- A return bound into a continuation is the continuation at the returned value. -/
theorem ret_bind_eq {E : Type → Type} {α β : Type} (a : α) (k : α → Prog E β) : (Prog.ret a).bind k = k a := rfl

omit [FloatOps F] in
/-- The gathered-array buffer whole, as held through its memref's view. -/
theorem comm_whole (c : Dev nD) (f : Buf (Elt F) ((c : Thread nD τ).loc cc0_scratch1)) :
    ((((c : Thread nD τ).loc cc0_scratch1) ↦{fullShare} f : sProp 𝕄)) = (commM.view.loc (c : Thread nD τ) ↦[commM.view.set]{fullShare} f) := by
  rw [View.set_whole]

omit [FloatOps F] in
/-- A load of the whole gathered-array buffer reads its contents. -/
theorem comm_read (c : Dev nD) (f : Buf (Elt F) ((c : Thread nD τ).loc cc0_scratch1)) (inb : ∀ a, (![0, 0] : Fin 2 → Nat) a + S4x1024.size a ≤ S4x1024.size a) :
    (commM : Memref sig .tc .vmem S4x1024 .f32).view.readAt (Elt F) (Rect.unit (s := S4x1024) ![0, 0] S4x1024.size inb).toLoadRect f = f := by
  rw [View.readAt_eq_ld, View.ld_unit_zero hz2]; rfl

/-- The last store through the whole-shape rectangle leaves its payload, whatever was stored before. -/
theorem read_writes_last_whole {sp : Space} {S : Shape} {e : EltTy} (v : View sig .tc sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon v f _ (fun y => ⟨_, List.mem_cons_self, View.mem_set_unit_zero hz inb y⟩), View.canon_cons_unit_zero hz]

/-! ## The last point -/

set_option maxHeartbeats 4000000 in
/-- The last point of the body on device `c`, from what the points before left: the cells' invariants and the device's
    positions, transfer tokens and credit; the three rows' credits still owed; the block, the result's staging buffer at
    anything, the accumulator at the running maximum `a` of the earlier blocks, and the device's own row of the
    gathered-array buffer. It ends with the result row staged, the gathered array whole, the six transfer cells closed at
    zero and nothing owed. -/
theorem run_last (c : Dev nD) (i : grid0.Coords) (arg1 : Memref sig .tc .vmem S1024x1024 .f32) (harg1 : arg1.IsWhole)
    (arg2 : Memref sig .tc .vmem S1x1024 .f32) (harg2 : arg2.IsWhole)
    (hc1 : ¬ k0_cond1 i = 1#1) (hc2 : cond2 i = 1#1) (hc3 : k0_cond3 i = 1#1)
    (K : Dev nD × Fin 7 → ℕ) (x0 : Vec F S1024x1024 .f32) (a : Vec F S8x1024 .f32) (ha : k0_pay3 x0 a = accAt m c 3)
    (f : Buf (Elt F) ((rowM c).view.loc (c : Thread nD τ))) (W : Waits sig Unit) (Kt : PUnit → sProp 𝕄) :
    iprop(records m K ∗ ownPos c ∗ xferToks c ∗ creds c ∗ levAts L lv
        ∗ owes (c : Thread nD τ) (O3 c) W
        ∗ owns (c : Thread nD τ) arg1 fullShare x0 ∗ (∃ d, owns (c : Thread nD τ) arg2 fullShare d)
        ∗ owns (c : Thread nD τ) accM fullShare a ∗ rowPts c c fullShare f
        ∗ (iprop(owns (c : Thread nD τ) arg1 fullShare x0 ∗ owns (c : Thread nD τ) arg2 fullShare (res m)
              ∗ owns (c : Thread nD τ) accM fullShare (accAt m c 3) ∗ commPts c (gath m)
              ∗ (bigSep Finset.univ fun k : Fin 3 => semVal (sendCell c k) 0) ∗ (bigSep Finset.univ fun k : Fin 3 => semVal (recvCell c k) 0)
              ∗ ∃ W', owes (c : Thread nD τ) 0 W') -∗ Kt ⟨⟩))
      ⊢ wp frame (wpE (defs₀ (F := F)) 𝒱₀ c none) Set.univ
          (cc0_body i arg1 harg1 arg2 harg2 accM (Memref.isWhole_whole _) commM (Memref.isWhole_whole _) cc0_scratch2 cc0_scratch3) Kt := by
  simp only [cc0_body_eq_skeleton]; unfold cc0_body_skel
  unfold owns rowPts O3 records xferToks creds
  rw [ownPos_eq, bigSep_fin3, bigSep_fin3, bigSep_fin3]
  iintro ⟨⟨#HI, #HR⟩, ⟨HaB, HaS0, HaS1, HaS2, HaR0, HaR1, HaR2⟩, ⟨⟨HtR0, HtR1, HtR2⟩, HtS0, HtS1, HtS2⟩, ⟨HcB, HcR0, HcR1, HcR2⟩, #Hlev, HO, ⟨%g0, %hg0, H0⟩, ⟨%d, %g2, %hg2, H2⟩, ⟨%g1, %hg1, Hacc⟩, Hrow, Hk⟩
  obtain rfl := harg1.eq_unread hg0
  obtain rfl := harg2.eq_unread hg2
  obtain rfl := (Memref.isWhole_whole (cc0_scratch0 : Ref sig .tc)).eq_unread hg1
  ihave HIB := (inv_bar m K c) $$ HI
  icases HIB with #HIB
  -- the barrier wait's level evidence: the device owes the three rows' credits, on receive cells, above its barrier cell
  have hmw := mayWait_bar (F := F) c
  unfold O3 at hmw
  -- the access to the device's own row of the gathered-array buffer touches that row's elements only
  have hS : (commM.access (Rect.unit (s := S4x1024) (k0_off1 c) S1x1024.size (k0_off1_inb i c hc3))).set = (rowM c).view.set :=
    access_set_of_off _ _ c (k0_off1_eq c)
  have hSub := hS.subset
  have hSubU : (commM.access (Rect.unit (s := S4x1024) (k0_off1 c) S1x1024.size (k0_off1_inb i c hc3))).setOn Finset.univ ⊆ (rowM c).view.set := hSub
  -- the block is joined into the accumulator, its eight rows folded into the staged row; the device waits for its
  -- three peers' signals and comes back with row `c` of each peer's buffer; it loads its own row (a dead value) and
  -- stores the staged row there, holding that row only
  sl_exec (disch := first | exact hc1 | exact hc2 | exact hc3)
  -- what was stored is the fold of the accumulator after the last block: on row `c` the buffer holds the gathered array
  have hv21 : run_last.sl.v21 c arg1 harg1 arg2 x0 a = k0_pay5 (accAt m c 3) := by
    unfold run_last.sl.v21 run_last.sl.H2_1
    rw [View.readCov_unit_zero arg2.view hz2]
    unfold run_last.sl.v17 run_last.sl.Hacc_1
    rw [View.readCov_unit_zero accM.view hz2, readAt_unread harg1 hz2, readAt_unread (S := S8x1024) (mm := accM) (Memref.isWhole_whole _) hz2, ha]
  have hrow : ((rowM c).view.loc (c : Thread nD τ) ↦[(rowM c).view.set]{fullShare} run_last.sl.Hrow_w1 c i arg1 harg1 arg2 hc3 x0 a f : sProp 𝕄)
      = rowPts c c fullShare (gath m) := by
    unfold rowPts
    refine pointsTo_congr fun j hj => ?_
    unfold run_last.sl.Hrow_w1
    exact access_write_own m c _ _ (k0_off1_eq c) _ _ hv21 j ((mem_row c j).mp hj)
  ihave Hrow := (Entails.of_eq hrow) $$ Hrow
  -- the row is read by three concurrent transfers: a share each
  ihave Hs := (row_shares c c (gath m)) $$ Hrow
  icases Hs with ⟨Hs0, Hs1, Hs2⟩
  -- the three rows the peers' signals handed over
  ihave HB := (Entails.of_eq (bar_rest m c)) $$ HaB_pay1
  icases HB with ⟨⟨%fd2, Hd2⟩, ⟨%fd1, Hd1⟩, ⟨%fd0, Hd0⟩⟩
  -- transfer 0, to the device one ahead
  ihave HIS0 := (inv_send m K c 0) $$ HI
  icases HIS0 with #HIS0
  ihave HIR0 := (inv_recv m K (plus c 0) 0) $$ HI
  icases HIR0 with #HIR0
  ihave HrS0 := (reached_send (F := F) c 0) $$ HR
  icases HrS0 with #HrS0
  ihave HrR0 := (reached_recv (F := F) (plus c 0) 0) $$ HR
  icases HrR0 with #HrR0
  iapply (wp_send_row m c 0 _ _ (dev4_eq i c hc3) ![c.val, 0] (row_inb c) rfl _ _ fd0 _ _ rfl _) $$ [Hs0 Hd0 HO HtS0 HtR0]
  · isplitr; · iexact HIS0
    isplitr; · iexact HIR0
    isplitl [Hs0]; · iexact Hs0
    isplitl [Hd0]; · iexact Hd0
    isplitl [HO]; · iexact HO
    isplitl [HtS0]; · iexact HtS0
    isplitr; · iexact HrS0
    isplitl [HtR0]; · iexact HtR0
    iexact HrR0
  iintro ⟨HcS0, HO⟩
  simp only [ret_bind_eq, Prog.pure_eq_ret]
  rw [wp_ret]; imodintro
  sl_exec (disch := first | exact hc1 | exact hc2 | exact hc3)
  -- transfer 1, to the device two ahead
  ihave HIS1 := (inv_send m K c 1) $$ HI
  icases HIS1 with #HIS1
  ihave HIR1 := (inv_recv m K (plus c 1) 1) $$ HI
  icases HIR1 with #HIR1
  ihave HrS1 := (reached_send (F := F) c 1) $$ HR
  icases HrS1 with #HrS1
  ihave HrR1 := (reached_recv (F := F) (plus c 1) 1) $$ HR
  icases HrR1 with #HrR1
  iapply (wp_send_row m c 1 _ _ (dev5_eq i c hc3) ![c.val, 0] (row_inb c) rfl _ _ fd1 _ _ rfl _) $$ [Hs1 Hd1 HO HtS1 HtR1]
  · isplitr; · iexact HIS1
    isplitr; · iexact HIR1
    isplitl [Hs1]; · iexact Hs1
    isplitl [Hd1]; · iexact Hd1
    isplitl [HO]; · iexact HO
    isplitl [HtS1]; · iexact HtS1
    isplitr; · iexact HrS1
    isplitl [HtR1]; · iexact HtR1
    iexact HrR1
  iintro ⟨HcS1, HO⟩
  -- transfer 2, to the device three ahead: the last credit owed
  ihave HIS2 := (inv_send m K c 2) $$ HI
  icases HIS2 with #HIS2
  ihave HIR2 := (inv_recv m K (plus c 2) 2) $$ HI
  icases HIR2 with #HIR2
  ihave HrS2 := (reached_send (F := F) c 2) $$ HR
  icases HrS2 with #HrS2
  ihave HrR2 := (reached_recv (F := F) (plus c 2) 2) $$ HR
  icases HrR2 with #HrR2
  iapply (wp_send_row m c 2 _ _ (dev6_eq i c hc3) _ _ (k0_off2_eq c) _ _ fd2 _ 0 (zero_add _).symm _) $$ [Hs2 Hd2 HO HtS2 HtR2]
  · isplitr; · iexact HIS2
    isplitr; · iexact HIR2
    isplitl [Hs2]; · iexact Hs2
    isplitl [Hd2]; · iexact Hd2
    isplitl [HO]; · iexact HO
    isplitl [HtS2]; · iexact HtS2
    isplitr; · iexact HrS2
    isplitl [HtR2]; · iexact HtR2
    iexact HrR2
  iintro ⟨HcS2, HO⟩
  -- the six waits, owing nothing: the three peers' rows land, the three shares of the own row come back
  ihave HIW0 := (inv_recv m K c 0) $$ HI
  icases HIW0 with #HIW0
  ihave HIW1 := (inv_recv m K c 1) $$ HI
  icases HIW1 with #HIW1
  ihave HIW2 := (inv_recv m K c 2) $$ HI
  icases HIW2 with #HIW2
  simp only [ret_bind_eq]
  sl_exec (disch := first | exact hc1 | exact hc2 | exact hc3)
  -- the own row whole again, and with the three landed rows the whole buffer, at the gathered array
  ihave Hown := (row_unshare c c (gath m)) $$ [HaS0_pay1 HaS1_pay1 HaS2_pay1]
  · unfold rowPts
    isplitl [HaS0_pay1]; · iexact HaS0_pay1
    isplitl [HaS1_pay1]; · iexact HaS1_pay1
    iexact HaS2_pay1
  ihave Hcomm := (comm_join c fullShare (gath m)) $$ [Hown HaR2_pay1 HaR1_pay1 HaR0_pay1]
  · unfold rowPts
    isplitl [Hown]; · iexact Hown
    isplitl [HaR2_pay1]; · iexact HaR2_pay1
    isplitl [HaR1_pay1]; · iexact HaR1_pay1
    iexact HaR0_pay1
  ihave Hcomm := (Entails.of_eq (comm_whole c (gath m))) $$ Hcomm
  -- the six transfer cells have no later round: closed, their counters at zero
  imod (cell_close ER (sched m) (Set.mem_univ _) (fun h => h) (duties_later m _)) $$ [HaS0] with HzS0
  · isplitr; · iexact HIS0
    iexact HaS0
  imod (cell_close ER (sched m) (Set.mem_univ _) (fun h => h) (duties_later m _)) $$ [HaS1] with HzS1
  · isplitr; · iexact HIS1
    iexact HaS1
  imod (cell_close ER (sched m) (Set.mem_univ _) (fun h => h) (duties_later m _)) $$ [HaS2] with HzS2
  · isplitr; · iexact HIS2
    iexact HaS2
  imod (cell_close ER (sched m) (Set.mem_univ _) (fun h => h) (duties_later m _)) $$ [HaR0] with HzR0
  · isplitr; · iexact HIW0
    iexact HaR0
  imod (cell_close ER (sched m) (Set.mem_univ _) (fun h => h) (duties_later m _)) $$ [HaR1] with HzR1
  · isplitr; · iexact HIW1
    iexact HaR1
  imod (cell_close ER (sched m) (Set.mem_univ _) (fun h => h) (duties_later m _)) $$ [HaR2] with HzR2
  · isplitr; · iexact HIW2
    iexact HaR2
  -- the gathered array's four rows folded into the staged result row
  sl_exec (disch := first | exact hc1 | exact hc2 | exact hc3)
  sl_step
  iapply Hk
  isplitl [H0]
  · iexists _; isplitr; · ipureintro; exact harg1.read_unread _
    iexact H0
  isplitl [H2]
  · iexists _; isplitr
    swap
    · iexact H2
    · ipureintro
      rw [read_writes_last_whole arg2.view _ hz2, comm_read c]; rfl
  isplitl [Hacc]
  · iexists _; isplitr
    swap
    · iexact Hacc
    · ipureintro
      unfold run_last.sl.Hacc_1
      rw [read_writes_whole accM.view _ hz2, readAt_unread harg1 hz2, readAt_unread (S := S8x1024) (mm := accM) (Memref.isWhole_whole _) hz2]
      exact ha
  isplitl [Hcomm]
  · unfold commPts; iapply (Entails.of_eq (comm_whole c (gath m)).symm); iexact Hcomm
  isplitl [HzS0 HzS1 HzS2]
  · rw [bigSep_fin3]
    isplitl [HzS0]; · iexact HzS0
    isplitl [HzS1]; · iexact HzS1
    iexact HzS2
  isplitl [HzR0 HzR1 HzR2]
  · rw [bigSep_fin3]
    isplitl [HzR0]; · iexact HzR0
    isplitl [HzR1]; · iexact HzR1
    iexact HzR2
  iexists _; iexact HO

/-- info: 'Cert.Kernel.Hand.run_last' depends on axioms: [propext, Classical.choice, Quot.sound] -/
#guard_msgs in #print axioms run_last

end Cert.Kernel.Hand

end
-- ==== Proof.Bits.Body.lean ====
/-
  The body obligation: one grid point of the kernel on one device, from the state the previous point left. The four
  points are three kinds — the first (reset and signal), the two in the middle (accumulate), the last (exchange and
  reduce) — and each is the corresponding run with the pipeline's proof data unfolded at that point.
-/
import proofs.«900920_g7700000000000921_dist_max_ax0_shard0_i_m4096_n1024_v7x_i4_bf16_1_alg».proof.Proof.Bits.Dats
import proofs.«900920_g7700000000000921_dist_max_ax0_shard0_i_m4096_n1024_v7x_i4_bf16_1_alg».proof.Proof.Bits.Reads
import proofs.«900920_g7700000000000921_dist_max_ax0_shard0_i_m4096_n1024_v7x_i4_bf16_1_alg».proof.Proof.Bits.Rows
import proofs.«900920_g7700000000000921_dist_max_ax0_shard0_i_m4096_n1024_v7x_i4_bf16_1_alg».proof.Proof.Bits.Launch
import proofs.«900920_g7700000000000921_dist_max_ax0_shard0_i_m4096_n1024_v7x_i4_bf16_1_alg».proof.Proof.Bits.BodyMid
import proofs.«900920_g7700000000000921_dist_max_ax0_shard0_i_m4096_n1024_v7x_i4_bf16_1_alg».proof.Proof.Bits.BodyFirst
import proofs.«900920_g7700000000000921_dist_max_ax0_shard0_i_m4096_n1024_v7x_i4_bf16_1_alg».proof.Proof.Bits.BodyLast

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Tactic

/-! ## The proof data at a point -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem acc_owns (c : Dev nD) (X : Vec F S8x1024 .f32) : accPts c X ⊢ (owns (c : Thread nD τ) accM fullShare X : sProp 𝕄) := by
  rw [owns_whole_eq]; unfold accPts
  iintro H; iexists X; isplitr; · ipureintro; rfl
  iexact H
omit [FloatOps F] in
theorem owns_acc (c : Dev nD) (X : Vec F S8x1024 .f32) : (owns (c : Thread nD τ) accM fullShare X : sProp 𝕄) ⊢ accPts c X := by
  rw [owns_whole_eq]; unfold accPts
  iintro ⟨%f, %hf, H⟩; subst hf; iexact H

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]; rfl
theorem after0_1 (c : Dev nD) (t : Fin cfg0.N) : (dats m 0 c).after 1 t = res m := by dsimp only [dats]
/-- The input's current staging buffer holds the block at every point. -/
theorem before0_0 (c : Dev nD) (t : Fin cfg0.N) (d) : (dats m 0 c).before 0 t d = blkAt m c t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf blkAt iblk; rw [A_eq]; try rfl)

theorem inv_at (K : Dev nD × Fin 7 → ℕ) (ck : Dev nD × Fin 7) :
    (bigSep Finset.univ fun ck : Dev nD × Fin 7 => (cellInv ER (sched m) (K ck) (kcell ck) : sProp 𝕄)) ⊢ cellInv ER (sched m) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-! ## The conditions, decided at the four points -/

theorem c1_t0 : k0_cond1 (grid0.coords t0_0) = 1#1 := by decide
theorem c2_t0 : ¬ cond2 (grid0.coords t0_0) = 1#1 := by decide
theorem c3_t0 : ¬ k0_cond3 (grid0.coords t0_0) = 1#1 := by decide
theorem c1_t1 : ¬ k0_cond1 (grid0.coords t0_1) = 1#1 := by decide
theorem c2_t1 : cond2 (grid0.coords t0_1) = 1#1 := by decide
theorem c3_t1 : ¬ k0_cond3 (grid0.coords t0_1) = 1#1 := by decide
theorem c1_t2 : ¬ k0_cond1 (grid0.coords t0_2) = 1#1 := by decide
theorem c2_t2 : cond2 (grid0.coords t0_2) = 1#1 := by decide
theorem c3_t2 : ¬ k0_cond3 (grid0.coords t0_2) = 1#1 := by decide
theorem c1_t3 : ¬ k0_cond1 (grid0.coords t0_3) = 1#1 := by decide
theorem c2_t3 : cond2 (grid0.coords t0_3) = 1#1 := by decide
theorem c3_t3 : k0_cond3 (grid0.coords t0_3) = 1#1 := by decide

/-- The result's window is idle at every point but the last, and written back at the last only. -/
theorem idle1_of (t : Fin cfg0.N) (h : ¬ k0_cond3 (grid0.coords t) = 1#1) : cfg0.idle 1 (cfg0.grid.coords t) = true := by
  show (!(k0_cond3 (grid0.coords t) == 1#1)) = true
  rw [Bool.not_eq_true', beq_eq_false_iff_ne]; exact h
theorem live1_of (t : Fin cfg0.N) (h : k0_cond3 (grid0.coords t) = 1#1) : cfg0.idle 1 (cfg0.grid.coords t) = false := by
  show (!(k0_cond3 (grid0.coords t) == 1#1)) = false
  rw [h]; rfl
theorem noflush_of (t : Fin cfg0.N) (h : t.val % 4 ≠ 3) : (cfg0.win 1).flush t = false := by
  cases hf : (cfg0.win 1).flush t
  · rfl
  · exact absurd ((flush0_1 t).mp hf) h

/-! ## The obligation, point by point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

theorem leaves0 (c : Dev nD) (t : Fin cfg0.N) :
    (dats m 0 c).leavesExact 0 t = owns (c : Thread nD τ) (st0_0 t) fullShare (blkAt m c t) := by
  unfold Dat.leavesExact
  rw [show cfg0.idle 0 (cfg0.grid.coords t) = false from rfl, after0_0]
  rfl

set_option maxHeartbeats 1000000 in
/-- The first point. -/
theorem ob_first (c : Dev nD) :
    bodyPre m c t0_0 ⊢ wp frame (wpE (defs₀ (F := F)) 𝒱₀ c none) Set.univ (bodyAt0 t0_0) (fun _ => bodyPost m c t0_0) := by
  unfold bodyPre bodyPost bodyAt0
  simp only [before0_0]
  rw [leaves0, Dat.leavesExact_idle (dats m 0 c) 1 t0_0 (idle1_of t0_0 c3_t0) (noflush_of t0_0 (by decide))]
  rw [show (dats m 0 c).Φ (t0_0 : Fin cfg0.N).castSucc = Φ0 m c from rfl, show (dats m 0 c).Φ (t0_0 : Fin cfg0.N).succ = Φmid m c 0 from rfl]
  unfold Dat.owesAt Pipeline.owesWithin
  rw [show (dats m 0 c).owed (t0_0 : Fin cfg0.N).castSucc = O0 c from rfl, show (dats m 0 c).owed (t0_0 : Fin cfg0.N).succ = O3 c from rfl]
  unfold Φ0 Φmid start mid records sigToks commPts
  rw [bigSep_fin3]
  iintro ⟨⟨⟨⟨%K, ⟨#HI, #HR⟩, Hpos, ⟨Ht0, Ht1, Ht2⟩, Hx⟩, Hcr, #Hlev⟩, ⟨%fa, Hacc⟩, ⟨%fc, Hcomm⟩⟩, ⟨%W, %hW, HO⟩, ⟨%d0, H0⟩, ⟨%d1, H1⟩⟩
  ihave Hrows := (comm_split c fullShare fc) $$ Hcomm
  icases Hrows with ⟨Hown, Hr0, Hr1, Hr2⟩
  ihave Hacc := (acc_owns c fa) $$ Hacc
  iapply (run_first m c (grid0.coords t0_0) _ _ _ _ c1_t0 c2_t0 c3_t0 (K (plus c 0, 0)) (K (plus c 1, 0)) (K (plus c 2, 0))
    (blkAt m c t0_0) fa fc fc fc W _)
  isplitr; · iapply (inv_at m K (plus c 0, 0)); iexact HI
  isplitr; · iapply (inv_at m K (plus c 1, 0)); iexact HI
  isplitr; · iapply (inv_at m K (plus c 2, 0)); iexact HI
  isplitr; · iapply (reached_at (F := F) (plus c 0, 0)); iexact HR
  isplitr; · iapply (reached_at (F := F) (plus c 1, 0)); iexact HR
  isplitr; · iapply (reached_at (F := F) (plus c 2, 0)); iexact HR
  isplitl [Ht0]; · iexact Ht0
  isplitl [Ht1]; · iexact Ht1
  isplitl [Ht2]; · iexact Ht2
  isplitl [Hr0]; · iexact Hr0
  isplitl [Hr1]; · iexact Hr1
  isplitl [Hr2]; · iexact Hr2
  isplitl [HO]; · iexact HO
  isplitl [H0]; · iexact H0
  isplitl [Hacc]; · iexact Hacc
  iintro ⟨H0, Hacc, HO⟩
  ihave Hacc := (owns_acc c _) $$ Hacc
  isplitl [Hpos Hx Hcr Hacc Hown]
  · isplitl [Hpos Hx Hcr]
    · isplitl [Hpos Hx]
      · iexists K
        isplitr
        · isplitr; · iexact HI
          iexact HR
        isplitl [Hpos]; · iexact Hpos
        iexact Hx
      isplitl [Hcr]; · iexact Hcr
      iexact Hlev
    isplitl [Hacc]; · iexact Hacc
    iexists fc; iexact Hown
  isplitl [HO]
  · iexists W; isplitr; · ipureintro; exact fun _ _ => Or.inl trivial
    iexact HO
  isplitl [H0]; · iexact H0
  iexists d1; iexact H1

set_option maxHeartbeats 1000000 in
/-- A middle point: `n` is the number of the point before it. -/
theorem ob_mid (c : Dev nD) (t : Fin cfg0.N) (n : Nat)
    (hΦ : (dats m 0 c).Φ t.castSucc = Φmid m c n) (hΦ' : (dats m 0 c).Φ t.succ = Φmid m c (n + 1))
    (ho : (dats m 0 c).owed t.castSucc = O3 c) (ho' : (dats m 0 c).owed t.succ = O3 c)
    (hc1 : ¬ k0_cond1 (grid0.coords t) = 1#1) (hc2 : cond2 (grid0.coords t) = 1#1) (hc3 : ¬ k0_cond3 (grid0.coords t) = 1#1)
    (hnf : t.val % 4 ≠ 3) (hacc : k0_pay3 (blkAt m c t) (accAt m c n) = accAt m c (n + 1)) :
    bodyPre m c t ⊢ wp frame (wpE (defs₀ (F := F)) 𝒱₀ c none) Set.univ (bodyAt0 t) (fun _ => bodyPost m c t) := by
  unfold bodyPre bodyPost bodyAt0
  simp only [before0_0]
  rw [leaves0, Dat.leavesExact_idle (dats m 0 c) 1 t (idle1_of t hc3) (noflush_of t hnf), hΦ, hΦ']
  unfold Dat.owesAt Pipeline.owesWithin
  rw [ho, ho']
  unfold Φmid
  iintro ⟨⟨Hmid, Hacc, Hown⟩, HO, ⟨%d0, H0⟩, ⟨%d1, H1⟩⟩
  ihave Hacc := (acc_owns c _) $$ Hacc
  iapply (run_mid c (grid0.coords t) _ _ _ _ hc1 hc2 hc3 (blkAt m c t) (accAt m c n) Set.univ _)
  isplitl [H0]; · iexact H0
  isplitl [Hacc]; · iexact Hacc
  iintro ⟨H0, Hacc⟩
  rw [hacc]
  ihave Hacc := (owns_acc c _) $$ Hacc
  isplitl [Hmid Hacc Hown]
  · isplitl [Hmid]; · iexact Hmid
    isplitl [Hacc]; · iexact Hacc
    iexact Hown
  isplitl [HO]; · iexact HO
  isplitl [H0]; · iexact H0
  iexists d1; iexact H1

set_option maxHeartbeats 1000000 in
/-- The last point. -/
theorem ob_last (c : Dev nD) :
    bodyPre m c t0_3 ⊢ wp frame (wpE (defs₀ (F := F)) 𝒱₀ c none) Set.univ (bodyAt0 t0_3) (fun _ => bodyPost m c t0_3) := by
  unfold bodyPre bodyPost bodyAt0
  simp only [before0_0]
  rw [leaves0, show (dats m 0 c).leavesExact 1 t0_3 = owns (c : Thread nD τ) (st0_1 t0_3) fullShare (res m) from by
    unfold Dat.leavesExact; rw [live1_of t0_3 c3_t3, after0_1]]
  rw [show (dats m 0 c).Φ (t0_3 : Fin cfg0.N).castSucc = Φmid m c 2 from rfl, show (dats m 0 c).Φ (t0_3 : Fin cfg0.N).succ = Φ4 m c from rfl]
  unfold Dat.owesAt Pipeline.owesWithin
  rw [show (dats m 0 c).owed (t0_3 : Fin cfg0.N).castSucc = O3 c from rfl, show (dats m 0 c).owed (t0_3 : Fin cfg0.N).succ = 0 from rfl]
  unfold Φmid Φ4 mid
  iintro ⟨⟨⟨⟨%K, Hrec, Hpos, Hx⟩, Hcr, Hlev⟩, Hacc, ⟨%fo, Hown⟩⟩, ⟨%W, %hW, HO⟩, ⟨%d0, H0⟩, ⟨%d1, H1⟩⟩
  ihave Hacc := (acc_owns c _) $$ Hacc
  iapply (run_last m c (grid0.coords t0_3) _ _ _ _ c1_t3 c2_t3 c3_t3 K (blkAt m c t0_3) (accAt m c 2) rfl fo W _)
  isplitl [Hrec]; · iexact Hrec
  isplitl [Hpos]; · iexact Hpos
  isplitl [Hx]; · iexact Hx
  isplitl [Hcr]; · iexact Hcr
  isplitl [Hlev]; · iexact Hlev
  isplitl [HO]; · iexact HO
  isplitl [H0]; · iexact H0
  isplitl [H1]; · iexists _; iexact H1
  isplitl [Hacc]; · iexact Hacc
  isplitl [Hown]; · iexact Hown
  iintro ⟨H0, H1, Hacc, Hcomm, Hs, Hr, ⟨%W', HO⟩⟩
  ihave Hacc := (owns_acc c _) $$ Hacc
  isplitl [Hacc Hcomm Hs Hr]
  · isplitl [Hacc]; · iexact Hacc
    isplitl [Hcomm]; · iexact Hcomm
    isplitl [Hs]; · iexact Hs
    iexact Hr
  isplitl [HO]
  · iexists W'; isplitr; · ipureintro; exact fun _ _ => Or.inl trivial
    iexact HO
  isplitl [H0]; · iexact H0
  iexact H1

/-- The body at any point. -/
theorem sound_body (c : Dev nD) (t : Fin cfg0.N) :
    bodyPre m c t ⊢ wp frame (wpE (defs₀ (F := F)) 𝒱₀ c none) Set.univ (bodyAt0 t) (fun _ => bodyPost m c t) := by
  rcases fin_N0 t with rfl | rfl | rfl | rfl
  · exact ob_first m c
  · exact ob_mid m c t0_1 0 rfl rfl rfl rfl c1_t1 c2_t1 c3_t1 (by decide) rfl
  · exact ob_mid m c t0_2 1 rfl rfl rfl rfl c1_t2 c2_t2 c3_t2 (by decide) rfl
  · exact ob_last m c

/-- The library's body obligation on device `c`. -/
theorem body_obligation (c : Dev nD) : BodyObligation (dats (F := F) m 0 c) (defs₀ (F := F)) 𝒱₀ () Set.univ := fun t => by
  rw [bigSep_W0, bigSep_W0]
  exact sound_body m c t

end Cert.Kernel.Hand

end
-- ==== Proof.Bits.Final.lean ====
/-
  What the run leaves in the result array, and a device's blocks as rows of the whole array.
-/
import proofs.«900920_g7700000000000921_dist_max_ax0_shard0_i_m4096_n1024_v7x_i4_bf16_1_alg».proof.Proof.Bits.Dats
import Idealize.ShloMosaic.Lib.Pipeline.Value
import Idealize.ShloMosaic.Lib.Layout

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.ValueIdx

/-- The result array after the run: the one block the last point writes back, the result row. -/
theorem arrAt_out (c : Dev nD) : (dats m 0 c).arrAt (1 : Fin 2) cfg0.N = res m := by
  -- the last point is the only one that writes the result back, and what it writes covers the whole array
  have h := (dats (F := F) m 0 c).arrAt_succ (1 : Fin 2) (⟨3, by decide⟩ : Fin cfg0.N)
  rw [if_pos ((flush0_1 _).2 rfl)] at h
  refine h.trans ?_
  -- what it writes back is the result row
  have hfl : (dats (F := F) m 0 c).flushed (1 : Fin 2) (⟨3, by decide⟩ : Fin cfg0.N) = res m := by
    have hafter : (dats (F := F) m 0 c).after (1 : Fin 2) (⟨3, by decide⟩ : Fin cfg0.N) = res m := by
      dsimp only [dats]
    show (cfg0.win 1).cut (cfg0.grid.coords ⟨3, by decide⟩) ((dats (F := F) m 0 c).after (1 : Fin 2) ⟨3, by decide⟩) = res m
    rw [hafter]
    rfl
  rw [hfl]
  -- the window's one block sits at offset zero on both axes
  have hoff : (fun a : Fin 2 => win0_1.index (⟨3, by decide⟩ : Fin grid0.N) a * S1x1024.size a) = fun _ => 0 := by
    funext a
    have hi : ∀ t : Fin grid0.N, win0_1.index t (0 : Fin 2) = 0 ∧ win0_1.index t (1 : Fin 2) = 0 := by decide +kernel
    match a with
    | ⟨0, _⟩ => exact (congrArg (· * S1x1024.size 0) (hi _).1).trans (Nat.zero_mul _)
    | ⟨1, _⟩ => exact (congrArg (· * S1x1024.size 1) (hi _).2).trans (Nat.zero_mul _)
  exact Memref.write_access_unit_zero_univ (Elt F) main_v1 hoff _ _ _

/-- The argument array after the run is as launched. -/
theorem arrAt_in (c : Dev nD) : (dats m 0 c).arrAt (0 : Fin 2) cfg0.N = m ((c : Thread nD τ).loc main_arg0) :=
  (dats (F := F) m 0 c).arrAt_in (0 : Fin 2) rfl _

/-- When a device's argument buffer is its block of the whole array `X` (4096 rows from row `4096 c`), its block at
    point `t` is the 1024 rows from row `4096 c + 1024 t`. -/
theorem blks_of_block (X : (⟨2, ![16384, 1024]⟩ : Shape).Idx → Elt F .f32) (c : Dev nD)
    (hX : m ((c : Thread nD τ).loc main_arg0) = Layout.block ⟨2, ![4096, 1024]⟩ ⟨2, ![16384, 1024]⟩ 0 4 c X)
    (t : Fin 4) (p q : Fin 1024) :
    blks m c t (ix2 p q) = X (ix2 (⟨4096 * c.val + 1024 * t.val + p.val, by have h : c.val < 4 := c.isLt; omega⟩ : Fin 16384) q) := by
  -- the block at point `t` is block `(t, 0)` of the device's 4096 × 1024 buffer
  have hidx : ∀ t : Fin grid0.N, win0_0.index t (0 : Fin 2) = t.val ∧ win0_0.index t (1 : Fin 2) = 0 := by decide +kernel
  show ((cfg0.win 0).blk (⟨t.val, t.isLt⟩ : Fin cfg0.N)).view.read (Elt F) (V m c (Pipeline.arrRef spec0 0)) (ix2 p q) = _
  rw [View.read_apply, show V m c (Pipeline.arrRef spec0 0) = _ from hX]
  show X _ = X _
  refine congrArg X (funext fun a => Fin.ext ?_)
  match a with
  | ⟨0, _⟩ =>
    -- row: 4096 c for the device, 1024 t for the block, p inside the block
    show c.val * 4096 + (win0_0.index (⟨t.val, t.isLt⟩ : Fin grid0.N) (0 : Fin 2) * 1024 + 1 * p.val) = 4096 * c.val + 1024 * t.val + p.val
    rw [(hidx _).1]
    show c.val * 4096 + (t.val * 1024 + 1 * p.val) = _
    omega
  | ⟨1, _⟩ =>
    -- column: unchanged
    show win0_0.index (⟨t.val, t.isLt⟩ : Fin grid0.N) (1 : Fin 2) * 1024 + 1 * q.val = q.val
    rw [(hidx _).2]
    omega

end Cert.Kernel.Hand

end
-- ==== Proof.Bits.Run.lean ====
/-
  The run of the whole program on the mesh: every device's result array ends at the result row, the same on every
  device, and its argument array unchanged.
-/
import proofs.«900920_g7700000000000921_dist_max_ax0_shard0_i_m4096_n1024_v7x_i4_bf16_1_alg».proof.Proof.Bits.Body
import proofs.«900920_g7700000000000921_dist_max_ax0_shard0_i_m4096_n1024_v7x_i4_bf16_1_alg».proof.Proof.Bits.Launch
import proofs.«900920_g7700000000000921_dist_max_ax0_shard0_i_m4096_n1024_v7x_i4_bf16_1_alg».proof.Proof.Bits.Final

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Every device's result array holds the result row and its argument array what it held. -/
def QC : PUnit × MemSt nD τ sig (Elt F) → Prop := fun r =>
  ∀ c : Dev nD, r.2.mem ((c.tc : Thread nD τ).loc main_v1) = res m
    ∧ r.2.mem ((c.tc : Thread nD τ).loc main_arg0) = m ((c.tc : Thread nD τ).loc main_arg0)

/-- At the compiled mesh of four devices, for any float values, from any memory with zero counters: every weakly fair
    execution of @main terminates, and every final state has each device's result array at the result row and its
    argument array unchanged. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O0) (howed₀ := fun _ => rfl) (howedN := fun _ => rfl)
    (L := L) (lv := lv) (hL := L_of_ne) (hwaits := waits m)
    (G := G m) (G' := G' m) (u₀ := u₀)
    (hu₀ := hu0 m)
    (hglob := glob m)
    (hA := fun _ _ => rfl) (hpf := fun _ k => k.elim0)
    (X := start m) (Y := fun _ => iprop(emp)) (Z := fun _ => iprop(emp))
    (hX := start_intro m ρ) (hin := phi0_intro m) (hout := phi4_exit m)
    (QY := fun _ _ => True)
    (hY := fun c s' => by
      iintro ⟨-, -, HSI⟩
      imodintro
      isplitr; · ipureintro; trivial
      iexact HSI)
    (hQ := fun s h c => ⟨((h c).1 (1 : Fin 2)).trans (arrAt_out m c), ((h c).1 (0 : Fin 2)).trans (arrAt_in m c)⟩)

end Cert.Kernel.Hand

end
-- ==== Proof.Value.lean ====
/-
  The value, over the extended reals: the result row every device ends with is the columnwise maximum of the
  whole 16384 × 1024 array.
-/
import proofs.«900920_g7700000000000921_dist_max_ax0_shard0_i_m4096_n1024_v7x_i4_bf16_1_alg».proof.Proof.Spec
import proofs.«900920_g7700000000000921_dist_max_ax0_shard0_i_m4096_n1024_v7x_i4_bf16_1_alg».proof.Proof.Gen.ReferenceIdeal.Read
import Idealize.ShloMosaic.PureOps.Ideal.Laws
import Idealize.ShloMosaic.Lib.ValueLayout

noncomputable section

namespace Cert.Proof.Value

open Idealize.ShloMosaic Idealize.ShloMosaic.ValueIdx

section Kernel

open Cert.KernelIdeal Cert.KernelIdeal.Gen Cert.KernelIdeal.Hand

/-- The pattern 0xFF800000 reads as −∞, the least extended real. -/
theorem ofBits_negInf : FloatOps.ofBits (F := Ideal) .f32 0xFF800000#32 = (⊥ : EReal) := by
  simp [Ideal.ofBits, Ideal.ieee]

/-- A maximum folded from −∞ over a finite family is below a bound exactly when every member is. -/
theorem fold_max_bot_le_iff {n : Nat} (f : Fin n → EReal) (y : EReal) :
    (Finset.univ : Finset (Fin n)).fold max ⊥ f ≤ y ↔ ∀ k, f k ≤ y := by
  rw [Finset.fold_max_le]; simp

/-- Over a column index `q`, the array index with row coordinate `k` inserted is `(k, q)`. -/
theorem lift_rows {n m : Nat} (h : (⟨2, ![n, m]⟩ : Shape).Reduces [0] ⟨1, ![m]⟩) (q : Fin m) (k : Fin n) :
    h.lift (ix1 q) k = ix2 k q := by
  funext c
  match c with
  | ⟨0, _⟩ => rfl
  | ⟨1, _⟩ => rfl

/-- The maximum over the rows of an `n × 1024` array, kept as one row: at column `q` the maximum from −∞ of
    the column's `n` entries. -/
theorem colMax_apply {n : Nat} (a : FVec Ideal ⟨2, ![n, 1024]⟩ .f32)
    (h : (⟨2, ![n, 1024]⟩ : Shape).Reduces [0] S1024) (hc : S1024.ShapeCasts S1x1024) (u : Fin 1) (q : Fin 1024) :
    shapeCast S1x1024 (multiReduction .maximumf [0] S1024 a 0xFF800000#32 h (.inl rfl) rfl) hc (ix2 u q)
      = (Finset.univ : Finset (Fin n)).fold max ⊥ (fun k => a (ix2 k q)) := by
  refine (shapeCast_a_1a_apply _ hc u q).trans ?_
  refine (Ideal.multiReduction_maximumf_single (φ := .f32) a 0xFF800000#32 h (.inl rfl) rfl (ix1 q)).trans ?_
  rw [ofBits_negInf]
  show (Finset.univ : Finset (Fin n)).fold max ⊥ _ = _
  refine congrArg (fun f : Fin n → EReal => (Finset.univ : Finset (Fin n)).fold max ⊥ f) (funext fun k => ?_)
  exact congrArg a (lift_rows h q k)

/-- A block's eight rows of maxima: row `s`, column `q` holds the maximum from −∞ of the block's entries in
    column `q` over the rows `8 i + s`. -/
theorem k0_pay1_apply (b : Vec Ideal S1024x1024 .f32) (s : Fin 8) (q : Fin 1024) :
    k0_pay1 (F := Ideal) b (ix2 s q)
      = (Finset.univ : Finset (Fin 128)).fold max ⊥ (fun i => b (ix2 (⟨8 * i.val + s.val, by omega⟩ : Fin 1024) q)) := by
  have e := Ideal.multiReduction_maximumf_single (φ := .f32)
    (shapeCast S128x8x1024 (shapeCast S1024x1024 b shapeCasts_S1024x1024_S1024x1024) shapeCasts_S1024x1024_S128x8x1024)
    0xFF800000#32 reduces_S128x8x1024_S8x1024 (.inl rfl) rfl (ix2 s q)
  refine Eq.trans e ?_
  rw [ofBits_negInf]
  show (Finset.univ : Finset (Fin 128)).fold max ⊥ _ = _
  refine congrArg (fun f : Fin 128 → EReal => (Finset.univ : Finset (Fin 128)).fold max ⊥ f) (funext fun i => ?_)
  show shapeCast S128x8x1024 (shapeCast S1024x1024 b shapeCasts_S1024x1024_S1024x1024) shapeCasts_S1024x1024_S128x8x1024 (ix3 i s q) = _
  rw [shapeCast_self]
  refine shapeCast_apply b _ _ _ ?_
  rw [Shape.rowMajor_val_three, Shape.rowMajor_val_two]
  show (8 * i.val + s.val) * 1024 + q.val = (i.val * 8 + s.val) * 1024 + q.val
  omega

/-- A block's row `s` of maxima is below a bound at column `q` exactly when the block's entries in the rows
    `8 i + s` of that column are. -/
theorem k0_pay1_le_iff (b : Vec Ideal S1024x1024 .f32) (s : Fin 8) (q : Fin 1024) (y : EReal) :
    k0_pay1 (F := Ideal) b (ix2 s q) ≤ y
      ↔ ∀ i : Fin 128, b (ix2 (⟨8 * i.val + s.val, by omega⟩ : Fin 1024) q) ≤ y := by
  rw [k0_pay1_apply, fold_max_bot_le_iff]

/-- The first block's store: the block's eight rows of maxima. -/
theorem k0_pay2_eq (b : Vec Ideal S1024x1024 .f32) : k0_pay2 (F := Ideal) b = k0_pay1 b :=
  shapeCast_self _ _

/-- A later block's store: the pointwise maximum of the accumulator and the block's eight rows of maxima. -/
theorem k0_pay3_eq (b : Vec Ideal S1024x1024 .f32) (a : Vec Ideal S8x1024 .f32) :
    k0_pay3 (F := Ideal) b a = maximumf a (k0_pay1 b) :=
  shapeCast_self _ _

/-- A later block's store, read at an entry. -/
theorem k0_pay3_apply (b : Vec Ideal S1024x1024 .f32) (a : Vec Ideal S8x1024 .f32) (s : Fin 8) (q : Fin 1024) :
    k0_pay3 (F := Ideal) b a (ix2 s q) = max (a (ix2 s q)) (k0_pay1 b (ix2 s q)) :=
  (congrFun (k0_pay3_eq b a) (ix2 s q)).trans (maximumf_apply a (k0_pay1 b) (ix2 s q))

/-- The accumulator after the four blocks is below a bound exactly when every entry it has seen is. -/
theorem accOf_le_iff (b : Fin 4 → Vec Ideal S1024x1024 .f32) (s : Fin 8) (q : Fin 1024) (y : EReal) :
    accOf (F := Ideal) b (ix2 s q) ≤ y
      ↔ ∀ (t : Fin 4) (i : Fin 128), b t (ix2 (⟨8 * i.val + s.val, by omega⟩ : Fin 1024) q) ≤ y := by
  have e : accOf (F := Ideal) b (ix2 s q)
      = max (max (max (k0_pay1 (b 0) (ix2 s q)) (k0_pay1 (b 1) (ix2 s q))) (k0_pay1 (b 2) (ix2 s q)))
          (k0_pay1 (b 3) (ix2 s q)) := by
    unfold accOf
    rw [k0_pay3_apply, k0_pay3_apply, k0_pay3_apply, k0_pay2_eq]
  rw [e, max_le_iff, max_le_iff, max_le_iff, k0_pay1_le_iff, k0_pay1_le_iff, k0_pay1_le_iff, k0_pay1_le_iff]
  constructor
  · rintro ⟨⟨⟨h0, h1⟩, h2⟩, h3⟩ t
    match t with
    | ⟨0, _⟩ => exact h0
    | ⟨1, _⟩ => exact h1
    | ⟨2, _⟩ => exact h2
    | ⟨3, _⟩ => exact h3
  · intro h
    exact ⟨⟨⟨h 0, h 1⟩, h 2⟩, h 3⟩

/-- A device's own row is below a bound exactly when every entry of its four blocks in that column is. -/
theorem rowOf_le_iff (b : Fin 4 → Vec Ideal S1024x1024 .f32) (u : Fin 1) (q : Fin 1024) (y : EReal) :
    rowOf (F := Ideal) b (ix2 u q) ≤ y
      ↔ ∀ (s : Fin 8) (t : Fin 4) (i : Fin 128), b t (ix2 (⟨8 * i.val + s.val, by omega⟩ : Fin 1024) q) ≤ y := by
  have e : rowOf (F := Ideal) b (ix2 u q)
      = (Finset.univ : Finset (Fin 8)).fold max ⊥ (fun s => accOf (F := Ideal) b (ix2 s q)) :=
    colMax_apply (accOf (F := Ideal) b) reduces_S8x1024_S1024 shapeCasts_S1024_S1x1024 u q
  rw [e, fold_max_bot_le_iff]
  exact forall_congr' fun s => accOf_le_iff b s q y

/-- The two identity casts on the way to the gathered array change nothing. -/
theorem k0_pay6_eq (v : Vec Ideal S1x1024 .f32) : k0_pay6 (F := Ideal) v = v := by
  show shapeCast S1x1024 (shapeCast S1x1024 v shapeCasts_S1x1024_S1x1024) shapeCasts_S1x1024_S1x1024 = v
  rw [shapeCast_self, shapeCast_self]

/-- Row `c` of the gathered array is device `c`'s own row. -/
theorem gathOf_apply (B : Fin 4 → Fin 4 → Vec Ideal S1024x1024 .f32) (c : Fin 4) (q : Fin 1024) :
    gathOf (F := Ideal) B (ix2 c q) = rowOf (F := Ideal) (B c) (ix2 (0 : Fin 1) q) := by
  show k0_pay6 (F := Ideal) (rowOf (F := Ideal) (B c)) (ix2 (0 : Fin 1) q) = _
  rw [k0_pay6_eq]

/-- The result row is below a bound exactly when every entry of every device's blocks in that column is. -/
theorem resOf_le_iff (B : Fin 4 → Fin 4 → Vec Ideal S1024x1024 .f32) (u : Fin 1) (q : Fin 1024) (y : EReal) :
    resOf (F := Ideal) B (ix2 u q) ≤ y
      ↔ ∀ (c : Fin 4) (s : Fin 8) (t : Fin 4) (i : Fin 128),
          B c t (ix2 (⟨8 * i.val + s.val, by omega⟩ : Fin 1024) q) ≤ y := by
  have e : resOf (F := Ideal) B (ix2 u q)
      = (Finset.univ : Finset (Fin 4)).fold max ⊥ (fun c => gathOf (F := Ideal) B (ix2 c q)) :=
    colMax_apply (gathOf (F := Ideal) B) reduces_S4x1024_S1024 shapeCasts_S1024_S1x1024 u q
  rw [e, fold_max_bot_le_iff]
  refine forall_congr' fun c => ?_
  rw [gathOf_apply]
  exact rowOf_le_iff (B c) 0 q y

end Kernel

section Reference

open Cert.ReferenceIdeal Cert.ReferenceIdeal.Gen Cert.ReferenceIdeal.Read

/-- The whole array reduces along its rows to one entry per column. -/
theorem reduces_S16384x1024_S1024 : S16384x1024.Reduces [0] S1024 := by decide

/-- The reference at column `q`: the maximum from −∞ of the column's 16384 entries. -/
theorem ref_apply (X : Vec Ideal S16384x1024 .f32) (u : Fin 1) (q : Fin 1024) :
    val_main_v1 (F := Ideal) X (ix2 u q)
      = (Finset.univ : Finset (Fin 16384)).fold max ⊥ (fun r => X (ix2 r q)) := by
  rw [val_main_v1_apply]
  have hj : idx_main_v1 (ix2 u q) = ix1 q := by
    funext a
    match a with
    | ⟨0, _⟩ => rfl
  rw [hj]
  unfold val_main_v0
  refine (Host.reduce_eq_fold_single (FloatOps.maximumf (F := Ideal) (φ := .f32)) X (val_main_cst (F := Ideal))
    reducesTo_S16384x1024_S1024_d0 reduces_S16384x1024_S1024 h_S_ (ix1 q)).trans ?_
  rw [val_main_cst_apply, ofBits_negInf]
  show (Finset.univ : Finset (Fin 16384)).fold max ⊥ _ = _
  refine congrArg (fun f : Fin 16384 → EReal => (Finset.univ : Finset (Fin 16384)).fold max ⊥ f) (funext fun r => ?_)
  exact congrArg X (lift_rows reduces_S16384x1024_S1024 q r)

/-- The reference's row is below a bound exactly when every entry of the column is. -/
theorem ref_le_iff (X : Vec Ideal S16384x1024 .f32) (u : Fin 1) (q : Fin 1024) (y : EReal) :
    val_main_v1 (F := Ideal) X (ix2 u q) ≤ y ↔ ∀ r : Fin 16384, X (ix2 r q) ≤ y := by
  rw [ref_apply, fold_max_bot_le_iff]

end Reference

/-- When block `t` of device `c` is rows `4096 c + 1024 t …` of the whole array `X`, the kernel's result row is
    the reference's: the columnwise maximum over all 16384 rows. Both are the least upper bound of the column's
    entries: every row `r < 16384` is `4096 c + 1024 t + 8 i + s` for exactly one device `c`, block `t`, group
    `i` and row-in-group `s`. -/
theorem resOf_eq_ref (X : Vec Ideal Cert.ReferenceIdeal.S16384x1024 .f32)
    (B : Fin 4 → Fin 4 → Vec Ideal Cert.KernelIdeal.S1024x1024 .f32)
    (hB : ∀ (c t : Fin 4) (p : Fin 1024) (q : Fin 1024),
      B c t (ix2 p q) = X (ix2 (⟨4096 * c.val + 1024 * t.val + p.val, by omega⟩ : Fin 16384) q)) :
    Cert.KernelIdeal.Hand.resOf (F := Ideal) B = Cert.ReferenceIdeal.Read.val_main_v1 (F := Ideal) X := by
  funext j
  obtain ⟨u, q, rfl⟩ : ∃ (u : Fin 1) (q : Fin 1024), j = ix2 u q := ⟨j 0, j 1, eq_ix2 j⟩
  show (Cert.KernelIdeal.Hand.resOf (F := Ideal) B (ix2 u q) : EReal)
    = Cert.ReferenceIdeal.Read.val_main_v1 (F := Ideal) X (ix2 u q)
  apply le_antisymm
  · -- every entry the kernel has seen is an entry of the column
    rw [resOf_le_iff]
    intro c s t i
    rw [hB]
    exact (ref_le_iff X u q _).1 le_rfl _
  · -- every entry of the column is seen by some device, in some block, group and row of the group
    rw [ref_le_iff]
    intro r
    have hr : r.val < 16384 := r.isLt
    have h := (resOf_le_iff B u q _).1 le_rfl (⟨r.val / 4096, by omega⟩ : Fin 4) (⟨r.val % 8, by omega⟩ : Fin 8)
      (⟨r.val % 4096 / 1024, by omega⟩ : Fin 4) (⟨r.val % 1024 / 8, by omega⟩ : Fin 128)
    rw [hB] at h
    refine le_of_eq_of_le (congrArg X (congrArg (fun r' : Fin 16384 => ix2 r' q) (Fin.ext ?_))) h
    show r.val = 4096 * (r.val / 4096) + 1024 * (r.val % 4096 / 1024) + (8 * (r.val % 1024 / 8) + r.val % 8)
    omega

end Cert.Proof.Value

end
-- ==== Proof.Claims.lean ====
/-
  The five claims: the three programs' frames, the idealization's ledger (empty), and that on the mesh of four devices
  the idealized kernel's result row on every device is the idealized reference's columnwise maximum of the whole array.

  The kernel's frames are its run on the mesh with the result dropped, at the word-level and at the ideal instance; the
  reference's is its run with the result dropped. For the value claim both runs are stated with one result: the kernel's
  result row, the same on every device, which is the reference's result when every device's argument buffer is its
  block of the reference's array.
-/
import proofs.«900920_g7700000000000921_dist_max_ax0_shard0_i_m4096_n1024_v7x_i4_bf16_1_alg».proof.Defs
import proofs.«900920_g7700000000000921_dist_max_ax0_shard0_i_m4096_n1024_v7x_i4_bf16_1_alg».proof.Proof.Run
import proofs.«900920_g7700000000000921_dist_max_ax0_shard0_i_m4096_n1024_v7x_i4_bf16_1_alg».proof.Proof.Bits.Run
import proofs.«900920_g7700000000000921_dist_max_ax0_shard0_i_m4096_n1024_v7x_i4_bf16_1_alg».proof.Proof.Value
import proofs.«900920_g7700000000000921_dist_max_ax0_shard0_i_m4096_n1024_v7x_i4_bf16_1_alg».proof.Proof.Final
import proofs.«900920_g7700000000000921_dist_max_ax0_shard0_i_m4096_n1024_v7x_i4_bf16_1_alg».proof.Proof.Gen.ReferenceIdeal.Run
import proofs.«900920_g7700000000000921_dist_max_ax0_shard0_i_m4096_n1024_v7x_i4_bf16_1_alg».proof.Proof.Gen.ReferenceIdeal.Read
import proofs.«900920_g7700000000000921_dist_max_ax0_shard0_i_m4096_n1024_v7x_i4_bf16_1_alg».proof.Proof.Gen.Pre_finite_inputs_Kernel
import proofs.«900920_g7700000000000921_dist_max_ax0_shard0_i_m4096_n1024_v7x_i4_bf16_1_alg».proof.Proof.Gen.Pre_finite_inputs_ReferenceIdeal

noncomputable section

open Idealize.ShloMosaic Idealize.ShloMosaic.TcCoe Idealize.SL.Sem

namespace Cert.Proof.Claims

theorem frame_kernel : Cert.frame_Kernel := fun m ρ _ =>
  (θ_run Cert.Kernel.defs _ _).mono (fun _ h c => (h c).2) (Cert.Kernel.Hand.run_main (F := Bits) m ρ)

theorem frame_kernelIdeal : Cert.frame_KernelIdeal := fun m ρ _ =>
  (θ_run Cert.KernelIdeal.defs _ _).mono (fun _ h c => (h c).2) (Cert.KernelIdeal.Hand.run_main (F := Ideal) m ρ)

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m g m' g' _ hagree
  -- the common result: the kernel's result row, the same on every device
  refine ⟨Cert.KernelIdeal.Hand.res (F := Ideal) m, Cert.KernelIdeal.Hand.run_main (F := Ideal) m g, ?_⟩
  refine (θ_run Cert.ReferenceIdeal.defs _ _).mono (fun _ h => ?_) (Cert.ReferenceIdeal.Value.run (F := Ideal) m' g')
  refine ⟨(h 0).1.trans ?_, (h 0).2⟩
  -- the reference's columnwise maximum of the whole array is that row, each device's blocks being rows of the array
  exact (Cert.Proof.Value.resOf_eq_ref
    (m' (((0 : Dev Cert.ReferenceIdeal.nD).tc : Thread Cert.ReferenceIdeal.nD Cert.ReferenceIdeal.τ).loc Cert.ReferenceIdeal.main_arg0))
    (fun d => Cert.KernelIdeal.Hand.blks m d)
    (fun c t p q => Cert.KernelIdeal.Hand.blks_of_block m _ c (hagree c) t p q)).symm

end Cert.Proof.Claims

end
-- ==== Proof.lean ====
/-
  The certificate: the programs' stated side conditions, witnessed by the generated modules, and the five claims.
-/
import proofs.«900920_g7700000000000921_dist_max_ax0_shard0_i_m4096_n1024_v7x_i4_bf16_1_alg».proof.Proof.Claims
import proofs.«900920_g7700000000000921_dist_max_ax0_shard0_i_m4096_n1024_v7x_i4_bf16_1_alg».proof.Proof.Gen.Kernel
import proofs.«900920_g7700000000000921_dist_max_ax0_shard0_i_m4096_n1024_v7x_i4_bf16_1_alg».proof.Proof.Gen.KernelIdeal
import proofs.«900920_g7700000000000921_dist_max_ax0_shard0_i_m4096_n1024_v7x_i4_bf16_1_alg».proof.Proof.Gen.ReferenceIdeal
import proofs.«900920_g7700000000000921_dist_max_ax0_shard0_i_m4096_n1024_v7x_i4_bf16_1_alg».proof.Proof.Gen.Pre_finite_inputs_Kernel
import proofs.«900920_g7700000000000921_dist_max_ax0_shard0_i_m4096_n1024_v7x_i4_bf16_1_alg».proof.Proof.Gen.Pre_finite_inputs_ReferenceIdeal

noncomputable section

namespace Cert.Proof

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    Claims.frame_kernel, Claims.frame_kernelIdeal, Claims.frame_reference, Claims.preserves, Claims.algebraic⟩

end Cert.Proof

end
